-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x800000 : Shape := ⟨2, ![2, 800000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x16 : Shape := ⟨2, ![256, 16]⟩
abbrev S16 : Shape := ⟨1, ![16]⟩
abbrev S_ : Shape := ⟨0, ![]⟩
abbrev S1x800000 : Shape := ⟨2, ![1, 800000]⟩
abbrev S800000 : Shape := ⟨1, ![800000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part3 {F : FTy → Type} [FloatOps F] (main_arg1 : IVec S2x800000 32) (main_v48 : IVec S_ 1) (main_v50 : IVec S800000 32) (main_c_18 : IVec S_ 32) : IVec S_ 1 :=
  let main_v51 : IVec S800000 32 := broadcastInDim S800000 ![] bcast_S_S800000 main_c_18
  let main_v52 : IVec S800000 1 := cmpi .sge main_v50 main_v51
  let main_v53 : IVec S1x800000 32 := (extractStridedSlice S1x800000 ![0, 0] · slices_S2x800000_S1x800000_0_0) main_arg1
  let main_v54 : IVec S800000 32 := shapeCast S800000 main_v53 shapeCasts_S1x800000_S800000
  let main_c_19 : IVec S_ 32 := constantI S_ 32 100000#32
  let main_v55 : IVec S800000 32 := broadcastInDim S800000 ![] bcast_S_S800000 main_c_19
  let main_v56 : IVec S800000 1 := cmpi .slt main_v54 main_v55
  let main_v57 : IVec S800000 1 := andi main_v52 main_v56
  let main_c_20 : IVec S_ 1 := constantI S_ 1 1#1
  let main_v58 : IVec S_ 1 := (fun x v => Host.reduce IntOp.andi x v reducesTo_S800000_S_d0 h_S_) main_v57 main_c_20
  let main_v59 : IVec S_ 1 := andi main_v48 main_v58
  main_v59

def fn_part2 {F : FTy → Type} [FloatOps F] (main_arg1 : IVec S2x800000 32) (main_arg8 : FVec F S256x16 .f32) (main_arg9 : FVec F S256x16 .f32) (main_arg10 : FVec F S16 .f32) (main_v33 : IVec S_ 1) : IVec S_ 1 :=
  let main_v34 : FVec F S256x16 .f32 := Host.absf main_arg8
  let main_cst_12 : FVec F S_ .f32 := constant S_ .f32 0x7F800000#32
  let main_v35 : FVec F S256x16 .f32 := broadcastInDim S256x16 ![] bcast_S_S256x16 main_cst_12
  let main_v36 : IVec S256x16 1 := cmpf .olt main_v34 main_v35
  let main_c_13 : IVec S_ 1 := constantI S_ 1 1#1
  let main_v37 : IVec S_ 1 := (fun x v => Host.reduce IntOp.andi x v reducesTo_S256x16_S_d0_1 h_S_) main_v36 main_c_13
  let main_v38 : IVec S_ 1 := andi main_v33 main_v37
  let main_v39 : FVec F S256x16 .f32 := Host.absf main_arg9
  let main_cst_14 : FVec F S_ .f32 := constant S_ .f32 0x7F800000#32
  let main_v40 : FVec F S256x16 .f32 := broadcastInDim S256x16 ![] bcast_S_S256x16 main_cst_14
  let main_v41 : IVec S256x16 1 := cmpf .olt main_v39 main_v40
  let main_c_15 : IVec S_ 1 := constantI S_ 1 1#1
  let main_v42 : IVec S_ 1 := (fun x v => Host.reduce IntOp.andi x v reducesTo_S256x16_S_d0_1 h_S_) main_v41 main_c_15
  let main_v43 : IVec S_ 1 := andi main_v38 main_v42
  let main_v44 : FVec F S16 .f32 := Host.absf main_arg10
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  let main_v49 : IVec S1x800000 32 := (extractStridedSlice S1x800000 ![0, 0] · slices_S2x800000_S1x800000_0_0) main_arg1
  let main_v50 : IVec S800000 32 := shapeCast S800000 main_v49 shapeCasts_S1x800000_S800000
  let main_c_18 : IVec S_ 32 := constantI S_ 32 0#32
  fn_part3 (F := F) main_arg1 main_v48 main_v50 main_c_18

def fn_part1 {F : FTy → Type} [FloatOps F] (main_arg1 : IVec S2x800000 32) (main_arg5 : FVec F S128x256 .f32) (main_arg6 : FVec F S128x256 .f32) (main_arg7 : FVec F S256 .f32) (main_arg8 : FVec F S256x16 .f32) (main_arg9 : FVec F S256x16 .f32) (main_arg10 : FVec F S16 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128x256 .f32 := Host.absf main_arg6
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg1 main_arg8 main_arg9 main_arg10 main_v33

def fn {F : FTy → Type} [FloatOps F] (main_arg0 : FVec F S100000x128 .f32) (main_arg1 : IVec S2x800000 32) (main_arg2 : FVec F S128x128 .f32) (main_arg3 : FVec F S128x128 .f32) (main_arg4 : FVec F S128 .f32) (main_arg5 : FVec F S128x256 .f32) (main_arg6 : FVec F S128x256 .f32) (main_arg7 : FVec F S256 .f32) (main_arg8 : FVec F S256x16 .f32) (main_arg9 : FVec F S256x16 .f32) (main_arg10 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_v13 main_v16
-- ==== Kernel.lean ====
abbrev S100000x128 : Shape := ⟨2, ![100000, 128]⟩
abbrev S2x800000 : Shape := ⟨2, ![2, 800000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x16 : Shape := ⟨2, ![256, 16]⟩
abbrev S16 : Shape := ⟨1, ![16]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S1x128 : Shape := ⟨2, ![1, 128]⟩
abbrev S10000x128 : Shape := ⟨2, ![10000, 128]⟩
abbrev S1x256 : Shape := ⟨2, ![1, 256]⟩
abbrev S100000x256 : Shape := ⟨2, ![100000, 256]⟩
abbrev S10000x256 : Shape := ⟨2, ![10000, 256]⟩
abbrev S100000x16 : Shape := ⟨2, ![100000, 16]⟩
abbrev S2000x256 : Shape := ⟨2, ![2000, 256]⟩
abbrev S2000x16 : Shape := ⟨2, ![2000, 16]⟩
abbrev S800000x16 : Shape := ⟨2, ![800000, 16]⟩
abbrev S1x16 : Shape := ⟨2, ![1, 16]⟩
abbrev S2000 : Shape := ⟨1, ![2000]⟩
abbrev S2000x1 : Shape := ⟨2, ![2000, 1]⟩

abbrev nBuf : Space → Nat
  | .hbm => 103
  | .vmem => 31
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x256, .f32⟩
  | .hbm, ⟨6, _⟩ => ⟨S128x256, .f32⟩
  | .hbm, ⟨7, _⟩ => ⟨S256, .f32⟩
  | .hbm, ⟨8, _⟩ => ⟨S256x16, .f32⟩
  | .hbm, ⟨9, _⟩ => ⟨S256x16, .f32⟩
  | .hbm, ⟨10, _⟩ => ⟨S16, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S1, .i32⟩
  | .hbm, ⟨24, _⟩ => ⟨S_, .i32⟩
  | .hbm, ⟨25, _⟩ => ⟨S800000x1, .i32⟩
  | .hbm, ⟨26, _⟩ => ⟨S800000x1, .i1⟩
  | .hbm, ⟨27, _⟩ => ⟨S1x1, .i32⟩
  | .hbm, ⟨28, _⟩ => ⟨S800000x1, .i32⟩
  | .hbm, ⟨29, _⟩ => ⟨S800000x1, .i1⟩
  | .hbm, ⟨30, _⟩ => ⟨S800000x1, .i1⟩
  | .hbm, ⟨31, _⟩ => ⟨S_, .i1⟩
  | .hbm, ⟨32, _⟩ => ⟨S800000, .i1⟩
  | .hbm, ⟨33, _⟩ => ⟨S800000x128, .f32⟩
  | .hbm, ⟨34, _⟩ => ⟨S800000x128, .i1⟩
  | .hbm, ⟨35, _⟩ => ⟨S_, .f32⟩
  | .hbm, ⟨36, _⟩ => ⟨S800000x128, .f32⟩
  | .hbm, ⟨37, _⟩ => ⟨S800000x128, .f32⟩
  | .hbm, ⟨38, _⟩ => ⟨S_, .f32⟩
  | .hbm, ⟨39, _⟩ => ⟨S100000x128, .f32⟩
  | .hbm, ⟨40, _⟩ => ⟨S800000x1, .i32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S1, .i32⟩
  | .hbm, ⟨53, _⟩ => ⟨S_, .i32⟩
  | .hbm, ⟨54, _⟩ => ⟨S800000x1, .i32⟩
  | .hbm, ⟨55, _⟩ => ⟨S800000x1, .i1⟩
  | .hbm, ⟨56, _⟩ => ⟨S1x1, .i32⟩
  | .hbm, ⟨57, _⟩ => ⟨S800000x1, .i32⟩
  | .hbm, ⟨58, _⟩ => ⟨S800000x1, .i1⟩
  | .hbm, ⟨59, _⟩ => ⟨S800000x1, .i1⟩
  | .hbm, ⟨60, _⟩ => ⟨S_, .i1⟩
  | .hbm, ⟨61, _⟩ => ⟨S800000, .i1⟩
  | .hbm, ⟨62, _⟩ => ⟨S800000x128, .f32⟩
  | .hbm, ⟨63, _⟩ => ⟨S800000x128, .i1⟩
  | .hbm, ⟨64, _⟩ => ⟨S_, .f32⟩
  | .hbm, ⟨65, _⟩ => ⟨S800000x128, .f32⟩
  | .hbm, ⟨66, _⟩ => ⟨S800000x128, .f32⟩
  | .hbm, ⟨67, _⟩ => ⟨S_, .f32⟩
  | .hbm, ⟨68, _⟩ => ⟨S100000x128, .f32⟩
  | .hbm, ⟨69, _⟩ => ⟨S800000x1, .i32⟩
  | .hbm, ⟨70, _⟩ => ⟨S100000x128, .f32⟩
  | .hbm, ⟨71, _⟩ => ⟨S1x256, .f32⟩
  | .hbm, ⟨72, _⟩ => ⟨S100000x256, .f32⟩
  | .hbm, ⟨73, _⟩ => ⟨S100000x16, .f32⟩
  | .hbm, ⟨74, _⟩ => ⟨S_, .i32⟩
  | .hbm, ⟨75, _⟩ => ⟨S800000, .i32⟩
  | .hbm, ⟨76, _⟩ => ⟨S800000, .i1⟩
  | .hbm, ⟨77, _⟩ => ⟨S_, .i32⟩
  | .hbm, ⟨78, _⟩ => ⟨S800000, .i32⟩
  | .hbm, ⟨79, _⟩ => ⟨S800000, .i32⟩
  | .hbm, ⟨80, _⟩ => ⟨S800000, .i32⟩
  | .hbm, ⟨81, _⟩ => ⟨S800000x1, .i32⟩
  | .hbm, ⟨82, _⟩ => ⟨S1, .i32⟩
  | .hbm, ⟨83, _⟩ => ⟨S_, .i32⟩
  | .hbm, ⟨84, _⟩ => ⟨S800000x1, .i32⟩
  | .hbm, ⟨85, _⟩ => ⟨S800000x1, .i1⟩
  | .hbm, ⟨86, _⟩ => ⟨S1x1, .i32⟩
  | .hbm, ⟨87, _⟩ => ⟨S800000x1, .i32⟩
  | .hbm, ⟨88, _⟩ => ⟨S800000x1, .i1⟩
  | .hbm, ⟨89, _⟩ => ⟨S800000x1, .i1⟩
  | .hbm, ⟨90, _⟩ => ⟨S_, .i1⟩
  | .hbm, ⟨91, _⟩ => ⟨S800000, .i1⟩
  | .hbm, ⟨92, _⟩ => ⟨S800000x16, .f32⟩
  | .hbm, ⟨93, _⟩ => ⟨S800000x16, .i1⟩
  | .hbm, ⟨94, _⟩ => ⟨S_, .f32⟩
  | .hbm, ⟨95, _⟩ => ⟨S800000x16, .f32⟩
  | .hbm, ⟨96, _⟩ => ⟨S800000x16, .f32⟩
  | .hbm, ⟨97, _⟩ => ⟨S_, .f32⟩
  | .hbm, ⟨98, _⟩ => ⟨S100000x16, .f32⟩
  | .hbm, ⟨99, _⟩ => ⟨S800000x1, .i32⟩
  | .hbm, ⟨100, _⟩ => ⟨S100000x16, .f32⟩
  | .hbm, ⟨101, _⟩ => ⟨S1x16, .f32⟩
  | .hbm, ⟨102, _⟩ => ⟨S100000x16, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S10000x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S128x256, .f32⟩
  | .local _ .vmem, ⟨14, _⟩ => ⟨S128x256, .f32⟩
  | .local _ .vmem, ⟨15, _⟩ => ⟨S1x256, .f32⟩
  | .local _ .vmem, ⟨16, _⟩ => ⟨S10000x256, .f32⟩
  | .local _ .vmem, ⟨17, _⟩ => ⟨S10000x256, .f32⟩
  | .local _ .vmem, ⟨18, _⟩ => ⟨S2000x256, .f32⟩
  | .local _ .vmem, ⟨19, _⟩ => ⟨S2000x256, .f32⟩
  | .local _ .vmem, ⟨20, _⟩ => ⟨S256x16, .f32⟩
  | .local _ .vmem, ⟨21, _⟩ => ⟨S2000x16, .f32⟩
  | .local _ .vmem, ⟨22, _⟩ => ⟨S2000x16, .f32⟩
  | .local _ .vmem, ⟨23, _⟩ => ⟨S2000x16, .f32⟩
  | .local _ .vmem, ⟨24, _⟩ => ⟨S2000x16, .f32⟩
  | .local _ .vmem, ⟨25, _⟩ => ⟨S2000x256, .f32⟩
  | .local _ .vmem, ⟨26, _⟩ => ⟨S2000x256, .f32⟩
  | .local _ .vmem, ⟨27, _⟩ => ⟨S256x16, .f32⟩
  | .local _ .vmem, ⟨28, _⟩ => ⟨S1x16, .f32⟩
  | .local _ .vmem, ⟨29, _⟩ => ⟨S2000x16, .f32⟩
  | .local _ .vmem, ⟨30, _⟩ => ⟨S2000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v4 : Ref sig .tc := ⟨.hbm, 37, rfl⟩
abbrev main_cst : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_call1_cst : Ref sig .tc := ⟨.hbm, 64, rfl⟩
abbrev main_call1_v15 : Ref sig .tc := ⟨.hbm, 65, rfl⟩
abbrev main_v10 : Ref sig .tc := ⟨.hbm, 66, rfl⟩
abbrev main_cst_0 : Ref sig .tc := ⟨.hbm, 67, rfl⟩
abbrev main_v11 : Ref sig .tc := ⟨.hbm, 68, rfl⟩
abbrev main_v12 : Ref sig .tc := ⟨.hbm, 69, rfl⟩
abbrev main_v13 : Ref sig .tc := ⟨.hbm, 70, rfl⟩
abbrev main_v14 : Ref sig .tc := ⟨.hbm, 71, rfl⟩
abbrev main_v15 : Ref sig .tc := ⟨.hbm, 72, rfl⟩
abbrev main_v16 : Ref sig .tc := ⟨.hbm, 73, rfl⟩
abbrev main_call2_c : Ref sig .tc := ⟨.hbm, 74, rfl⟩
abbrev main_call2_v0 : Ref sig .tc := ⟨.hbm, 75, rfl⟩
abbrev main_call2_v1 : Ref sig .tc := ⟨.hbm, 76, rfl⟩
abbrev main_call2_c_0 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_call2_v5 : Ref sig .tc := ⟨.hbm, 81, rfl⟩
abbrev main_call2_c_1 : Ref sig .tc := ⟨.hbm, 82, rfl⟩
abbrev main_call2_c_2 : Ref sig .tc := ⟨.hbm, 83, rfl⟩
abbrev main_call2_v6 : Ref sig .tc := ⟨.hbm, 84, rfl⟩
abbrev main_call2_v7 : Ref sig .tc := ⟨.hbm, 85, rfl⟩
abbrev main_call2_v8 : Ref sig .tc := ⟨.hbm, 86, rfl⟩
abbrev main_call2_v9 : Ref sig .tc := ⟨.hbm, 87, rfl⟩
abbrev main_call2_v10 : Ref sig .tc := ⟨.hbm, 88, rfl⟩
abbrev main_call2_v11 : Ref sig .tc := ⟨.hbm, 89, rfl⟩
abbrev main_call2_c_3 : Ref sig .tc := ⟨.hbm, 90, rfl⟩
abbrev main_call2_v12 : Ref sig .tc := ⟨.hbm, 91, rfl⟩
abbrev main_call2_v13 : Ref sig .tc := ⟨.hbm, 92, rfl⟩
abbrev main_call2_v14 : Ref sig .tc := ⟨.hbm, 93, rfl⟩
abbrev main_call2_cst : Ref sig .tc := ⟨.hbm, 94, rfl⟩
abbrev main_call2_v15 : Ref sig .tc := ⟨.hbm, 95, rfl⟩
abbrev main_v17 : Ref sig .tc := ⟨.hbm, 96, rfl⟩
abbrev main_cst_1 : Ref sig .tc := ⟨.hbm, 97, rfl⟩
abbrev main_v18 : Ref sig .tc := ⟨.hbm, 98, rfl⟩
abbrev main_v19 : Ref sig .tc := ⟨.hbm, 99, rfl⟩
abbrev main_v20 : Ref sig .tc := ⟨.hbm, 100, rfl⟩
abbrev main_v21 : Ref sig .tc := ⟨.hbm, 101, rfl⟩
abbrev main_v22 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg4_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem4_0 : DmaSem sig := 29
abbrev cc3_sem4_1 : DmaSem sig := 30

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x16 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S100000x128 : S_.BroadcastsInDim S100000x128 (![] : Fin 0 → Fin S100000x128.rank)
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S256_S1x256 : S256.ShapeCasts S1x256
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S10000x256 : S1x256.Broadcasts S10000x256
  inb_S10000x256_S10000x256_0_0 : ∀ a, (![0, 0] : Fin 2 → Nat) a + S10000x256.size a ≤ S10000x256.size a
  h_S10000x256 : 0 < S10000x256.numel
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x16_S256x16_0_0 : ∀ a, (![0, 0] : Fin 2 → Nat) a + S256x16.size a ≤ S256x16.size a
  h_S256x16 : 0 < S256x16.numel
  inb_S2000x16_S2000x16_0_0 : ∀ a, (![0, 0] : Fin 2 → Nat) a + S2000x16.size a ≤ S2000x16.size a
  h_S2000x16 : 0 < S2000x16.numel
  bcast_S800000_S800000x16_0 : S800000.BroadcastsInDim S800000x16 (![0] : Fin 1 → Fin S800000x16.rank)
  bcast_S_S800000x16 : S_.BroadcastsInDim S800000x16 (![] : Fin 0 → Fin S800000x16.rank)
  bcast_S_S100000x16 : S_.BroadcastsInDim S100000x16 (![] : Fin 0 → Fin S100000x16.rank)
  shapeCasts_S16_S1x16 : S16.ShapeCasts S1x16
  shapeCasts_S2000x16_S2000x16 : S2000x16.ShapeCasts S2000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  reduces_S2000x16_S2000 : S2000x16.Reduces [1] S2000
  shapeCasts_S2000_S2000x1 : S2000.ShapeCasts S2000x1
  broadcasts_S2000x1_S2000x16 : S2000x1.Broadcasts S2000x16
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S10000x128_S128x128_S10000x128_1_0_0_1_n_n_wf : DotDims.WF S10000x128 S128x128 S10000x128 [1] [0] [0] [1] [] []
  dot_S10000x128_S128x256_S10000x256_1_0_0_1_n_n_wf : DotDims.WF S10000x128 S128x256 S10000x256 [1] [0] [0] [1] [] []
  dot_S2000x256_S256x16_S2000x16_1_0_0_1_n_n_wf : DotDims.WF S2000x256 S256x16 S2000x16 [1] [0] [0] [1] [] []
  gather_S100000x16_S800000x1_S800000x16_1_0_n_n_0_1_116_wf : GatherDims.WF S100000x16 S800000x1 S800000x16 [1] [0] [] [0] [] 1 ![1, 16]
  scatter_S100000x16_S800000x1_S800000x16_1_0_0_1_wf : ScatterDims.WF S100000x16 S800000x1 S800000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S100000x128.size a
  hwx0_5 : ∀ i : grid0.Coords, EltTy.bits .f32 = 32 ∨ (Rect.block (s := S100000x128) S10000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .f32 = 32 ∨ (Rect.block (s := S128x256) S128x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x256.size a ≤ S100000x256.size a
  hwx1_5 : ∀ i : grid1.Coords, EltTy.bits .f32 = 32 ∨ (Rect.block (s := S100000x256) S10000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S100000x256.size a
  hwx2_0 : ∀ i : grid2.Coords, EltTy.bits .f32 = 32 ∨ (Rect.block (s := S100000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x16.size a ≤ S256x16.size a
  hwx2_1 : ∀ i : grid2.Coords, EltTy.bits .f32 = 32 ∨ (Rect.block (s := S256x16) S256x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x16.size a ≤ S100000x16.size a
  hwx2_2 : ∀ i : grid2.Coords, EltTy.bits .f32 = 32 ∨ (Rect.block (s := S100000x16) S2000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x16.size a ≤ S100000x16.size a
  hwx3_0 : ∀ i : grid3.Coords, EltTy.bits .f32 = 32 ∨ (Rect.block (s := S100000x16) S2000x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S100000x256.size a
  hwx3_1 : ∀ i : grid3.Coords, EltTy.bits .f32 = 32 ∨ (Rect.block (s := S100000x256) S2000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x16.size a ≤ S256x16.size a
  hwx3_2 : ∀ i : grid3.Coords, EltTy.bits .f32 = 32 ∨ (Rect.block (s := S256x16) S256x16.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x16.size a ≤ S1x16.size a
  hwx3_3 : ∀ i : grid3.Coords, EltTy.bits .f32 = 32 ∨ (Rect.block (s := S1x16) S1x16.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x16.size a ≤ S100000x16.size a
  hwx3_4 : ∀ i : grid3.Coords, EltTy.bits .f32 = 32 ∨ (Rect.block (s := S100000x16) S2000x16.size (cc3_transform_4 i) (hinb3_4 i)).WholeWords (EltTy.packing .f32)

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def dot_S2000x256_S256x16_S2000x16_1_0_0_1_n_n : DotDims S2000x256 S256x16 S2000x16 where
  lhsContracting := [1]
  rhsContracting := [0]
  lhsNonContracting := [0]
  rhsNonContracting := [1]
  lhsBatch := []
  rhsBatch := []
  wf := dot_S2000x256_S256x16_S2000x16_1_0_0_1_n_n_wf
def gather_S100000x16_S800000x1_S800000x16_1_0_n_n_0_1_116 : GatherDims S100000x16 S800000x1 S800000x16 where
  offsetDims := [1]
  collapsedSliceDims := [0]
  operandBatchingDims := []
  startIndicesBatchingDims := []
  startIndexMap := [0]
  indexVectorDim := 1
  sliceSizes := ![1, 16]
  wf := gather_S100000x16_S800000x1_S800000x16_1_0_n_n_0_1_116_wf
def scatter_S100000x16_S800000x1_S800000x16_1_0_0_1 : ScatterDims S100000x16 S800000x1 S800000x16 where
  updateWindowDims := [1]
  insertedWindowDims := [0]
  scatterDimsToOperandDims := [0]
  indexVectorDim := 1
  wf := scatter_S100000x16_S800000x1_S800000x16_1_0_0_1_wf

abbrev win0_0 : Pipeline.Window sig grid0 :=
  Pipeline.Window.ofSpec (Memref.whole main_v7) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S10000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v13) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v15) S10000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v15) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S256x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S2000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v20) S2000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S256x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v21) S1x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v22) S2000x16.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x800000 : Shape := ⟨2, ![2, 800000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x16 : Shape := ⟨2, ![256, 16]⟩
abbrev S16 : Shape := ⟨1, ![16]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S100000x256 : Shape := ⟨2, ![100000, 256]⟩
abbrev S1x256 : Shape := ⟨2, ![1, 256]⟩
abbrev S800000x256 : Shape := ⟨2, ![800000, 256]⟩
abbrev S100000x16 : Shape := ⟨2, ![100000, 16]⟩
abbrev S1x16 : Shape := ⟨2, ![1, 16]⟩
abbrev S100000 : Shape := ⟨1, ![100000]⟩
abbrev S100000x1 : Shape := ⟨2, ![100000, 1]⟩

abbrev nBuf : Space → Nat
  | .hbm => 93
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x256, .f32⟩
  | .hbm, ⟨6, _⟩ => ⟨S128x256, .f32⟩
  | .hbm, ⟨7, _⟩ => ⟨S256, .f32⟩
  | .hbm, ⟨8, _⟩ => ⟨S256x16, .f32⟩
  | .hbm, ⟨9, _⟩ => ⟨S256x16, .f32⟩
  | .hbm, ⟨10, _⟩ => ⟨S16, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .f32⟩
  | .hbm, ⟨25, _⟩ => ⟨S100000x128, .f32⟩
  | .hbm, ⟨26, _⟩ => ⟨S800000x1, .i32⟩
  | .hbm, ⟨27, _⟩ => ⟨S100000x128, .f32⟩
  | .hbm, ⟨28, _⟩ => ⟨S100000x128, .f32⟩
  | .hbm, ⟨29, _⟩ => ⟨S100000x128, .f32⟩
  | .hbm, ⟨30, _⟩ => ⟨S100000x128, .f32⟩
  | .hbm, ⟨31, _⟩ => ⟨S1x128, .f32⟩
  | .hbm, ⟨32, _⟩ => ⟨S100000x128, .f32⟩
  | .hbm, ⟨33, _⟩ => ⟨S100000x128, .f32⟩
  | .hbm, ⟨34, _⟩ => ⟨S_, .f32⟩
  | .hbm, ⟨35, _⟩ => ⟨S100000x128, .f32⟩
  | .hbm, ⟨36, _⟩ => ⟨S100000x128, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x128, .f32⟩
  | .hbm, ⟨46, _⟩ => ⟨S_, .f32⟩
  | .hbm, ⟨47, _⟩ => ⟨S100000x128, .f32⟩
  | .hbm, ⟨48, _⟩ => ⟨S800000x1, .i32⟩
  | .hbm, ⟨49, _⟩ => ⟨S100000x128, .f32⟩
  | .hbm, ⟨50, _⟩ => ⟨S100000x256, .f32⟩
  | .hbm, ⟨51, _⟩ => ⟨S100000x256, .f32⟩
  | .hbm, ⟨52, _⟩ => ⟨S100000x256, .f32⟩
  | .hbm, ⟨53, _⟩ => ⟨S1x256, .f32⟩
  | .hbm, ⟨54, _⟩ => ⟨S100000x256, .f32⟩
  | .hbm, ⟨55, _⟩ => ⟨S100000x256, .f32⟩
  | .hbm, ⟨56, _⟩ => ⟨S_, .f32⟩
  | .hbm, ⟨57, _⟩ => ⟨S100000x256, .f32⟩
  | .hbm, ⟨58, _⟩ => ⟨S100000x256, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x256, .f32⟩
  | .hbm, ⟨68, _⟩ => ⟨S_, .f32⟩
  | .hbm, ⟨69, _⟩ => ⟨S100000x256, .f32⟩
  | .hbm, ⟨70, _⟩ => ⟨S800000x1, .i32⟩
  | .hbm, ⟨71, _⟩ => ⟨S100000x256, .f32⟩
  | .hbm, ⟨72, _⟩ => ⟨S100000x16, .f32⟩
  | .hbm, ⟨73, _⟩ => ⟨S100000x16, .f32⟩
  | .hbm, ⟨74, _⟩ => ⟨S100000x16, .f32⟩
  | .hbm, ⟨75, _⟩ => ⟨S1x16, .f32⟩
  | .hbm, ⟨76, _⟩ => ⟨S100000x16, .f32⟩
  | .hbm, ⟨77, _⟩ => ⟨S100000x16, .f32⟩
  | .hbm, ⟨78, _⟩ => ⟨S_, .f32⟩
  | .hbm, ⟨79, _⟩ => ⟨S100000, .f32⟩
  | .hbm, ⟨80, _⟩ => ⟨S_, .f32⟩
  | .hbm, ⟨81, _⟩ => ⟨S100000, .f32⟩
  | .hbm, ⟨82, _⟩ => ⟨S100000, .f32⟩
  | .hbm, ⟨83, _⟩ => ⟨S100000x1, .f32⟩
  | .hbm, ⟨84, _⟩ => ⟨S100000x16, .f32⟩
  | .hbm, ⟨85, _⟩ => ⟨S100000x16, .f32⟩
  | .hbm, ⟨86, _⟩ => ⟨S100000x16, .f32⟩
  | .hbm, ⟨87, _⟩ => ⟨S_, .f32⟩
  | .hbm, ⟨88, _⟩ => ⟨S100000, .f32⟩
  | .hbm, ⟨89, _⟩ => ⟨S100000x1, .f32⟩
  | .hbm, ⟨90, _⟩ => ⟨S100000x1, .f32⟩
  | .hbm, ⟨91, _⟩ => ⟨S100000x16, .f32⟩
  | .hbm, ⟨92, _⟩ => ⟨S100000x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_call0_cst : Ref sig .tc := ⟨.hbm, 34, rfl⟩
abbrev main_call0_v0 : Ref sig .tc := ⟨.hbm, 35, rfl⟩
abbrev main_v20 : Ref sig .tc := ⟨.hbm, 36, rfl⟩
abbrev main_c_1 : Ref sig .tc := ⟨.hbm, 37, rfl⟩
abbrev main_v21 : Ref sig .tc := ⟨.hbm, 38, rfl⟩
abbrev main_v22 : Ref sig .tc := ⟨.hbm, 39, rfl⟩
abbrev main_c_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_call1_cst : Ref sig .tc := ⟨.hbm, 56, rfl⟩
abbrev main_call1_v0 : Ref sig .tc := ⟨.hbm, 57, rfl⟩
abbrev main_v37 : Ref sig .tc := ⟨.hbm, 58, rfl⟩
abbrev main_c_4 : Ref sig .tc := ⟨.hbm, 59, rfl⟩
abbrev main_v38 : Ref sig .tc := ⟨.hbm, 60, rfl⟩
abbrev main_v39 : Ref sig .tc := ⟨.hbm, 61, rfl⟩
abbrev main_c_5 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_6 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_call2_cst : Ref sig .tc := ⟨.hbm, 78, rfl⟩
abbrev main_call2_v0 : Ref sig .tc := ⟨.hbm, 79, rfl⟩
abbrev main_call2_cst_0 : Ref sig .tc := ⟨.hbm, 80, rfl⟩
abbrev main_call2_v1 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_call2_v5 : Ref sig .tc := ⟨.hbm, 85, rfl⟩
abbrev main_call2_v6 : Ref sig .tc := ⟨.hbm, 86, rfl⟩
abbrev main_call2_cst_1 : Ref sig .tc := ⟨.hbm, 87, rfl⟩
abbrev main_call2_v7 : Ref sig .tc := ⟨.hbm, 88, rfl⟩
abbrev main_call2_v8 : Ref sig .tc := ⟨.hbm, 89, rfl⟩
abbrev main_call2_v9 : Ref sig .tc := ⟨.hbm, 90, rfl⟩
abbrev main_call2_v10 : Ref sig .tc := ⟨.hbm, 91, rfl⟩
abbrev main_v54 : Ref sig .tc := ⟨.hbm, 92, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S100000x128_S128x128_S100000x128_1_0_0_1_n_n_wf : DotDims.WF S100000x128 S128x128 S100000x128 [1] [0] [0] [1] [] []
  dot_S100000x128_S128x256_S100000x256_1_0_0_1_n_n_wf : DotDims.WF S100000x128 S128x256 S100000x256 [1] [0] [0] [1] [] []
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1
  dot_S100000x256_S256x16_S100000x16_1_0_0_1_n_n_wf : DotDims.WF S100000x256 S256x16 S100000x16 [1] [0] [0] [1] [] []

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def dot_S100000x256_S256x16_S100000x16_1_0_0_1_n_n : DotDims S100000x256 S256x16 S100000x16 where
  lhsContracting := [1]
  rhsContracting := [0]
  lhsNonContracting := [0]
  rhsNonContracting := [1]
  lhsBatch := []
  rhsBatch := []
  wf := dot_S100000x256_S256x16_S100000x16_1_0_0_1_n_n_wf

class Facts : Prop extends Facts₀ where

variable [Facts]
-- ==== Proof.Spec.lean ====
/-
  THE MATHEMATICS OF THE TWO PROGRAMS, AS MATRICES OVER THE EXTENDED REALS.

  A graph of `nN` nodes and `nE` directed edges is given by an index array of two rows: row 0 holds each edge's source
  word, row 1 its destination word. A source word is wrapped once (a negative word has the number of nodes added) and then
  read signed and clamped into the node range: that is the row a gather reads. A destination word is read signed and is
  never clamped: an edge whose destination is no node adds nothing.

  One graph-convolution layer sends node features `X` to
      (agg · W_rel + X · W_root) + bias,   agg i q = 0 + ∑ over the edges x with destination i of X (source x) q,
  (`conv`), and the same layer with the relation weights applied BEFORE the aggregation is
      ((0 + ∑ over the edges x with destination i of (X · W_rel) (source x) j) + X · W_root) + bias
  (`convT`). The network is two layers followed by a rectifier each, a third layer, and a row-wise log-softmax
  `y - m - log ∑ exp (y - m)` with `m = max ⊥ (the row's maximum)`. `netAgg` aggregates first in all three layers;
  `netPre` applies the third layer's relation weights first.
-/
import Idealize.ShloMosaic.PureOps.Ideal
import Idealize.ShloMosaic.Lib.ValueIdx

noncomputable section

open Idealize.ShloMosaic Idealize.ShloMosaic.ValueIdx
open scoped BigOperators

namespace Cert.GraphConv

/-- The number of nodes and the number of edges. -/
abbrev nN : Nat := 100000
abbrev nE : Nat := 800000

/-- A matrix of extended reals by its two coordinates. -/
abbrev Mat (a b : Nat) := Fin a → Fin b → EReal

/-- A rank-2 array as a matrix, a matrix as a rank-2 array, and a rank-1 array as a vector. -/
def ofArr {a b : Nat} (f : (⟨2, ![a, b]⟩ : Shape).Idx → EReal) : Mat a b := fun n k => f (ix2 n k)
def toArr {a b : Nat} (M : Mat a b) : (⟨2, ![a, b]⟩ : Shape).Idx → EReal :=
  fun i => M ⟨(i 0).val, idx2_lt0 i⟩ ⟨(i 1).val, idx2_lt1 i⟩
def ofVec {b : Nat} (f : (⟨1, ![b]⟩ : Shape).Idx → EReal) : Fin b → EReal := fun j => f (ix1 j)

theorem toArr_ix2 {a b : Nat} (M : Mat a b) (n : Fin a) (k : Fin b) : toArr M (ix2 n k) = M n k := rfl

/-- A negative index word has the number of nodes added, once. -/
def wrapW (s : BitVec 32) : BitVec 32 := Scalar.select (IntOp.cmpi .slt s 0#32) (IntOp.addi s 100000#32) s

/-- The row a gather reads at an index word: the word read signed, clamped into the rows. -/
def rowOf (w : BitVec 32) : Fin nN := ⟨min w.toInt.toNat 99999, Nat.lt_succ_of_le (Nat.min_le_right _ _)⟩

/-- Edge `x`'s source row and destination word in a `[2, nE]` index array. -/
def srcRow (ei : (⟨2, ![2, nE]⟩ : Shape).Idx → BitVec 32) (x : Fin nE) : Fin nN := rowOf (wrapW (ei (ix2 (0 : Fin 2) x)))
def dstW (ei : (⟨2, ![2, nE]⟩ : Shape).Idx → BitVec 32) (x : Fin nE) : BitVec 32 := ei (ix2 (1 : Fin 2) x)

/-- A source word is a node: read signed it lies in the node range. -/
def SrcInRange (ei : (⟨2, ![2, nE]⟩ : Shape).Idx → BitVec 32) : Prop :=
  ∀ x : Fin nE, 0 ≤ (ei (ix2 (0 : Fin 2) x)).toInt ∧ (ei (ix2 (0 : Fin 2) x)).toInt < 100000

/-- An extended real that is a real number. -/
def IsReal (x : EReal) : Prop := ∃ r : ℝ, x = (r : EReal)

/-- The matrix product. -/
def mm {a k b : Nat} (A : Mat a k) (W : Mat k b) : Mat a b := fun n j => ∑ q : Fin k, A n q * W q j

/-- The rows of `X` the edges read. -/
def gath {k : Nat} (src : Fin nE → Fin nN) (X : Mat nN k) : Mat nE k := fun x q => X (src x) q

/-- The sum, per node, of the edge rows whose destination word read signed is that node. -/
def segsum {k : Nat} (dst : Fin nE → BitVec 32) (U : Mat nE k) : Mat nN k :=
  fun i q => ∑ x ∈ Finset.univ.filter (fun x : Fin nE => (dst x).toInt = (i.val : ℤ)), U x q

/-- The aggregate of a layer: zero plus the sum over the incoming edges of the source rows. -/
def agg {k : Nat} (src : Fin nE → Fin nN) (dst : Fin nE → BitVec 32) (X : Mat nN k) : Mat nN k :=
  fun i q => 0 + segsum dst (gath src X) i q

/-- One layer, aggregating first. -/
def conv {k b : Nat} (src : Fin nE → Fin nN) (dst : Fin nE → BitVec 32) (X : Mat nN k) (Wr Wo : Mat k b)
    (bias : Fin b → EReal) : Mat nN b :=
  fun i j => (mm (agg src dst X) Wr i j + mm X Wo i j) + bias j

/-- One layer, the relation weights applied before the aggregation. -/
def convT {k b : Nat} (src : Fin nE → Fin nN) (dst : Fin nE → BitVec 32) (X : Mat nN k) (Wr Wo : Mat k b)
    (bias : Fin b → EReal) : Mat nN b :=
  fun i j => (agg src dst (mm X Wr) i j + mm X Wo i j) + bias j

/-- The rectifier. -/
def relu {a b : Nat} (Y : Mat a b) : Mat a b := fun i j => max (Y i j) 0

/-- The row-wise log-softmax: with `m` the larger of `⊥` and the row's maximum, `(y - m) - log ∑ exp (y - m)`. -/
def lsm {a b : Nat} (Y : Mat a b) : Mat a b := fun i j =>
  (Y i j - max ⊥ ((Finset.univ : Finset (Fin b)).fold max ⊥ (Y i)))
    - Ideal.log (∑ q : Fin b, Ideal.exp (Y i q - max ⊥ ((Finset.univ : Finset (Fin b)).fold max ⊥ (Y i))))

/-- The two hidden layers, shared by both programs. -/
def hidden1 (src : Fin nE → Fin nN) (dst : Fin nE → BitVec 32) (X : Mat nN 128) (Wr1 Wo1 : Mat 128 128)
    (b1 : Fin 128 → EReal) : Mat nN 128 := relu (conv src dst X Wr1 Wo1 b1)
def hidden2 (src : Fin nE → Fin nN) (dst : Fin nE → BitVec 32) (H1 : Mat nN 128) (Wr2 Wo2 : Mat 128 256)
    (b2 : Fin 256 → EReal) : Mat nN 256 := relu (conv src dst H1 Wr2 Wo2 b2)

/-- The network, aggregating first in every layer. -/
def netAgg (src : Fin nE → Fin nN) (dst : Fin nE → BitVec 32) (X : Mat nN 128) (Wr1 Wo1 : Mat 128 128)
    (b1 : Fin 128 → EReal) (Wr2 Wo2 : Mat 128 256) (b2 : Fin 256 → EReal) (Wr3 Wo3 : Mat 256 16)
    (b3 : Fin 16 → EReal) : Mat nN 16 :=
  lsm (conv src dst (hidden2 src dst (hidden1 src dst X Wr1 Wo1 b1) Wr2 Wo2 b2) Wr3 Wo3 b3)

/-- The network with the third layer's relation weights applied before its aggregation. -/
def netPre (src : Fin nE → Fin nN) (dst : Fin nE → BitVec 32) (X : Mat nN 128) (Wr1 Wo1 : Mat 128 128)
    (b1 : Fin 128 → EReal) (Wr2 Wo2 : Mat 128 256) (b2 : Fin 256 → EReal) (Wr3 Wo3 : Mat 256 16)
    (b3 : Fin 16 → EReal) : Mat nN 16 :=
  lsm (convT src dst (hidden2 src dst (hidden1 src dst X Wr1 Wo1 b1) Wr2 Wo2 b2) Wr3 Wo3 b3)

end Cert.GraphConv

end
-- ==== Proof.Algebra.lean ====
/-
  THE TWO ORDERS OF THE THIRD LAYER AGREE ON REAL DATA.

  The two networks differ only in the first summand of the third layer. With `S i` the set of edges whose destination is
  node `i`, `H` the second hidden layer and `W` the third layer's relation weights, one network has
      0 + ∑ x ∈ S i, ∑ q, H (src x) q * W q j
  and the other
      ∑ q, (0 + ∑ x ∈ S i, H (src x) q) * W q j.
  Over the real numbers these are equal: exchange the two finite sums and take the common factor `W q j` out of the inner
  one. Over the extended reals multiplication does not distribute over addition at the infinities, so the exchange is
  made where every entry of `H` and of `W` is a real number: both sides are then the image of a real number, and the
  identity is the real one.

  That the second hidden layer is real entrywise follows from closure: the real numbers inside the extended reals are
  closed under addition, multiplication, finite sums and the maximum with zero, hence under the matrix product, the
  gather, the per-node sum, a whole layer and the rectifier. The third layer's root weights and bias enter both networks
  in the same way and need no hypothesis.
-/
import proofs.«416603_j41016937677072_3_alg».proof.Proof.Spec

noncomputable section

open Idealize.ShloMosaic Idealize.ShloMosaic.ValueIdx
open scoped BigOperators

namespace Cert.GraphConv

/-! ### The real numbers inside the extended reals are closed under the operations of a layer -/

theorem IsReal.zero : IsReal (0 : EReal) := ⟨0, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max_zero {x : EReal} (hx : IsReal x) : IsReal (max x 0) := by
  rcases max_choice x 0 with h | h
  · rw [h]; exact hx
  · rw [h]; exact IsReal.zero

theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact (h a (Finset.mem_insert_self a s)).add (ih (fun i hi => h i (Finset.mem_insert_of_mem hi)))

/-- The inclusion of the reals commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isReal_mm {a k b : Nat} (A : Mat a k) (W : Mat k b) (hA : ∀ n q, IsReal (A n q))
    (hW : ∀ q j, IsReal (W q j)) : ∀ n j, IsReal (mm A W n j) := by
  intro n j
  unfold mm
  exact IsReal.sum _ _ (fun q _ => (hA n q).mul (hW q j))

theorem isReal_agg {k : Nat} (src : Fin nE → Fin nN) (dst : Fin nE → BitVec 32) (X : Mat nN k)
    (hX : ∀ i q, IsReal (X i q)) : ∀ i q, IsReal (agg src dst X i q) := by
  intro i q
  unfold agg segsum gath
  exact IsReal.zero.add (IsReal.sum _ _ (fun x _ => hX (src x) q))

theorem isReal_conv {k b : Nat} (src : Fin nE → Fin nN) (dst : Fin nE → BitVec 32) (X : Mat nN k) (Wr Wo : Mat k b)
    (bias : Fin b → EReal) (hX : ∀ i q, IsReal (X i q)) (hWr : ∀ q j, IsReal (Wr q j)) (hWo : ∀ q j, IsReal (Wo q j))
    (hb : ∀ j, IsReal (bias j)) : ∀ i j, IsReal (conv src dst X Wr Wo bias i j) := by
  intro i j
  unfold conv
  exact ((isReal_mm _ _ (isReal_agg src dst X hX) hWr i j).add (isReal_mm _ _ hX hWo i j)).add (hb j)

theorem isReal_relu {a b : Nat} (Y : Mat a b) (hY : ∀ i j, IsReal (Y i j)) : ∀ i j, IsReal (relu Y i j) := by
  intro i j
  unfold relu
  exact (hY i j).max_zero

theorem isReal_hidden1 (src : Fin nE → Fin nN) (dst : Fin nE → BitVec 32) (X : Mat nN 128) (Wr1 Wo1 : Mat 128 128)
    (b1 : Fin 128 → EReal) (hX : ∀ i k, IsReal (X i k)) (hWr1 : ∀ i k, IsReal (Wr1 i k))
    (hWo1 : ∀ i k, IsReal (Wo1 i k)) (hb1 : ∀ j, IsReal (b1 j)) :
    ∀ i j, IsReal (hidden1 src dst X Wr1 Wo1 b1 i j) := by
  unfold hidden1
  exact isReal_relu _ (isReal_conv src dst X Wr1 Wo1 b1 hX hWr1 hWo1 hb1)

theorem isReal_hidden2 (src : Fin nE → Fin nN) (dst : Fin nE → BitVec 32) (H1 : Mat nN 128) (Wr2 Wo2 : Mat 128 256)
    (b2 : Fin 256 → EReal) (hH : ∀ i k, IsReal (H1 i k)) (hWr2 : ∀ i k, IsReal (Wr2 i k))
    (hWo2 : ∀ i k, IsReal (Wo2 i k)) (hb2 : ∀ j, IsReal (b2 j)) :
    ∀ i j, IsReal (hidden2 src dst H1 Wr2 Wo2 b2 i j) := by
  unfold hidden2
  exact isReal_relu _ (isReal_conv src dst H1 Wr2 Wo2 b2 hH hWr2 hWo2 hb2)

/-! ### The exchange of the aggregation and the relation weights -/

/-- Over any finite set of edges: the sum over the edges of the products' sums is the sum of the products of the edge
    sums, for real entries. -/
theorem sum_mul_exchange {ι : Type*} {k : Nat} (S : Finset ι) (h : ι → Fin k → ℝ) (w : Fin k → ℝ) :
    (0 : EReal) + ∑ x ∈ S, ∑ q : Fin k, (h x q : EReal) * (w q : EReal)
      = ∑ q : Fin k, (0 + ∑ x ∈ S, (h x q : EReal)) * (w q : EReal) := by
  simp only [zero_add, ← EReal.coe_mul, ← coe_finset_sum]
  congr 1
  rw [Finset.sum_comm]
  exact Finset.sum_congr rfl (fun q _ => (Finset.sum_mul _ _ _).symm)

/-- A layer with real features and real relation weights: the relation weights may be applied before the aggregation. -/
theorem convT_eq_conv {k b : Nat} (src : Fin nE → Fin nN) (dst : Fin nE → BitVec 32) (H : Mat nN k) (Wr Wo : Mat k b)
    (bias : Fin b → EReal) (hH : ∀ i q, IsReal (H i q)) (hWr : ∀ q j, IsReal (Wr q j)) :
    convT src dst H Wr Wo bias = conv src dst H Wr Wo bias := by
  choose h hh using hH
  choose w hw using hWr
  funext i j
  have key : agg src dst (mm H Wr) i j = mm (agg src dst H) Wr i j := by
    unfold agg mm segsum gath
    simp only [hh, hw]
    exact sum_mul_exchange _ (fun x q => h (src x) q) (fun q => w q j)
  unfold convT conv
  rw [key]

/-- On real node features, weights and biases of the first two layers and real relation weights of the third, applying the
    third layer's relation weights before or after the aggregation gives the same network. -/
theorem netPre_eq_netAgg (src : Fin nE → Fin nN) (dst : Fin nE → BitVec 32) (X : Mat nN 128) (Wr1 Wo1 : Mat 128 128)
    (b1 : Fin 128 → EReal) (Wr2 Wo2 : Mat 128 256) (b2 : Fin 256 → EReal) (Wr3 Wo3 : Mat 256 16) (b3 : Fin 16 → EReal)
    (hX : ∀ i k, IsReal (X i k)) (hWr1 : ∀ i k, IsReal (Wr1 i k)) (hWo1 : ∀ i k, IsReal (Wo1 i k)) (hb1 : ∀ j, IsReal (b1 j))
    (hWr2 : ∀ i k, IsReal (Wr2 i k)) (hWo2 : ∀ i k, IsReal (Wo2 i k)) (hb2 : ∀ j, IsReal (b2 j))
    (hWr3 : ∀ i k, IsReal (Wr3 i k)) :
    netPre src dst X Wr1 Wo1 b1 Wr2 Wo2 b2 Wr3 Wo3 b3 = netAgg src dst X Wr1 Wo1 b1 Wr2 Wo2 b2 Wr3 Wo3 b3 := by
  unfold netPre netAgg
  rw [convT_eq_conv src dst _ Wr3 Wo3 b3
    (isReal_hidden2 src dst _ Wr2 Wo2 b2 (isReal_hidden1 src dst X Wr1 Wo1 b1 hX hWr1 hWo1 hb1) hWr2 hWo2 hb2) hWr3]

end Cert.GraphConv

end
-- ==== Proof.PreFacts.lean ====
/-
  WHAT THE PRECONDITION SAYS OF THE ARGUMENT ARRAYS: every entry of each float array is a real number, and every source
  word of the edge array, read signed, is a node.

  The precondition is a conjunction of twelve one-bit words. Ten of them are, for one float array each, the conjunction over
  all entries `x` of "|x| < +∞", where |x| = max x (-x) and the word 0x7F800000 is +∞ = ⊤; an extended real with
  max x (-x) < ⊤ is neither ⊤ nor ⊥, so it is a real number. The last is the conjunction over the 800000 words `w` of
  row 0 of the edge array (the row cut out as a [1, 800000] slice and flattened: position `x` of the flattened row is the
  array at (0, x)) of "0 ≤ w and w < 100000", both signed. A conjunction of one-bit words is 1 exactly when every word
  is 1, so the whole precondition being 1 gives each of these facts at every index.
-/
import proofs.«416603_j41016937677072_3_alg».proof.Pre_finite_inputs
import proofs.«416603_j41016937677072_3_alg».proof.Proof.Spec
import Idealize.ShloMosaic.Lib.ReduceAll
import Idealize.ShloMosaic.Lib.Pipeline.Value

noncomputable section

open Idealize.ShloMosaic Idealize.ShloMosaic.ValueIdx

namespace Cert.GraphConv

open Cert.Pre_finite_inputs

namespace PreFacts

/-- The scalar shape has exactly one index. -/
theorem scalar_idx_subsingleton : Subsingleton S_.Idx := ⟨fun a b => funext fun d => d.elim0⟩

/-- An extended real `x` with `max x (-x) < ⊤`, the top written as the float word of plus infinity, is a real number:
    at `⊥` and at `⊤` the maximum is `⊤`. -/
theorem isReal_of_abs_lt_inf (x : Ideal .f32)
    (h : FloatOps.cmpf (F := Ideal) (φ := .f32) .olt (FloatOps.hostAbsf x) (FloatOps.ofBits (F := Ideal) .f32 0x7F800000#32) = 1#1) :
    IsReal x := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  induction x using EReal.rec with
  | bot => simp at h
  | coe r => exact ⟨r, rfl⟩
  | top => simp at h

/-- For a float array of any shape: if the conjunction over all entries of "|x| < +∞" is 1, every entry is a real number. -/
theorem real_of_all_finite {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi (cmpf .olt (Host.absf a) (broadcastInDim s ![] hb (constant S_ .f32 0x7F800000#32)))
      (constantI S_ 1 1#1) hr hu ix0 = 1#1) :
    ∀ i, IsReal (a i) := by
  intro i
  haveI := scalar_idx_subsingleton
  have h1 := Host.reduce_andi_all _ _ hr hu ix0 e i
  exact isReal_of_abs_lt_inf (a i) h1

/-- The flattened row 0 of the edge array read at `x` is the array at row 0, column `x`: the flattening keeps the
    row-major position `0 * 800000 + x = x`, and the slice starts at offset (0, 0). -/
theorem srcRow_read (a1 : IVec S2x800000 32) (hsl : S2x800000.Slices ![0, 0] S1x800000) (hsc : S1x800000.ShapeCasts S800000)
    (x : Fin 800000) :
    shapeCast S800000 (extractStridedSlice S1x800000 ![0, 0] a1 hsl) hsc (ix1 x) = a1 (ix2 (0 : Fin 2) x) := by
  refine (shapeCast_apply _ hsc (ix1 x) (ix2 (0 : Fin 1) x) ?_).trans ?_
  · rw [Shape.rowMajor_val_two, Shape.rowMajor_val_one]
    simp
  · refine extractStridedSlice_apply _ a1 hsl _ (ix2 (0 : Fin 2) x) ?_
    intro a
    fin_cases a <;> simp

/-- If the conjunction over the words `w` of the flattened row 0 of "0 ≤ w and w < 100000" (signed) is 1, every source
    word is a node. -/
theorem src_of_all (a1 : IVec S2x800000 32) (hsl : S2x800000.Slices ![0, 0] S1x800000) (hsc : S1x800000.ShapeCasts S800000)
    (hb : S_.BroadcastsInDim S800000 (![] : Fin 0 → Fin S800000.rank)) (hr : S800000.ReducesTo [0] S_) (hu : 0 < S_.numel)
    (e : Host.reduce IntOp.andi
        (andi (cmpi .sge (shapeCast S800000 (extractStridedSlice S1x800000 ![0, 0] a1 hsl) hsc)
                (broadcastInDim S800000 ![] hb (constantI S_ 32 0#32)))
              (cmpi .slt (shapeCast S800000 (extractStridedSlice S1x800000 ![0, 0] a1 hsl) hsc)
                (broadcastInDim S800000 ![] hb (constantI S_ 32 100000#32))))
        (constantI S_ 1 1#1) hr hu ix0 = 1#1) :
    SrcInRange a1 := by
  intro x
  haveI := scalar_idx_subsingleton
  have h1 := Host.reduce_andi_all _ _ hr hu ix0 e (ix1 x)
  obtain ⟨h2, h3⟩ := IntOp.andi_eq_one.1 h1
  have hw := srcRow_read a1 hsl hsc x
  change IntOp.cmpi .sge (shapeCast S800000 (extractStridedSlice S1x800000 ![0, 0] a1 hsl) hsc (ix1 x)) (0#32) = 1#1 at h2
  change IntOp.cmpi .slt (shapeCast S800000 (extractStridedSlice S1x800000 ![0, 0] a1 hsl) hsc (ix1 x)) (100000#32) = 1#1 at h3
  rw [hw, IntOp.cmpi_sge] at h2
  rw [hw, IntOp.cmpi_slt] at h3
  exact ⟨by simpa using h2, by simpa using h3⟩

/-- The conjunction of two arrays of one-bit words is 1 at an index exactly when both are 1 there. -/
theorem andi_apply_eq_one {s : Shape} (x y : IVec s 1) (i : s.Idx) : andi x y i = 1#1 ↔ x i = 1#1 ∧ y i = 1#1 :=
  IntOp.andi_eq_one

end PreFacts

open PreFacts in
/-- The precondition evaluated all ones says: each float argument array is real entry by entry, and every source word of
    the edge array lies in the node range. -/
theorem pre_facts [Cert.Pre_finite_inputs.Facts]
    (a0 : FVec Ideal S100000x128 .f32) (a1 : IVec S2x800000 32) (a2 a3 : FVec Ideal S128x128 .f32) (a4 : FVec Ideal S128 .f32)
    (a5 a6 : FVec Ideal S128x256 .f32) (a7 : FVec Ideal S256 .f32) (a8 a9 : FVec Ideal S256x16 .f32) (a10 : FVec Ideal S16 .f32)
    (h : Cert.Pre_finite_inputs.fn (F := Ideal) a0 a1 a2 a3 a4 a5 a6 a7 a8 a9 a10 = fun _ => 1#1) :
    (∀ i, IsReal (a0 i)) ∧ SrcInRange a1 ∧ (∀ i, IsReal (a2 i)) ∧ (∀ i, IsReal (a3 i)) ∧ (∀ i, IsReal (a4 i))
      ∧ (∀ i, IsReal (a5 i)) ∧ (∀ i, IsReal (a6 i)) ∧ (∀ i, IsReal (a7 i)) ∧ (∀ i, IsReal (a8 i)) ∧ (∀ i, IsReal (a9 i))
      ∧ (∀ i, IsReal (a10 i)) := by
  -- the one result word, with the twelve conjuncts in view
  have h0 := congrFun h ix0
  simp only [Cert.Pre_finite_inputs.fn, fn_part1, fn_part2, fn_part3, andi_apply_eq_one] at h0
  -- the conjunction nests to the left, the arrays in the order 0, 2, 3, …, 10 and the edge array last
  obtain ⟨⟨⟨⟨⟨⟨⟨⟨⟨⟨e0, e2⟩, e3⟩, e4⟩, e5⟩, e6⟩, e7⟩, e8⟩, e9⟩, e10⟩, e1⟩ := h0
  exact ⟨real_of_all_finite a0 _ _ _ e0, src_of_all a1 _ _ _ _ _ e1, real_of_all_finite a2 _ _ _ e2,
    real_of_all_finite a3 _ _ _ e3, real_of_all_finite a4 _ _ _ e4, real_of_all_finite a5 _ _ _ e5,
    real_of_all_finite a6 _ _ _ e6, real_of_all_finite a7 _ _ _ e7, real_of_all_finite a8 _ _ _ e8,
    real_of_all_finite a9 _ _ _ e9, real_of_all_finite a10 _ _ _ e10⟩

end Cert.GraphConv

end
-- ==== Proof.KRegion0.lean ====
/-
  THE FIRST DENSE REGION'S OUTPUT ARRAY: rows of 10000 per grid point; each row of the output is the rectified sum of the aggregate's row times the relation weights, the features' row times the root weights, and the bias.
-/
import proofs.«416603_j41016937677072_3_alg».proof.Proof.Gen.KernelIdeal.Frame
import proofs.«416603_j41016937677072_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KVal.Reg0

open Cert.KernelIdeal Cert.KernelIdeal.Gen Cert.GraphConv
open Idealize.ShloMosaic Idealize.ShloMosaic.TcCoe Idealize.ShloMosaic.ValueIdx Idealize.SL.Sem
open Idealize.ShloMosaic.Pipeline (Dat Cfg Window)
open scoped BigOperators

/-! ## The block product: a row block of 10000 rows times a 128 × 128 matrix, read at an entry -/

/-- The product's left index keeps the output's row. -/
theorem lhs_blk_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- The product's left index has the summation position as its column. -/
theorem lhs_blk_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- The product's right index has the summation position as its row. -/
theorem rhs_blk_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- The product's right index keeps the output's column. -/
theorem rhs_blk_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- A block product into a zero accumulator, at entry `(p, q)`: the sum over `k` of `x p k * w k q`. -/
theorem blk_matmul_apply (x : FVec Ideal S10000x128 .f32) (w : FVec Ideal S128x128 .f32) (p : Fin 10000) (q : Fin 128) :
    matmul dot_S10000x128_S128x128_S10000x128_1_0_0_1_n_n none x w (constant (F := Ideal) S10000x128 .f32 0x00000000#32) (ix2 p q)
      = ∑ k : Fin 128, x (ix2 p k) * w (ix2 k q) := by
  refine (Ideal.matmul_constant_zero_apply dot_S10000x128_S128x128_S10000x128_1_0_0_1_n_n none x w (ix2 p q)).trans ?_
  rw [← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 p q) ((ValueIdx.contrEquiv1 dot_S10000x128_S128x128_S10000x128_1_0_0_1_n_n 128 rfl rfl).symm k) = ix2 p k := funext fun a => Fin.ext (by
    match a with
    | ⟨0, _⟩ => exact lhs_blk_0 _ _
    | ⟨1, _⟩ => exact (lhs_blk_1 _ _).trans hk)
  have er : dot_S10000x128_S128x128_S10000x128_1_0_0_1_n_n.rhsIdx (ix2 p q) ((ValueIdx.contrEquiv1 dot_S10000x128_S128x128_S10000x128_1_0_0_1_n_n 128 rfl rfl).symm k) = ix2 k q := funext fun a => Fin.ext (by
    match a with
    | ⟨0, _⟩ => exact (rhs_blk_0 _ _).trans hk
    | ⟨1, _⟩ => exact rhs_blk_1 _ _)
  rw [el, er]

/-- THE BODY'S ARITHMETIC AT AN ENTRY: `max ((∑ k, a p k * wr k q + ∑ k, x p k * wo k q) + b 0 q) 0`. -/
theorem pay_apply (a : Vec Ideal S10000x128 .f32) (wr : Vec Ideal S128x128 .f32) (x : Vec Ideal S10000x128 .f32)
    (wo : Vec Ideal S128x128 .f32) (b : Vec Ideal S1x128 .f32) (p : Fin 10000) (q : Fin 128) :
    k0_pay1 (F := Ideal) a wr x wo b (ix2 p q)
      = max ((∑ k : Fin 128, a (ix2 p k) * wr (ix2 k q) + ∑ k : Fin 128, x (ix2 p k) * wo (ix2 k q)) + b (ix2 (0 : Fin 1) q)) 0 := by
  unfold k0_pay1
  rw [maximumf_apply, addf_apply, addf_apply, shapeCast_self, shapeCast_self, blk_matmul_apply, blk_matmul_apply,
    broadcastTo_1b_ab_apply, broadcast_apply]
  exact congrArg (max _) Ideal.ofBits_zero_f32

/-! ## From the blocks to the array -/

-- the buffer contents when the region is entered: any
variable (V : (c : Dev nD) → (b : Ref sig .tc) → Buf (Elt Ideal) ((c : Thread nD τ).loc b))

theorem zero_offsets : (![0, 0] : Fin 2 → Nat) = fun _ => 0 := funext fun a => by fin_cases a <;> rfl

/-- The layer as a matrix of the five input arrays: `max ((A · Wr + X · Wo) + b) 0`. -/
def layerMat (c : Dev nD) : Mat 100000 128 :=
  relu (fun i j => (mm (ofArr (V c main_v7)) (ofArr (V c main_arg2)) i j
    + mm (ofArr (V c main_arg0)) (ofArr (V c main_arg3)) i j) + V c main_v8 (ix2 (0 : Fin 1) j))

/-- The same as an array over the output's index. -/
def layerArr (c : Dev nD) : S100000x128.Idx → EReal := toArr (layerMat V c)

/-- The block index maps over the grid: the three row-blocked windows sit at block row `t`, column block 0; the weights'
    and the bias's blocks are the whole arrays. -/
theorem idx_facts : ∀ t : Fin cfg0.N,
    win0_5.index t (0 : Fin 2) = t.val ∧ win0_5.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The aggregate's block at point `t`, at `(p, k)`: the array at row `t * 10000 + p`. -/
theorem blk_agg (c : Dev nD) (t : Fin cfg0.N) (p : Fin 10000) (k : Fin 128) (r : Fin 100000) (hr : r.val = t.val * 10000 + p.val) :
    iblk0 (F := Ideal) V c 0 t (ix2 p k : S10000x128.Idx) = V c main_v7 (ix2 r k : S100000x128.Idx) := by
  obtain ⟨e50, e51, e00, e01, e10, e11, e20, e21, e30, e31, e40, e41⟩ := idx_facts t
  show V c main_v7 (((cfg0.win 0).blk t).view.emb (ix2 p k)) = _
  refine congrArg (V c main_v7) (funext fun a => Fin.ext ?_)
  match a with
  | ⟨0, _⟩ => show win0_0.index t (0 : Fin 2) * 10000 + 1 * p.val = r.val; omega
  | ⟨1, _⟩ => show win0_0.index t (1 : Fin 2) * 128 + 1 * k.val = k.val; omega

/-- The features' block at point `t`, at `(p, k)`: the array at row `t * 10000 + p`. -/
theorem blk_feat (c : Dev nD) (t : Fin cfg0.N) (p : Fin 10000) (k : Fin 128) (r : Fin 100000) (hr : r.val = t.val * 10000 + p.val) :
    iblk0 (F := Ideal) V c 1 t (ix2 p k : S10000x128.Idx) = V c main_arg0 (ix2 r k : S100000x128.Idx) := by
  obtain ⟨e50, e51, e00, e01, e10, e11, e20, e21, e30, e31, e40, e41⟩ := idx_facts t
  show V c main_arg0 (((cfg0.win 1).blk t).view.emb (ix2 p k)) = _
  refine congrArg (V c main_arg0) (funext fun a => Fin.ext ?_)
  match a with
  | ⟨0, _⟩ => show win0_1.index t (0 : Fin 2) * 10000 + 1 * p.val = r.val; omega
  | ⟨1, _⟩ => show win0_1.index t (1 : Fin 2) * 128 + 1 * k.val = k.val; omega

/-- The relation weights' block at every point is the whole array. -/
theorem blk_wrel (c : Dev nD) (t : Fin cfg0.N) (k q : Fin 128) :
    iblk0 (F := Ideal) V c 2 t (ix2 k q : S128x128.Idx) = V c main_arg2 (ix2 k q : S128x128.Idx) := by
  obtain ⟨e50, e51, e00, e01, e10, e11, e20, e21, e30, e31, e40, e41⟩ := idx_facts t
  show V c main_arg2 (((cfg0.win 2).blk t).view.emb (ix2 k q)) = _
  refine congrArg (V c main_arg2) (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

/-- The root weights' block at every point is the whole array. -/
theorem blk_wroot (c : Dev nD) (t : Fin cfg0.N) (k q : Fin 128) :
    iblk0 (F := Ideal) V c 3 t (ix2 k q : S128x128.Idx) = V c main_arg3 (ix2 k q : S128x128.Idx) := by
  obtain ⟨e50, e51, e00, e01, e10, e11, e20, e21, e30, e31, e40, e41⟩ := idx_facts t
  show V c main_arg3 (((cfg0.win 3).blk t).view.emb (ix2 k q)) = _
  refine congrArg (V c main_arg3) (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-- The bias's block at every point is the whole one-row array. -/
theorem blk_bias (c : Dev nD) (t : Fin cfg0.N) (q : Fin 128) :
    iblk0 (F := Ideal) V c 4 t (ix2 (0 : Fin 1) q : S1x128.Idx) = V c main_v8 (ix2 (0 : Fin 1) q : S1x128.Idx) := by
  obtain ⟨e50, e51, e00, e01, e10, e11, e20, e21, e30, e31, e40, e41⟩ := idx_facts t
  show V c main_v8 (((cfg0.win 4).blk t).view.emb (ix2 (0 : Fin 1) q)) = _
  refine congrArg (V c main_v8) (funext fun a => Fin.ext ?_)
  match a with
  | ⟨0, _⟩ => show win0_4.index t (0 : Fin 2) * 1 + 1 * 0 = 0; omega
  | ⟨1, _⟩ => show win0_4.index t (1 : Fin 2) * 128 + 1 * q.val = q.val; omega

/-- The output's block at point `t` sits at rows `t * 10000 + p`. -/
theorem blk_out_emb (t : Fin cfg0.N) (p : Fin 10000) (q : Fin 128) (r : Fin 100000) (hr : r.val = t.val * 10000 + p.val) :
    ((cfg0.win 5).blk t).view.emb (ix2 p q : S10000x128.Idx) = (ix2 r q : S100000x128.Idx) := by
  obtain ⟨e50, e51, e00, e01, e10, e11, e20, e21, e30, e31, e40, e41⟩ := idx_facts t
  funext a; apply Fin.ext
  match a with
  | ⟨0, _⟩ => show win0_5.index t (0 : Fin 2) * 10000 + 1 * p.val = r.val; omega
  | ⟨1, _⟩ => show win0_5.index t (1 : Fin 2) * 128 + 1 * q.val = q.val; omega

/-- WHAT POINT `t` WRITES BACK is block `t` of the layer's array. -/
theorem flushed_eq (c : Dev nD) (t : Fin cfg0.N) :
    (dat0 (F := Ideal) V c).flushed 5 t = ((cfg0.win 5).blk t).view.read (Elt Ideal) (layerArr V c) := by
  show (cfg0.win 5).cut (grid0.coords t) ((dat0 (F := Ideal) V c).after 5 t) = _
  rw [after0_5]
  unfold out0_5
  rw [View.canon_unit_zero zero_offsets]
  simp only [View.ld_unit_zero (S := S10000x128) zero_offsets, View.ld_unit_zero (S := S128x128) zero_offsets,
    View.ld_unit_zero (S := S1x128) zero_offsets]
  funext j
  obtain ⟨p, q, rfl⟩ : ∃ (p : Fin 10000) (q : Fin 128), j = ix2 p q := ⟨j 0, j 1, eq_ix2 j⟩
  have ht : t.val < 10 := lt_of_lt_of_eq t.isLt N_0
  refine (pay_apply _ _ _ _ _ p q).trans ?_
  simp only [blk_agg V c t p _ ⟨t.val * 10000 + p.val, by omega⟩ rfl, blk_feat V c t p _ ⟨t.val * 10000 + p.val, by omega⟩ rfl,
    blk_wrel V c t, blk_wroot V c t, blk_bias V c t]
  show _ = layerArr V c (((cfg0.win 5).blk t).view.emb (ix2 p q : S10000x128.Idx))
  rw [blk_out_emb t p q ⟨t.val * 10000 + p.val, by omega⟩ rfl]
  rfl

/-- An index of the array is in point `t`'s block iff each coordinate is in the block's range on its axis. -/
theorem mem_blk (t : Fin cfg0.N) (i : S100000x128.Idx) :
    i ∈ ((cfg0.win 5).blk t).view.set ↔ ∀ a : Fin 2, win0_5.index t a * S10000x128.size a ≤ (i a).val ∧ (i a).val < win0_5.index t a * S10000x128.size a + S10000x128.size a := by
  show i ∈ ((View.whole main_v9).slice (win0_5.rect t)).set ↔ _
  rw [View.set_slice_whole, Rect.mem_set_unit]
  exact Iff.rfl

/-- THE BLOCKS COVER THE ARRAY: row `r` is in the block of point `r / 10000`, which is written back. -/
theorem covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : (i 0).val / 10000 < cfg0.N := lt_of_lt_of_eq (by omega : (i 0).val / 10000 < 10) N_0.symm
  obtain ⟨e50, e51, -⟩ := idx_facts ⟨(i 0).val / 10000, hN⟩
  have e0 : win0_5.index ⟨(i 0).val / 10000, hN⟩ (0 : Fin 2) = (i 0).val / 10000 := e50
  refine ⟨⟨(i 0).val / 10000, hN⟩, flush0_5 _, ?_⟩
  rw [mem_blk]
  intro a
  match a with
  | ⟨0, _⟩ =>
    show win0_5.index ⟨(i 0).val / 10000, hN⟩ (0 : Fin 2) * 10000 ≤ (i 0).val ∧ (i 0).val < win0_5.index ⟨(i 0).val / 10000, hN⟩ (0 : Fin 2) * 10000 + 10000
    omega
  | ⟨1, _⟩ =>
    show win0_5.index ⟨(i 0).val / 10000, hN⟩ (1 : Fin 2) * 128 ≤ (i 1).val ∧ (i 1).val < win0_5.index ⟨(i 0).val / 10000, hN⟩ (1 : Fin 2) * 128 + 128
    omega

/-- THE OUTPUT ARRAY after the region is the layer's array. -/
theorem arr_final (c : Dev nD) : (dat0 (F := Ideal) V c).arrAt 5 cfg0.N = layerArr V c :=
  (dat0 (F := Ideal) V c).arrAt_eq_of_cover 5 (layerArr V c) (fun t _ => flushed_eq V c t) covered

/-- After the region the output array holds, at `(n, j)`, `max ((∑ q, A n q * Wr q j + ∑ q, X n q * Wo q j) + b j) 0`, with `A`, `X`, `Wr`, `Wo`, `b`
    the five input arrays as the region finds them. -/
theorem region0_value (c : Dev nD) (n : Fin 100000) (j : Fin 128) :
    (dat0 (F := Ideal) V c).arrAt 5 cfg0.N (ix2 n j)
      = relu (fun i j => (mm (ofArr (V c main_v7)) (ofArr (V c main_arg2)) i j
          + mm (ofArr (V c main_arg0)) (ofArr (V c main_arg3)) i j) + V c main_v8 (ix2 (0 : Fin 1) j)) n j :=
  (congrFun (arr_final V c) (ix2 n j)).trans (toArr_ix2 (layerMat V c) n j)

end Cert.KernelIdeal.KVal.Reg0

end
-- ==== Proof.KRegion1.lean ====
/-
  THE SECOND DENSE REGION'S OUTPUT ARRAY: rows of 10000 per grid point, 256 output columns; each row of the output is the rectified sum of the aggregate's row times the relation weights, the hidden features' row times the root weights, and the bias.
-/
import proofs.«416603_j41016937677072_3_alg».proof.Proof.Gen.KernelIdeal.Frame
import proofs.«416603_j41016937677072_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KVal.Reg1

open Cert.KernelIdeal Cert.KernelIdeal.Gen Cert.GraphConv
open Idealize.ShloMosaic Idealize.ShloMosaic.TcCoe Idealize.ShloMosaic.ValueIdx Idealize.SL.Sem
open Idealize.ShloMosaic.Pipeline (Dat Cfg Window)
open scoped BigOperators

/-! ## The body's arithmetic at an index -/

/-- The product's left operand is read at the output's row … -/
theorem lhs_row (i : S10000x256.Idx) (q : dot_S10000x128_S128x256_S10000x256_1_0_0_1_n_n.contr.Idx) :
    (dot_S10000x128_S128x256_S10000x256_1_0_0_1_n_n.lhsIdx i q 0).val = (i 0).val := by
  unfold DotDims.lhsIdx
  rw [dif_neg (show ¬(0 : Fin S10000x128.rank) ∈ dot_S10000x128_S128x256_S10000x256_1_0_0_1_n_n.lhsBatch by decide), dif_pos (show (0 : Fin S10000x128.rank) ∈ dot_S10000x128_S128x256_S10000x256_1_0_0_1_n_n.lhsNonContracting by decide)]
  rfl
/-- … and at the contracted coordinate; -/
theorem lhs_col (i : S10000x256.Idx) (q : dot_S10000x128_S128x256_S10000x256_1_0_0_1_n_n.contr.Idx) :
    (dot_S10000x128_S128x256_S10000x256_1_0_0_1_n_n.lhsIdx i q 1).val = (q ⟨0, by decide⟩).val :=
  dot_S10000x128_S128x256_S10000x256_1_0_0_1_n_n.lhsIdx_val_of_single rfl i q
/-- the right operand at the contracted coordinate … -/
theorem rhs_row (i : S10000x256.Idx) (q : dot_S10000x128_S128x256_S10000x256_1_0_0_1_n_n.contr.Idx) :
    (dot_S10000x128_S128x256_S10000x256_1_0_0_1_n_n.rhsIdx i q 0).val = (q ⟨0, by decide⟩).val :=
  dot_S10000x128_S128x256_S10000x256_1_0_0_1_n_n.rhsIdx_val_of_single rfl i q
/-- … and at the output's column. -/
theorem rhs_col (i : S10000x256.Idx) (q : dot_S10000x128_S128x256_S10000x256_1_0_0_1_n_n.contr.Idx) :
    (dot_S10000x128_S128x256_S10000x256_1_0_0_1_n_n.rhsIdx i q 1).val = (i 1).val := by
  unfold DotDims.rhsIdx
  rw [dif_neg (show ¬(1 : Fin S128x256.rank) ∈ dot_S10000x128_S128x256_S10000x256_1_0_0_1_n_n.rhsBatch by decide), dif_pos (show (1 : Fin S128x256.rank) ∈ dot_S10000x128_S128x256_S10000x256_1_0_0_1_n_n.rhsNonContracting by decide)]
  rfl

/-- A block's product with the weights, accumulated from zero, is the sum over the 128 inner coordinates. -/
theorem matmul_zero_ix2 (x : FVec Ideal S10000x128 .f32) (w : FVec Ideal S128x256 .f32) (p : Fin 10000) (q : Fin 256) :
    matmul dot_S10000x128_S128x256_S10000x256_1_0_0_1_n_n none x w (constant (F := Ideal) S10000x256 .f32 0x00000000#32) (ix2 p q)
      = ∑ k : Fin 128, x (ix2 p k) * w (ix2 k q) := by
  show FloatOps.matmul dot_S10000x128_S128x256_S10000x256_1_0_0_1_n_n none x w (constant (F := Ideal) S10000x256 .f32 0x00000000#32) (ix2 p q) = _
  rw [Ideal.matmul_constant_zero_apply, ← Equiv.sum_comp (ValueIdx.contrEquiv1 dot_S10000x128_S128x256_S10000x256_1_0_0_1_n_n 128 rfl rfl).symm]
  refine Finset.sum_congr rfl fun k _ => ?_
  have hk := ValueIdx.contrEquiv1_symm_val dot_S10000x128_S128x256_S10000x256_1_0_0_1_n_n 128 rfl rfl k
  have el : dot_S10000x128_S128x256_S10000x256_1_0_0_1_n_n.lhsIdx (ix2 p q) ((ValueIdx.contrEquiv1 dot_S10000x128_S128x256_S10000x256_1_0_0_1_n_n 128 rfl rfl).symm k) = ix2 p k := funext fun a => Fin.ext (by
    match a with
    | ⟨0, _⟩ => exact lhs_row _ _
    | ⟨1, _⟩ => exact (lhs_col _ _).trans hk)
  have er : dot_S10000x128_S128x256_S10000x256_1_0_0_1_n_n.rhsIdx (ix2 p q) ((ValueIdx.contrEquiv1 dot_S10000x128_S128x256_S10000x256_1_0_0_1_n_n 128 rfl rfl).symm k) = ix2 k q := funext fun a => Fin.ext (by
    match a with
    | ⟨0, _⟩ => exact (rhs_row _ _).trans hk
    | ⟨1, _⟩ => exact rhs_col _ _)
  rw [el, er]

/-- The bias row, repeated down the block's rows, reads the bias at the column. -/
theorem bias_rows (b : Vec Ideal S1x256 .f32) (p : Fin 10000) (q : Fin 256) :
    broadcastTo S10000x256 b broadcasts_S1x256_S10000x256 (ix2 p q) = b (ix2 (0 : Fin 1) q) := by
  refine broadcastTo_apply b broadcasts_S1x256_S10000x256 (ix2 p q) (ix2 (0 : Fin 1) q) fun a => ?_
  match a with
  | ⟨0, _⟩ => rfl
  | ⟨1, _⟩ => rfl

/-- THE BODY'S RESULT AT ROW `p`, COLUMN `q` OF THE BLOCK: the larger of zero and the two products' sum plus the bias. -/
theorem payload_ix2 (a : Vec Ideal S10000x128 .f32) (wr : Vec Ideal S128x256 .f32) (x : Vec Ideal S10000x128 .f32)
    (wo : Vec Ideal S128x256 .f32) (b : Vec Ideal S1x256 .f32) (p : Fin 10000) (q : Fin 256) :
    k1_pay1 (F := Ideal) a wr x wo b (ix2 p q)
      = max ((∑ k : Fin 128, a (ix2 p k) * wr (ix2 k q) + ∑ k : Fin 128, x (ix2 p k) * wo (ix2 k q)) + b (ix2 (0 : Fin 1) q)) 0 := by
  unfold k1_pay1
  simp only [shapeCast_self]
  rw [maximumf_apply, addf_apply, addf_apply, matmul_zero_ix2, matmul_zero_ix2, bias_rows, broadcast_apply]
  show max _ (Ideal.ofBits .f32 0x00000000#32) = _
  rw [Ideal.ofBits_zero_f32]

/-! ## The whole output array as one function of the region's input arrays -/

/-- The output array: the rectified sum of the aggregate times the relation weights, the hidden features times the
    root weights, and the bias row. -/
def outArr (A X : S100000x128.Idx → EReal) (Wr Wo : S128x256.Idx → EReal) (b : S1x256.Idx → EReal) : S100000x256.Idx → EReal :=
  toArr (relu (fun i j => (mm (ofArr A) (ofArr Wr) i j + mm (ofArr X) (ofArr Wo) i j) + b (ix2 (0 : Fin 1) j)))

/-- The body's result at row `p`, column `q` of a block is the output array at `i`, when the two row blocks hold row
    `i 0` of their arrays at `p`, and the weights and the bias are read at column `i 1` at `q`. -/
theorem payload_eq_outArr (A X : S100000x128.Idx → EReal) (Wr Wo : S128x256.Idx → EReal) (b : S1x256.Idx → EReal)
    (a : Vec Ideal S10000x128 .f32) (wr : Vec Ideal S128x256 .f32) (x : Vec Ideal S10000x128 .f32)
    (wo : Vec Ideal S128x256 .f32) (bb : Vec Ideal S1x256 .f32) (i : S100000x256.Idx) (p : Fin 10000) (q : Fin 256)
    (ha : ∀ k : Fin 128, a (ix2 p k) = A (ix2 ⟨(i 0).val, idx2_lt0 i⟩ k))
    (hwr : ∀ k : Fin 128, wr (ix2 k q) = Wr (ix2 k ⟨(i 1).val, idx2_lt1 i⟩))
    (hx : ∀ k : Fin 128, x (ix2 p k) = X (ix2 ⟨(i 0).val, idx2_lt0 i⟩ k))
    (hwo : ∀ k : Fin 128, wo (ix2 k q) = Wo (ix2 k ⟨(i 1).val, idx2_lt1 i⟩))
    (hb : bb (ix2 (0 : Fin 1) q) = b (ix2 (0 : Fin 1) ⟨(i 1).val, idx2_lt1 i⟩)) :
    k1_pay1 (F := Ideal) a wr x wo bb (ix2 p q) = outArr A X Wr Wo b i := by
  rw [payload_ix2]
  simp only [ha, hwr, hx, hwo, hb]
  rfl

/-! ## From the blocks to the array -/

theorem zero_offsets : (![0, 0] : Fin 2 → Nat) = fun _ => 0 := funext fun a => by fin_cases a <;> rfl

/-- The index maps over the ten grid points: the two row-block inputs move with the output's row block, which is the
    point's number; every other block index is zero. -/
theorem index_facts : ∀ t : Fin cfg1.N,
    win1_5.index t (0 : Fin 2) = t.val ∧ win1_5.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

-- the buffer contents when the region is entered: any
variable (V : (c : Dev nD) → (b : Ref sig .tc) → Buf (Elt Ideal) ((c : Thread nD τ).loc b))

/-- WHAT POINT `t` WRITES BACK is block `t` of the output array of the input arrays as the region finds them. -/
theorem flushed_eq (c : Dev nD) (t : Fin cfg1.N) :
    (dat1 (F := Ideal) V c).flushed 5 t = ((cfg1.win 5).blk t).view.read (Elt Ideal)
      (outArr (V c main_v13) (V c main_v9) (V c main_arg5) (V c main_arg6) (V c main_v14)) := by
  show (cfg1.win 5).cut (grid1.coords t) ((dat1 (F := Ideal) V c).after 5 t) = _
  rw [after1_5]
  unfold out1_5
  rw [View.canon_unit_zero zero_offsets]
  simp only [View.ld_unit_zero (S := S10000x128) zero_offsets, View.ld_unit_zero (S := S128x256) zero_offsets,
    View.ld_unit_zero (S := S1x256) zero_offsets]
  obtain ⟨e50, e51, e00, e01, e10, e11, e20, e21, e30, e31, e40, e41⟩ := index_facts t
  funext j
  obtain ⟨p, q, rfl⟩ : ∃ (p : Fin 10000) (q : Fin 256), j = ix2 p q := ⟨j 0, j 1, eq_ix2 j⟩
  show k1_pay1 (F := Ideal) (iblk1 V c 0 t) (iblk1 V c 2 t) (iblk1 V c 1 t) (iblk1 V c 3 t) (iblk1 V c 4 t) (ix2 p q)
    = outArr (V c main_v13) (V c main_v9) (V c main_arg5) (V c main_arg6) (V c main_v14) (((cfg1.win 5).blk t).view.emb (ix2 p q))
  have r0 : ((((cfg1.win 5).blk t).view.emb (ix2 p q)) 0).val = win1_5.index t (0 : Fin 2) * 10000 + 1 * p.val := rfl
  have r1 : ((((cfg1.win 5).blk t).view.emb (ix2 p q)) 1).val = win1_5.index t (1 : Fin 2) * 256 + 1 * q.val := rfl
  refine payload_eq_outArr (V c main_v13) (V c main_v9) (V c main_arg5) (V c main_arg6) (V c main_v14)
    (iblk1 V c 0 t) (iblk1 V c 2 t) (iblk1 V c 1 t) (iblk1 V c 3 t) (iblk1 V c 4 t) (((cfg1.win 5).blk t).view.emb (ix2 p q)) p q ?_ ?_ ?_ ?_ ?_
  · intro k
    show V c main_v13 (((cfg1.win 0).blk t).view.emb (ix2 p k)) = V c main_v13 _
    refine congrArg (V c main_v13) (funext fun a => Fin.ext ?_)
    match a with
    | ⟨0, _⟩ => show win1_0.index t (0 : Fin 2) * 10000 + 1 * p.val = ((((cfg1.win 5).blk t).view.emb (ix2 p q)) 0).val; rw [r0]; omega
    | ⟨1, _⟩ => show win1_0.index t (1 : Fin 2) * 128 + 1 * k.val = k.val; omega
  · intro k
    show V c main_arg5 (((cfg1.win 2).blk t).view.emb (ix2 k q)) = V c main_arg5 _
    refine congrArg (V c main_arg5) (funext fun a => Fin.ext ?_)
    match a with
    | ⟨0, _⟩ => show win1_2.index t (0 : Fin 2) * 128 + 1 * k.val = k.val; omega
    | ⟨1, _⟩ => show win1_2.index t (1 : Fin 2) * 256 + 1 * q.val = ((((cfg1.win 5).blk t).view.emb (ix2 p q)) 1).val; rw [r1]; omega
  · intro k
    show V c main_v9 (((cfg1.win 1).blk t).view.emb (ix2 p k)) = V c main_v9 _
    refine congrArg (V c main_v9) (funext fun a => Fin.ext ?_)
    match a with
    | ⟨0, _⟩ => show win1_1.index t (0 : Fin 2) * 10000 + 1 * p.val = ((((cfg1.win 5).blk t).view.emb (ix2 p q)) 0).val; rw [r0]; omega
    | ⟨1, _⟩ => show win1_1.index t (1 : Fin 2) * 128 + 1 * k.val = k.val; omega
  · intro k
    show V c main_arg6 (((cfg1.win 3).blk t).view.emb (ix2 k q)) = V c main_arg6 _
    refine congrArg (V c main_arg6) (funext fun a => Fin.ext ?_)
    match a with
    | ⟨0, _⟩ => show win1_3.index t (0 : Fin 2) * 128 + 1 * k.val = k.val; omega
    | ⟨1, _⟩ => show win1_3.index t (1 : Fin 2) * 256 + 1 * q.val = ((((cfg1.win 5).blk t).view.emb (ix2 p q)) 1).val; rw [r1]; omega
  · show V c main_v14 (((cfg1.win 4).blk t).view.emb (ix2 (0 : Fin 1) q)) = V c main_v14 _
    refine congrArg (V c main_v14) (funext fun a => Fin.ext ?_)
    match a with
    | ⟨0, _⟩ => show win1_4.index t (0 : Fin 2) * 1 + 1 * 0 = 0; omega
    | ⟨1, _⟩ => show win1_4.index t (1 : Fin 2) * 256 + 1 * q.val = ((((cfg1.win 5).blk t).view.emb (ix2 p q)) 1).val; rw [r1]; omega

/-- An index of the output array is in point `t`'s block iff each coordinate is in the block's range on its axis. -/
theorem mem_block (t : Fin cfg1.N) (i : S100000x256.Idx) :
    i ∈ ((cfg1.win 5).blk t).view.set ↔ ∀ a : Fin 2, win1_5.index t a * S10000x256.size a ≤ (i a).val ∧ (i a).val < win1_5.index t a * S10000x256.size a + S10000x256.size a := by
  show i ∈ ((View.whole main_v15).slice (win1_5.rect t)).set ↔ _
  rw [View.set_slice_whole, Rect.mem_set_unit]
  exact Iff.rfl

/-- Row `r` of the output array is in the block of point `r / 10000`: the ten row blocks fill the array. -/
theorem covered (i : S100000x256.Idx) :
    ∃ t : Fin cfg1.N, (cfg1.win 5).flush t = true ∧ i ∈ ((cfg1.win 5).blk t).view.set := by
  have hi0 : (i 0).val < 100000 := idx2_lt0 i
  have hi1 : (i 1).val < 256 := idx2_lt1 i
  have hN : cfg1.N = 10 := N_1
  let t : Fin cfg1.N := ⟨(i 0).val / 10000, by rw [hN]; omega⟩
  obtain ⟨e50, e51, -⟩ := index_facts t
  have ht : t.val = (i 0).val / 10000 := rfl
  refine ⟨t, flush1_5 t, ?_⟩
  rw [mem_block]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 256 ≤ (i 1).val ∧ (i 1).val < win1_5.index t (1 : Fin 2) * 256 + 256; omega

/-- THE OUTPUT ARRAY after the region's ten points: the output array of the input arrays as the region finds them. -/
theorem final (c : Dev nD) : (dat1 (F := Ideal) V c).arrAt 5 cfg1.N
    = outArr (V c main_v13) (V c main_v9) (V c main_arg5) (V c main_arg6) (V c main_v14) :=
  (dat1 (F := Ideal) V c).arrAt_eq_of_cover 5 _ (fun t _ => flushed_eq V c t) covered

/-- After the region the output array holds, at `(n, j)`, `max ((∑ q, A n q * Wr q j + ∑ q, X n q * Wo q j) + b j) 0`, with `A`, `X`, `Wr`, `Wo`, `b`
    the five input arrays as the region finds them. -/
theorem region1_value (c : Dev nD) (n : Fin 100000) (j : Fin 256) :
    (dat1 (F := Ideal) V c).arrAt 5 cfg1.N (ix2 n j)
      = relu (fun i j => (mm (ofArr (V c main_v13)) (ofArr (V c main_arg5)) i j
          + mm (ofArr (V c main_v9)) (ofArr (V c main_arg6)) i j) + V c main_v14 (ix2 (0 : Fin 1) j)) n j := by
  rw [final V c]
  rfl

end Cert.KernelIdeal.KVal.Reg1

end
-- ==== Proof.KRegion2.lean ====
/-
  THE MATRIX-PRODUCT REGION'S OUTPUT ARRAY: rows of 2000 per grid point; each row of the output is the hidden features' row times the third layer's relation weights.

  The body at a grid point multiplies the point's block of 2000 rows of the hidden features by the whole weight
  matrix into a zero accumulator, so the block it leaves is, entry by entry, the sum over the 256 contracted columns.
  Point t's blocks of the features and of the output both begin at row 2000 t and hold every column; the weights'
  block is the whole array at every point. Hence what point t writes back is block t of ONE function of the two input
  arrays, the matrix product, and since every row r lies in the block of point r / 2000, the output array ends
  holding the product everywhere.
-/
import proofs.«416603_j41016937677072_3_alg».proof.Proof.Gen.KernelIdeal.Frame
import proofs.«416603_j41016937677072_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KVal.Reg2

open Cert.KernelIdeal Cert.KernelIdeal.Gen Cert.GraphConv
open Idealize.ShloMosaic Idealize.ShloMosaic.TcCoe Idealize.ShloMosaic.ValueIdx Idealize.SL.Sem
open Idealize.ShloMosaic.Pipeline (Dat Cfg Window)
open scoped BigOperators

-- the buffer contents when the region is entered: any
variable (V : (c : Dev nD) → (b : Ref sig .tc) → Buf (Elt Ideal) ((c : Thread nD τ).loc b))

/-! ## The body's product at an entry -/

/-- The left operand's index at output index `i` and contraction index `q`: row `i 0`, column `q`. -/
theorem prodL_axis0 (i : S2000x16.Idx) (q : dot_S2000x256_S256x16_S2000x16_1_0_0_1_n_n.contr.Idx) :
    (dot_S2000x256_S256x16_S2000x16_1_0_0_1_n_n.lhsIdx i q 0).val = (i 0).val := by
  unfold DotDims.lhsIdx
  rw [dif_neg (show ¬(0 : Fin S2000x256.rank) ∈ dot_S2000x256_S256x16_S2000x16_1_0_0_1_n_n.lhsBatch by decide), dif_pos (show (0 : Fin S2000x256.rank) ∈ dot_S2000x256_S256x16_S2000x16_1_0_0_1_n_n.lhsNonContracting by decide)]
  rfl
theorem prodL_axis1 (i : S2000x16.Idx) (q : dot_S2000x256_S256x16_S2000x16_1_0_0_1_n_n.contr.Idx) :
    (dot_S2000x256_S256x16_S2000x16_1_0_0_1_n_n.lhsIdx i q 1).val = (q ⟨0, by decide⟩).val :=
  dot_S2000x256_S256x16_S2000x16_1_0_0_1_n_n.lhsIdx_val_of_single rfl i q
/-- The right operand's index: row `q`, column `i 1`. -/
theorem prodR_axis0 (i : S2000x16.Idx) (q : dot_S2000x256_S256x16_S2000x16_1_0_0_1_n_n.contr.Idx) :
    (dot_S2000x256_S256x16_S2000x16_1_0_0_1_n_n.rhsIdx i q 0).val = (q ⟨0, by decide⟩).val :=
  dot_S2000x256_S256x16_S2000x16_1_0_0_1_n_n.rhsIdx_val_of_single rfl i q
theorem prodR_axis1 (i : S2000x16.Idx) (q : dot_S2000x256_S256x16_S2000x16_1_0_0_1_n_n.contr.Idx) :
    (dot_S2000x256_S256x16_S2000x16_1_0_0_1_n_n.rhsIdx i q 1).val = (i 1).val := by
  unfold DotDims.rhsIdx
  rw [dif_neg (show ¬(1 : Fin S256x16.rank) ∈ dot_S2000x256_S256x16_S2000x16_1_0_0_1_n_n.rhsBatch by decide), dif_pos (show (1 : Fin S256x16.rank) ∈ dot_S2000x256_S256x16_S2000x16_1_0_0_1_n_n.rhsNonContracting by decide)]
  rfl

/-- The block the body stores, at row `p` and column `j`: the sum over the contracted column `k` of the features'
    block at `(p, k)` times the weights at `(k, j)`. -/
theorem blockProduct_apply (x : Vec Ideal S2000x256 .f32) (w : Vec Ideal S256x16 .f32) (p : Fin 2000) (j : Fin 16) :
    k2_pay1 (F := Ideal) x w (ix2 p j) = ∑ k : Fin 256, x (ix2 p k) * w (ix2 k j) := by
  unfold k2_pay1
  rw [shapeCast_self]
  refine (Ideal.matmul_constant_zero_apply dot_S2000x256_S256x16_S2000x16_1_0_0_1_n_n none x w (ix2 p j)).trans ?_
  rw [← Equiv.sum_comp (ValueIdx.contrEquiv1 dot_S2000x256_S256x16_S2000x16_1_0_0_1_n_n 256 rfl rfl).symm]
  refine Finset.sum_congr rfl fun k _ => ?_
  have hk := ValueIdx.contrEquiv1_symm_val dot_S2000x256_S256x16_S2000x16_1_0_0_1_n_n 256 rfl rfl k
  have el : dot_S2000x256_S256x16_S2000x16_1_0_0_1_n_n.lhsIdx (ix2 p j) ((ValueIdx.contrEquiv1 dot_S2000x256_S256x16_S2000x16_1_0_0_1_n_n 256 rfl rfl).symm k) = ix2 p k := funext fun a => Fin.ext (by
    match a with
    | ⟨0, _⟩ => exact prodL_axis0 _ _
    | ⟨1, _⟩ => exact (prodL_axis1 _ _).trans hk)
  have er : dot_S2000x256_S256x16_S2000x16_1_0_0_1_n_n.rhsIdx (ix2 p j) ((ValueIdx.contrEquiv1 dot_S2000x256_S256x16_S2000x16_1_0_0_1_n_n 256 rfl rfl).symm k) = ix2 k j := funext fun a => Fin.ext (by
    match a with
    | ⟨0, _⟩ => exact (prodR_axis0 _ _).trans hk
    | ⟨1, _⟩ => exact prodR_axis1 _ _)
  rw [el, er]

/-! ## The product of the two input arrays, and what a grid point writes back -/

/-- The matrix product of the features' array and the weights' array, as an array. -/
def prodArr (X : S100000x256.Idx → EReal) (W : S256x16.Idx → EReal) : S100000x16.Idx → EReal :=
  toArr (mm (ofArr X) (ofArr W))

/-- At an index it is the sum over the contracted column. -/
theorem prodArr_apply (X : S100000x256.Idx → EReal) (W : S256x16.Idx → EReal) (i : S100000x16.Idx) :
    prodArr X W i = ∑ k : Fin 256, X (ix2 ⟨(i 0).val, idx2_lt0 i⟩ k) * W (ix2 k ⟨(i 1).val, idx2_lt1 i⟩) := rfl

/-- The same at an index whose coordinates are known. -/
theorem prodArr_at (X : S100000x256.Idx → EReal) (W : S256x16.Idx → EReal) (i : S100000x16.Idx) (r : Fin 100000) (j : Fin 16)
    (h0 : (i 0).val = r.val) (h1 : (i 1).val = j.val) :
    prodArr X W i = ∑ k : Fin 256, X (ix2 r k) * W (ix2 k j) := by
  have e : i = ix2 r j := funext fun a => Fin.ext (by
    match a with
    | ⟨0, _⟩ => exact h0
    | ⟨1, _⟩ => exact h1)
  subst e
  rfl

theorem zeroOffsets : (![0, 0] : Fin 2 → Nat) = fun _ => 0 := funext fun a => by fin_cases a <;> rfl

/-- Where the blocks of a grid point begin, in blocks: the features' and the output's row blocks are the same one, all
    their column blocks and the weights' blocks are the first, and the row block is one of the fifty. -/
theorem blockStarts : ∀ t : Fin cfg2.N,
    win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 49 :=
  (by decide +kernel : ∀ t : Fin grid2.N, _)

/-- Every one of the fifty row blocks of the output is some grid point's. -/
theorem rowBlock_onto : ∀ b : Fin 50, ∃ t : Fin cfg2.N, win2_2.index t = ![b.val, 0] :=
  (by decide +kernel : ∀ b : Fin 50, ∃ t : Fin grid2.N, win2_2.index t = ![b.val, 0])

/-- What grid point `t` writes back is block `t` of the product of the two arrays as the region finds them. -/
theorem flushed_block (c : Dev nD) (t : Fin cfg2.N) :
    (dat2 (F := Ideal) V c).flushed 2 t
      = ((cfg2.win 2).blk t).view.read (Elt Ideal) (prodArr (V c main_v15) (V c main_arg8)) := by
  show (cfg2.win 2).cut (grid2.coords t) ((dat2 (F := Ideal) V c).after 2 t) = _
  rw [after2_2]
  unfold out2_2
  rw [View.canon_unit_zero zeroOffsets]
  simp only [View.ld_unit_zero (S := S2000x256) zeroOffsets, View.ld_unit_zero (S := S256x16) zeroOffsets]
  obtain ⟨e0, e1, e2, e3, e4, e5⟩ := blockStarts t
  funext y
  obtain ⟨p, j, rfl⟩ : ∃ (p : Fin 2000) (j : Fin 16), y = ix2 p j := ⟨y 0, y 1, eq_ix2 y⟩
  refine (blockProduct_apply (iblk2 V c 0 t) (iblk2 V c 1 t) p j).trans ?_
  have hp : p.val < 2000 := p.isLt
  have hr : win2_2.index t (0 : Fin 2) * 2000 + p.val < 100000 := by omega
  refine Eq.trans ?_ (prodArr_at (V c main_v15) (V c main_arg8) (((cfg2.win 2).blk t).view.emb (ix2 p j))
    ⟨win2_2.index t (0 : Fin 2) * 2000 + p.val, hr⟩ j ?_ ?_).symm
  · refine Finset.sum_congr rfl fun k _ => ?_
    have hk : k.val < 256 := k.isLt
    have hj : j.val < 16 := j.isLt
    have hX : ((cfg2.win 0).blk t).view.emb (ix2 p k) = ix2 (⟨win2_2.index t (0 : Fin 2) * 2000 + p.val, hr⟩ : Fin 100000) k := by
      funext a; apply Fin.ext
      match a with
      | ⟨0, _⟩ => show win2_0.index t (0 : Fin 2) * 2000 + 1 * p.val = win2_2.index t (0 : Fin 2) * 2000 + p.val; omega
      | ⟨1, _⟩ => show win2_0.index t (1 : Fin 2) * 256 + 1 * k.val = k.val; omega
    have hW : ((cfg2.win 1).blk t).view.emb (ix2 k j) = ix2 k j := by
      funext a; apply Fin.ext
      match a with
      | ⟨0, _⟩ => show win2_1.index t (0 : Fin 2) * 256 + 1 * k.val = k.val; omega
      | ⟨1, _⟩ => show win2_1.index t (1 : Fin 2) * 16 + 1 * j.val = j.val; omega
    have hX' : (iblk2 V c 0 t (ix2 p k) : EReal) = (V c main_v15 : S100000x256.Idx → EReal) (ix2 (⟨win2_2.index t (0 : Fin 2) * 2000 + p.val, hr⟩ : Fin 100000) k) :=
      congrArg (V c main_v15 : S100000x256.Idx → EReal) hX
    have hW' : (iblk2 V c 1 t (ix2 k j) : EReal) = (V c main_arg8 : S256x16.Idx → EReal) (ix2 k j) :=
      congrArg (V c main_arg8 : S256x16.Idx → EReal) hW
    exact congrArg₂ (fun a b : EReal => a * b) hX' hW'
  · show win2_2.index t (0 : Fin 2) * 2000 + 1 * p.val = win2_2.index t (0 : Fin 2) * 2000 + p.val; omega
  · show win2_2.index t (1 : Fin 2) * 16 + 1 * j.val = j.val; omega

/-! ## The blocks cover the output array -/

/-- An index of the output array is in grid point `t`'s block iff each coordinate is in the block's range on its axis. -/
theorem mem_outBlock (t : Fin cfg2.N) (i : S100000x16.Idx) :
    i ∈ ((cfg2.win 2).blk t).view.set ↔ ∀ a : Fin 2, win2_2.index t a * S2000x16.size a ≤ (i a).val ∧ (i a).val < win2_2.index t a * S2000x16.size a + S2000x16.size a := by
  show i ∈ ((View.whole main_v16).slice (win2_2.rect t)).set ↔ _
  rw [View.set_slice_whole, Rect.mem_set_unit]
  exact Iff.rfl

/-- Row `r` of the output lies in row block `r / 2000`, which some grid point writes back. -/
theorem outBlocks_cover (i : S100000x16.Idx) :
    ∃ t : Fin cfg2.N, (cfg2.win 2).flush t = true ∧ i ∈ ((cfg2.win 2).blk t).view.set := by
  have hi0 : (i 0).val < 100000 := (i 0).isLt
  have hi1 : (i 1).val < 16 := (i 1).isLt
  obtain ⟨t, ht⟩ := rowBlock_onto ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_outBlock]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 16 ≤ (i 1).val ∧ (i 1).val < win2_2.index t (1 : Fin 2) * 16 + 16; omega

/-- After the region the output array is the product of the two input arrays as the region finds them. -/
theorem region2_array (c : Dev nD) :
    (dat2 (F := Ideal) V c).arrAt 2 cfg2.N = prodArr (V c main_v15) (V c main_arg8) :=
  (dat2 (F := Ideal) V c).arrAt_eq_of_cover 2 (prodArr (V c main_v15) (V c main_arg8))
    (fun t _ => flushed_block V c t) outBlocks_cover

/-- After the region the output array holds, at `(n, j)`, `∑ q, X n q * W q j`, with `X` and `W` the two input arrays as the region
    finds them. -/
theorem region2_value (c : Dev nD) (n : Fin 100000) (j : Fin 16) :
    (dat2 (F := Ideal) V c).arrAt 2 cfg2.N (ix2 n j)
      = mm (ofArr (V c main_v15)) (ofArr (V c main_arg8)) n j := by
  rw [region2_array]
  rfl

end Cert.KernelIdeal.KVal.Reg2

end
-- ==== Proof.KRegion3.lean ====
/-
  THE LAST REGION'S OUTPUT ARRAY: rows of 2000 per grid point; each row of the output is the log-softmax of the row: aggregate plus hidden features times the root weights plus bias.

  The body's arithmetic is read at an index of its block: the product into a zero accumulator is the sum over the
  contracted coordinate, the bias row is read at the column, the two lane reductions are the row's maximum (from -inf)
  and the row's sum, and the two keepdims columns are read back at the row. Each block of the output is then the block
  of ONE function of the four input arrays (row n of the output needs row n of the aggregate and of the hidden features,
  and all of the weights and the bias), the blocks of 2000 rows cover the array, and so the array ends holding that
  function.
-/
import proofs.«416603_j41016937677072_3_alg».proof.Proof.Gen.KernelIdeal.Frame
import proofs.«416603_j41016937677072_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KVal.Reg3

open Cert.KernelIdeal Cert.KernelIdeal.Gen Cert.GraphConv
open Idealize.ShloMosaic Idealize.ShloMosaic.TcCoe Idealize.ShloMosaic.ValueIdx Idealize.SL.Sem
open Idealize.ShloMosaic.Pipeline (Dat Cfg Window)
open scoped BigOperators

/-! ## The product into a zero accumulator, at an index -/

theorem lhs3_0 (i : S2000x16.Idx) (q : dot_S2000x256_S256x16_S2000x16_1_0_0_1_n_n.contr.Idx) :
    (dot_S2000x256_S256x16_S2000x16_1_0_0_1_n_n.lhsIdx i q 0).val = (i 0).val := by
  unfold DotDims.lhsIdx
  rw [dif_neg (show ¬(0 : Fin S2000x256.rank) ∈ dot_S2000x256_S256x16_S2000x16_1_0_0_1_n_n.lhsBatch by decide), dif_pos (show (0 : Fin S2000x256.rank) ∈ dot_S2000x256_S256x16_S2000x16_1_0_0_1_n_n.lhsNonContracting by decide)]
  rfl
theorem lhs3_1 (i : S2000x16.Idx) (q : dot_S2000x256_S256x16_S2000x16_1_0_0_1_n_n.contr.Idx) :
    (dot_S2000x256_S256x16_S2000x16_1_0_0_1_n_n.lhsIdx i q 1).val = (q ⟨0, by decide⟩).val :=
  dot_S2000x256_S256x16_S2000x16_1_0_0_1_n_n.lhsIdx_val_of_single rfl i q
theorem rhs3_0 (i : S2000x16.Idx) (q : dot_S2000x256_S256x16_S2000x16_1_0_0_1_n_n.contr.Idx) :
    (dot_S2000x256_S256x16_S2000x16_1_0_0_1_n_n.rhsIdx i q 0).val = (q ⟨0, by decide⟩).val :=
  dot_S2000x256_S256x16_S2000x16_1_0_0_1_n_n.rhsIdx_val_of_single rfl i q
theorem rhs3_1 (i : S2000x16.Idx) (q : dot_S2000x256_S256x16_S2000x16_1_0_0_1_n_n.contr.Idx) :
    (dot_S2000x256_S256x16_S2000x16_1_0_0_1_n_n.rhsIdx i q 1).val = (i 1).val := by
  unfold DotDims.rhsIdx
  rw [dif_neg (show ¬(1 : Fin S256x16.rank) ∈ dot_S2000x256_S256x16_S2000x16_1_0_0_1_n_n.rhsBatch by decide), dif_pos (show (1 : Fin S256x16.rank) ∈ dot_S2000x256_S256x16_S2000x16_1_0_0_1_n_n.rhsNonContracting by decide)]
  rfl

/-- The product of a [2000,256] block and the [256,16] weights into the zero splat, at (p, q): the sum over the contracted coordinate. -/
theorem matmul3_apply (x1 : FVec Ideal S2000x256 .f32) (x2 : FVec Ideal S256x16 .f32) (p : Fin 2000) (q : Fin 16) :
    matmul dot_S2000x256_S256x16_S2000x16_1_0_0_1_n_n none x1 x2 (constant (F := Ideal) S2000x16 .f32 0x00000000#32) (ix2 p q)
      = ∑ k : Fin 256, x1 (ix2 p k) * x2 (ix2 k q) := by
  refine (Ideal.matmul_constant_zero_apply dot_S2000x256_S256x16_S2000x16_1_0_0_1_n_n none x1 x2 (ix2 p q)).trans ?_
  rw [← Equiv.sum_comp (ValueIdx.contrEquiv1 dot_S2000x256_S256x16_S2000x16_1_0_0_1_n_n 256 rfl rfl).symm]
  refine Finset.sum_congr rfl fun k _ => ?_
  have hk := ValueIdx.contrEquiv1_symm_val dot_S2000x256_S256x16_S2000x16_1_0_0_1_n_n 256 rfl rfl k
  have el : dot_S2000x256_S256x16_S2000x16_1_0_0_1_n_n.lhsIdx (ix2 p q) ((ValueIdx.contrEquiv1 dot_S2000x256_S256x16_S2000x16_1_0_0_1_n_n 256 rfl rfl).symm k) = ix2 p k := funext fun a => Fin.ext (by
    match a with
    | ⟨0, _⟩ => exact lhs3_0 _ _
    | ⟨1, _⟩ => exact (lhs3_1 _ _).trans hk)
  have er : dot_S2000x256_S256x16_S2000x16_1_0_0_1_n_n.rhsIdx (ix2 p q) ((ValueIdx.contrEquiv1 dot_S2000x256_S256x16_S2000x16_1_0_0_1_n_n 256 rfl rfl).symm k) = ix2 k q := funext fun a => Fin.ext (by
    match a with
    | ⟨0, _⟩ => exact (rhs3_0 _ _).trans hk
    | ⟨1, _⟩ => exact rhs3_1 _ _)
  rw [el, er]

/-! ## The row before the log-softmax -/

/-- The body's value before the log-softmax: aggregate block plus the product plus the bias row, as one vector of the loaded blocks. -/
def pre3 (x0 : FVec Ideal S2000x16 .f32) (x1 : FVec Ideal S2000x256 .f32) (x2 : FVec Ideal S256x16 .f32) (x3 : FVec Ideal S1x16 .f32) :
    FVec Ideal S2000x16 .f32 :=
  addf (addf (shapeCast S2000x16 x0 shapeCasts_S2000x16_S2000x16)
      (matmul dot_S2000x256_S256x16_S2000x16_1_0_0_1_n_n none (shapeCast S2000x256 x1 shapeCasts_S2000x256_S2000x256) x2
        (constant S2000x16 .f32 0x00000000#32)))
    (broadcastTo S2000x16 (shapeCast S1x16 x3 shapeCasts_S1x16_S1x16) broadcasts_S1x16_S2000x16)

/-- At (p, q): the aggregate there, plus the row of the features times the column of the weights, plus the bias at q. -/
theorem pre3_apply (x0 : FVec Ideal S2000x16 .f32) (x1 : FVec Ideal S2000x256 .f32) (x2 : FVec Ideal S256x16 .f32) (x3 : FVec Ideal S1x16 .f32)
    (p : Fin 2000) (q : Fin 16) :
    pre3 x0 x1 x2 x3 (ix2 p q) = (x0 (ix2 p q) + ∑ k : Fin 256, x1 (ix2 p k) * x2 (ix2 k q)) + x3 (ix2 (0 : Fin 1) q) := by
  unfold pre3
  rw [shapeCast_self, shapeCast_self, shapeCast_self, addf_apply, addf_apply, matmul3_apply, broadcastTo_1b_ab_apply]

/-! ## The log-softmax of a block, at an index -/

/-- The word of minus infinity. -/
theorem ofBits_neg_inf : Ideal.ofBits .f32 0xFF800000#32 = ⊥ := by simp [Ideal.ofBits, Ideal.ieee]

/-- The reduced index p with column k put back is (p, k). -/
theorem lift_row (h : S2000x16.Reduces [1] S2000) (p : Fin 2000) (k : Fin (S2000x16.size 1)) :
    h.lift (ix1 p) k = ix2 p (⟨k.val, k.isLt⟩ : Fin 16) := by
  funext c; apply Fin.ext
  fin_cases c <;> rfl

/-- The lane maximum from minus infinity, at row p: the fold of max over the row. -/
theorem rowMax_apply (y : FVec Ideal S2000x16 .f32) (h : S2000x16.Reduces [1] S2000) (hφ : FKind.Formats .f32)
    (hacc : (0xFF800000#32 : BitVec 32) = FKind.maximumf.neutral .f32 hφ) (p : Fin 2000) :
    multiReduction .maximumf [1] S2000 y 0xFF800000#32 h hφ hacc (ix1 p)
      = (Finset.univ : Finset (Fin 16)).fold max ⊥ (fun q => y (ix2 p q)) := by
  refine (Ideal.multiReduction_maximumf_single y _ h hφ hacc (ix1 p)).trans ?_
  show (Finset.univ : Finset (Fin 16)).fold max (Ideal.ofBits .f32 0xFF800000#32) (y ∘ h.lift (ix1 p)) = _
  rw [ofBits_neg_inf]
  have hf : (y ∘ h.lift (ix1 p)) = fun q : Fin 16 => y (ix2 p q) := funext fun k => congrArg y (lift_row h p k)
  rw [hf]
  rfl

/-- The lane sum, at row p: the sum over the row. -/
theorem rowSum_apply (y : FVec Ideal S2000x16 .f32) (h : S2000x16.Reduces [1] S2000) (hφ : FKind.Formats .f32)
    (hacc : (0x00000000#32 : BitVec 32) = FKind.add.neutral .f32 hφ) (p : Fin 2000) :
    multiReduction .add [1] S2000 y 0x00000000#32 h hφ hacc (ix1 p) = ∑ q : Fin 16, y (ix2 p q) := by
  refine (Ideal.multiReduction_add_single y _ h hφ hacc (ix1 p)).trans ?_
  show ∑ k : Fin 16, y (h.lift (ix1 p) k) = _
  exact Finset.sum_congr rfl fun k _ => congrArg y (lift_row h p k)

/-- A column [a] cast to [a,1] reads, at (p, u), the operand at p. -/
theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a,1] broadcast to [a,b] reads, at (p, q), the column at p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The row maximum (the larger of minus infinity and the lane maximum), kept as a column and broadcast back over the row. -/
def rowMaxV (y : FVec Ideal S2000x16 .f32) : FVec Ideal S2000x16 .f32 :=
  broadcastTo S2000x16
    (shapeCast S2000x1
      (maximumf (broadcast S2000 (Scalar.ofBits (F := Ideal) .f32 0xFF800000#32))
        (multiReduction .maximumf [1] S2000 y 0xFF800000#32 reduces_S2000x16_S2000 (.inl rfl) rfl))
      shapeCasts_S2000_S2000x1)
    broadcasts_S2000x1_S2000x16

/-- The body's log-softmax of a [2000,16] vector: the body's operations after the bias is added. -/
def lsmVec (y : FVec Ideal S2000x16 .f32) : FVec Ideal S2000x16 .f32 :=
  subf (subf y (rowMaxV y))
    (broadcastTo S2000x16
      (log (shapeCast S2000x1
        (multiReduction .add [1] S2000 (exp (subf y (rowMaxV y))) 0x00000000#32 reduces_S2000x16_S2000 (.inl rfl) rfl)
        shapeCasts_S2000_S2000x1))
      broadcasts_S2000x1_S2000x16)

/-- The row's maximum as the specification writes it. -/
def rowM (y : FVec Ideal S2000x16 .f32) (p : Fin 2000) : EReal :=
  max ⊥ ((Finset.univ : Finset (Fin 16)).fold max ⊥ (fun q => y (ix2 p q)))

theorem rowMaxV_apply (y : FVec Ideal S2000x16 .f32) (p : Fin 2000) (q : Fin 16) : rowMaxV y (ix2 p q) = rowM y p := by
  unfold rowMaxV rowM
  rw [broadcastTo_a1_ab_apply, shapeCast_a_a1_apply, maximumf_apply, broadcast_apply]
  exact congrArg₂ max ofBits_neg_inf (rowMax_apply y _ _ _ p)

/-- The log-softmax of the block at (p, q): the entry less the row's maximum, less the logarithm of the row's sum of exponentials. -/
theorem lsmVec_apply (y : FVec Ideal S2000x16 .f32) (p : Fin 2000) (q : Fin 16) :
    lsmVec y (ix2 p q) = (y (ix2 p q) - rowM y p) - Ideal.log (∑ q' : Fin 16, Ideal.exp (y (ix2 p q') - rowM y p)) := by
  unfold lsmVec
  rw [subf_apply, subf_apply, rowMaxV_apply, broadcastTo_a1_ab_apply]
  show _ - Ideal.log (shapeCast S2000x1 _ shapeCasts_S2000_S2000x1 (ix2 p (0 : Fin 1))) = _
  rw [shapeCast_a_a1_apply]
  refine congrArg (fun s => (y (ix2 p q) - rowM y p) - Ideal.log s) ?_
  refine (rowSum_apply _ _ _ _ p).trans (Finset.sum_congr rfl fun q' _ => ?_)
  show Ideal.exp (y (ix2 p q') - rowMaxV y (ix2 p q')) = _
  rw [rowMaxV_apply]

/-- The body's payload is the log-softmax of the rows before it. -/
theorem k3_pay1_eq (x0 : FVec Ideal S2000x16 .f32) (x1 : FVec Ideal S2000x256 .f32) (x2 : FVec Ideal S256x16 .f32) (x3 : FVec Ideal S1x16 .f32) :
    k3_pay1 (F := Ideal) x0 x1 x2 x3 = lsmVec (pre3 x0 x1 x2 x3) := rfl

/-! ## From the blocks to the array -/

theorem hz3 : (![0, 0] : Fin 2 → Nat) = fun _ => 0 := funext fun a => by fin_cases a <;> rfl

/-- The rows before the log-softmax, as a matrix of the four arrays: aggregate plus features times weights plus bias. -/
def Y3 (A0 : S100000x16.Idx → EReal) (A1 : S100000x256.Idx → EReal) (A2 : S256x16.Idx → EReal) (A3 : S1x16.Idx → EReal) : Mat 100000 16 :=
  fun i j => (ofArr A0 i j + mm (ofArr A1) (ofArr A2) i j) + A3 (ix2 (0 : Fin 1) j)

/-- The payload of a row block whose row p is row n of the arrays is, on that row, the log-softmax of row n. -/
theorem pay3_row (x0 : FVec Ideal S2000x16 .f32) (x1 : FVec Ideal S2000x256 .f32) (x2 : FVec Ideal S256x16 .f32) (x3 : FVec Ideal S1x16 .f32)
    (A0 : S100000x16.Idx → EReal) (A1 : S100000x256.Idx → EReal) (A2 : S256x16.Idx → EReal) (A3 : S1x16.Idx → EReal)
    (n : Fin 100000) (p : Fin 2000)
    (h0 : ∀ q : Fin 16, x0 (ix2 p q) = A0 (ix2 n q)) (h1 : ∀ k : Fin 256, x1 (ix2 p k) = A1 (ix2 n k))
    (h2 : ∀ (k : Fin 256) (q : Fin 16), x2 (ix2 k q) = A2 (ix2 k q)) (h3 : ∀ q : Fin 16, x3 (ix2 (0 : Fin 1) q) = A3 (ix2 (0 : Fin 1) q))
    (q : Fin 16) :
    k3_pay1 (F := Ideal) x0 x1 x2 x3 (ix2 p q) = lsm (Y3 A0 A1 A2 A3) n q := by
  have hy : ∀ q' : Fin 16, pre3 x0 x1 x2 x3 (ix2 p q') = Y3 A0 A1 A2 A3 n q' := fun q' => by
    rw [pre3_apply, h0, h3]
    unfold Y3 mm ofArr
    simp only [h1, h2]
  rw [k3_pay1_eq, lsmVec_apply]
  unfold rowM lsm
  simp only [hy]

-- the buffer contents when the region is entered: any
variable (V : (c : Dev nD) → (b : Ref sig .tc) → Buf (Elt Ideal) ((c : Thread nD τ).loc b))

/-- The index maps over the grid: the three big windows' block index is (t, 0), the weights' and the bias's is (0, 0). -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The aggregate window's block at point t is rows 2000 t and on of the aggregate. -/
theorem iblk3_0_apply (c : Dev nD) (t : Fin cfg3.N) (x : S2000x16.Idx) (k : S100000x16.Idx)
    (hk0 : (k 0).val = t.val * 2000 + (x 0).val) (hk1 : (k 1).val = (x 1).val) :
    (iblk3 V c 0 t : FVec Ideal S2000x16 .f32) x = (V c main_v20 : S100000x16.Idx → EReal) k := by
  obtain ⟨e0, e1, -⟩ := idx_facts3 t
  unfold iblk3
  rw [View.read_apply]
  show V c main_v20 _ = V c main_v20 _
  congr 1
  funext a
  apply Fin.ext
  match a with
  | ⟨0, _⟩ => show win3_0.index t (0 : Fin 2) * 2000 + 1 * (x 0).val = (k 0).val; rw [e0, hk0]; omega
  | ⟨1, _⟩ => show win3_0.index t (1 : Fin 2) * 16 + 1 * (x 1).val = (k 1).val; rw [e1, hk1]; omega

/-- The features window's block at point t is rows 2000 t and on of the hidden features. -/
theorem iblk3_1_apply (c : Dev nD) (t : Fin cfg3.N) (x : S2000x256.Idx) (k : S100000x256.Idx)
    (hk0 : (k 0).val = t.val * 2000 + (x 0).val) (hk1 : (k 1).val = (x 1).val) :
    (iblk3 V c 1 t : FVec Ideal S2000x256 .f32) x = (V c main_v15 : S100000x256.Idx → EReal) k := by
  obtain ⟨-, -, e0, e1, -⟩ := idx_facts3 t
  unfold iblk3
  rw [View.read_apply]
  show V c main_v15 _ = V c main_v15 _
  congr 1
  funext a
  apply Fin.ext
  match a with
  | ⟨0, _⟩ => show win3_1.index t (0 : Fin 2) * 2000 + 1 * (x 0).val = (k 0).val; rw [e0, hk0]; omega
  | ⟨1, _⟩ => show win3_1.index t (1 : Fin 2) * 256 + 1 * (x 1).val = (k 1).val; rw [e1, hk1]; omega

/-- The weights window's block is the weights, at every point. -/
theorem iblk3_2_apply (c : Dev nD) (t : Fin cfg3.N) (x : S256x16.Idx) :
    (iblk3 V c 2 t : FVec Ideal S256x16 .f32) x = (V c main_arg9 : S256x16.Idx → EReal) x := by
  obtain ⟨-, -, -, -, e0, e1, -⟩ := idx_facts3 t
  unfold iblk3
  rw [View.read_apply]
  show V c main_arg9 _ = V c main_arg9 _
  congr 1
  funext a
  apply Fin.ext
  match a with
  | ⟨0, _⟩ => show win3_2.index t (0 : Fin 2) * 256 + 1 * (x 0).val = (x 0).val; rw [e0]; omega
  | ⟨1, _⟩ => show win3_2.index t (1 : Fin 2) * 16 + 1 * (x 1).val = (x 1).val; rw [e1]; omega

/-- The bias window's block is the bias row, at every point. -/
theorem iblk3_3_apply (c : Dev nD) (t : Fin cfg3.N) (x : S1x16.Idx) :
    (iblk3 V c 3 t : FVec Ideal S1x16 .f32) x = (V c main_v21 : S1x16.Idx → EReal) x := by
  obtain ⟨-, -, -, -, -, -, e0, e1, -⟩ := idx_facts3 t
  unfold iblk3
  rw [View.read_apply]
  show V c main_v21 _ = V c main_v21 _
  congr 1
  funext a
  apply Fin.ext
  match a with
  | ⟨0, _⟩ => show win3_3.index t (0 : Fin 2) * 1 + 1 * (x 0).val = (x 0).val; rw [e0]; omega
  | ⟨1, _⟩ => show win3_3.index t (1 : Fin 2) * 16 + 1 * (x 1).val = (x 1).val; rw [e1]; omega

/-- What the output array ends holding: the row-wise log-softmax of the rows before it, of the four arrays as the region finds them. -/
def G3 (c : Dev nD) : S100000x16.Idx → EReal :=
  toArr (lsm (Y3 (V c main_v20) (V c main_v15) (V c main_arg9) (V c main_v21)))

/-- That function at an index whose coordinates are n and q. -/
theorem G3_apply (c : Dev nD) (i : S100000x16.Idx) (n : Fin 100000) (q : Fin 16) (h0 : (i 0).val = n.val) (h1 : (i 1).val = q.val) :
    G3 V c i = lsm (Y3 (V c main_v20) (V c main_v15) (V c main_arg9) (V c main_v21)) n q := by
  unfold G3 toArr
  have e0 : (⟨(i 0).val, idx2_lt0 i⟩ : Fin 100000) = n := Fin.ext h0
  have e1 : (⟨(i 1).val, idx2_lt1 i⟩ : Fin 16) = q := Fin.ext h1
  rw [e0, e1]

/-- What point t writes back is block t of that function. -/
theorem flushed3_eq (c : Dev nD) (t : Fin cfg3.N) :
    (dat3 (F := Ideal) V c).flushed 4 t = ((cfg3.win 4).blk t).view.read (Elt Ideal) (G3 V c) := by
  show (cfg3.win 4).cut (grid3.coords t) ((dat3 V c).after 4 t) = _
  rw [after3_4]
  unfold out3_4
  rw [View.canon_unit_zero hz3]
  simp only [View.ld_unit_zero (S := S2000x16) hz3, View.ld_unit_zero (S := S2000x256) hz3, View.ld_unit_zero (S := S256x16) hz3,
    View.ld_unit_zero (S := S1x16) hz3]
  obtain ⟨-, -, -, -, -, -, -, -, e0, e1⟩ := idx_facts3 t
  funext j
  obtain ⟨p, q, rfl⟩ : ∃ (p : Fin 2000) (q : Fin 16), j = ix2 p q := ⟨j 0, j 1, eq_ix2 j⟩
  have hN : cfg3.N = 50 := N_3
  have hn : t.val * 2000 + p.val < 100000 := by have := t.isLt; omega
  show k3_pay1 (F := Ideal) (iblk3 V c 0 t) (iblk3 V c 1 t) (iblk3 V c 2 t) (iblk3 V c 3 t) (ix2 p q)
    = G3 V c (((cfg3.win 4).blk t).view.emb (ix2 p q))
  refine (pay3_row (iblk3 V c 0 t) (iblk3 V c 1 t) (iblk3 V c 2 t) (iblk3 V c 3 t) (V c main_v20) (V c main_v15) (V c main_arg9)
    (V c main_v21) ⟨t.val * 2000 + p.val, hn⟩ p ?_ ?_ ?_ ?_ q).trans ?_
  · intro q'; exact iblk3_0_apply V c t (ix2 p q') (ix2 (⟨t.val * 2000 + p.val, hn⟩ : Fin 100000) q') rfl rfl
  · intro k; exact iblk3_1_apply V c t (ix2 p k) (ix2 (⟨t.val * 2000 + p.val, hn⟩ : Fin 100000) k) rfl rfl
  · intro k q'; exact iblk3_2_apply V c t (ix2 k q')
  · intro q'; exact iblk3_3_apply V c t (ix2 (0 : Fin 1) q')
  · refine (G3_apply V c (((cfg3.win 4).blk t).view.emb (ix2 p q)) ⟨t.val * 2000 + p.val, hn⟩ q ?_ ?_).symm
    · show win3_4.index t (0 : Fin 2) * 2000 + 1 * p.val = t.val * 2000 + p.val; rw [e0]; omega
    · show win3_4.index t (1 : Fin 2) * 16 + 1 * q.val = q.val; rw [e1]; omega

/-- An index of the array is in point t's block iff each coordinate is in the block's range on its axis. -/
theorem mem_blk3 (t : Fin cfg3.N) (i : S100000x16.Idx) :
    i ∈ ((cfg3.win 4).blk t).view.set ↔ ∀ a : Fin 2, win3_4.index t a * S2000x16.size a ≤ (i a).val ∧ (i a).val < win3_4.index t a * S2000x16.size a + S2000x16.size a := by
  show i ∈ ((View.whole main_v22).slice (win3_4.rect t)).set ↔ _
  rw [View.set_slice_whole, Rect.mem_set_unit]
  exact Iff.rfl

/-- Every index of the output array is in the block of the point that covers its row: row r is in block r / 2000. -/
theorem cover3 (i : S100000x16.Idx) : ∃ t : Fin cfg3.N, (cfg3.win 4).flush t = true ∧ i ∈ ((cfg3.win 4).blk t).view.set := by
  have hN : cfg3.N = 50 := N_3
  have hi0 : (i 0).val < 100000 := (i 0).isLt
  have hi1 : (i 1).val < 16 := (i 1).isLt
  have ht : (i 0).val / 2000 < cfg3.N := by rw [hN]; omega
  obtain ⟨-, -, -, -, -, -, -, -, e0, e1⟩ := idx_facts3 ⟨(i 0).val / 2000, ht⟩
  have e0' : win3_4.index ⟨(i 0).val / 2000, ht⟩ (0 : Fin 2) = (i 0).val / 2000 := e0
  refine ⟨⟨(i 0).val / 2000, ht⟩, flush3_4 _, ?_⟩
  rw [mem_blk3]
  intro a
  match a with
  | ⟨0, _⟩ =>
    show win3_4.index ⟨(i 0).val / 2000, ht⟩ (0 : Fin 2) * 2000 ≤ (i 0).val ∧ (i 0).val < win3_4.index ⟨(i 0).val / 2000, ht⟩ (0 : Fin 2) * 2000 + 2000
    rw [e0']; omega
  | ⟨1, _⟩ =>
    show win3_4.index ⟨(i 0).val / 2000, ht⟩ (1 : Fin 2) * 16 ≤ (i 1).val ∧ (i 1).val < win3_4.index ⟨(i 0).val / 2000, ht⟩ (1 : Fin 2) * 16 + 16
    rw [e1]; omega

/-- The output array after the region: the log-softmax of the rows before it. -/
theorem final3 (c : Dev nD) : (dat3 (F := Ideal) V c).arrAt 4 cfg3.N = G3 V c :=
  (dat3 (F := Ideal) V c).arrAt_eq_of_cover 4 (G3 V c) (fun t _ => flushed3_eq V c t) cover3

/-- After the region the output array holds, at `(n, j)`, the row-wise log-softmax of `(Z n j + ∑ q, X n q * Wo q j) + b j`, with `Z`, `X`, `Wo`,
    `b` the four input arrays as the region finds them. -/
theorem region3_value (c : Dev nD) (n : Fin 100000) (j : Fin 16) :
    (dat3 (F := Ideal) V c).arrAt 4 cfg3.N (ix2 n j)
      = lsm (fun i j => (ofArr (V c main_v20) i j
          + mm (ofArr (V c main_v15)) (ofArr (V c main_arg9)) i j) + V c main_v21 (ix2 (0 : Fin 1) j)) n j := by
  rw [final3]
  exact G3_apply V c (ix2 n j) n j rfl rfl

end Cert.KernelIdeal.KVal.Reg3

end
-- ==== Proof.LibScatterSum.lean ====
/-
  AN ACCUMULATING SCATTER ALONG ONE AXIS, READ AT AN INDEX. At the ideal instance a host scatter with an add body is, at
  each operand index, the operand's element plus the sum of the updates whose result index is that index; the start
  index is read signed and not clamped, and an update that lands outside the operand adds nothing. For three layouts
  with ONE index word per update (scatter indices `[E, 1]`) — updates `[C, E]` into `[C, N]` along axis 1, updates
  `[E, K]` into `[N, K]` along axis 0, updates `[E]` into `[N]` — the scatter at an index is the operand's element
  plus the plain sum, over the updates `e` whose index word read signed equals the scattered coordinate `n`, of the
  update element on the same window coordinate. Each layout: the start and the window coordinate on each operand axis,
  then when an update lands on a given index, then the sum re-indexed by coordinates.
-/
import Idealize.ShloMosaic.PureOps.Ideal
import Idealize.ShloMosaic.Lib.ValueIdx

noncomputable section

open Idealize.ShloMosaic Idealize.ShloMosaic.ValueIdx
open scoped BigOperators

namespace Cert.LibScatterSum

section Cols
variable {C N E w : Nat}
  (h : ScatterDims.WF (⟨2, ![C, N]⟩ : Shape) (⟨2, ![E, 1]⟩ : Shape) (⟨2, ![C, E]⟩ : Shape) [0] [1] [1] 1)

/-- The dimension numbers: update window axis 0, inserted operand axis 1, start indices for operand axis 1, the index
    vector on the scatter indices' axis 1. -/
abbrev colsDims : ScatterDims (⟨2, ![C, N]⟩ : Shape) (⟨2, ![E, 1]⟩ : Shape) (⟨2, ![C, E]⟩ : Shape) := ⟨[0], [1], [1], 1, h⟩

/-- No start index names operand axis 0: the window starts at 0 there. -/
theorem cols_start0 (j : (⟨2, ![C, E]⟩ : Shape).Idx) (idx : IVec (⟨2, ![E, 1]⟩ : Shape) w) (h0) :
    (colsDims h).start j idx ⟨0, h0⟩ = 0 := by
  have hm : (⟨0, h0⟩ : Fin (⟨2, ![C, N]⟩ : Shape).rank) ∉ (colsDims h).scatterDimsToOperandDims := by
    show (0 : Fin 2) ∉ ([1] : List (Fin 2)); decide
  unfold ScatterDims.start
  rw [dif_neg hm]

/-- Update `j` reads its one start-index component at `(j 1, 0)` of the scatter indices. -/
theorem cols_siIdx (j : (⟨2, ![C, E]⟩ : Shape).Idx) (c : Fin (colsDims h).scatterDimsToOperandDims.length) :
    (colsDims h).siIdx j c = ix2 (j 1) (0 : Fin 1) := by
  funext b; refine Fin.ext ?_
  match b with
  | ⟨0, _⟩ => rfl
  | ⟨1, _⟩ =>
    show c.val = 0
    have : c.val < 1 := c.isLt
    omega

/-- On operand axis 1 the window starts at the index word of update column `j 1`, read signed. -/
theorem cols_start1 (j : (⟨2, ![C, E]⟩ : Shape).Idx) (idx : IVec (⟨2, ![E, 1]⟩ : Shape) w) (h1) :
    (colsDims h).start j idx ⟨1, h1⟩ = (idx (ix2 (j 1) (0 : Fin 1))).toInt := by
  have hm : (⟨1, h1⟩ : Fin (⟨2, ![C, N]⟩ : Shape).rank) ∈ (colsDims h).scatterDimsToOperandDims := by
    show (1 : Fin 2) ∈ ([1] : List (Fin 2)); decide
  unfold ScatterDims.start
  rw [dif_pos hm, cols_siIdx h j]
  rfl

/-- On operand axis 0 the window coordinate is the update's row. -/
theorem cols_window0 (j : (⟨2, ![C, E]⟩ : Shape).Idx) (h0) : (colsDims h).window j ⟨0, h0⟩ = (j 0).val := by
  have hm : (⟨0, h0⟩ : Fin (⟨2, ![C, N]⟩ : Shape).rank) ∈ (colsDims h).sKept := by
    show (0 : Fin 2) ∈ (List.finRange 2).filter (· ∉ ([1] : List (Fin 2))); decide
  unfold ScatterDims.window
  rw [dif_pos hm]
  rfl

/-- Operand axis 1 is inserted: window coordinate 0. -/
theorem cols_window1 (j : (⟨2, ![C, E]⟩ : Shape).Idx) (h1) : (colsDims h).window j ⟨1, h1⟩ = 0 := by
  have hm : (⟨1, h1⟩ : Fin (⟨2, ![C, N]⟩ : Shape).rank) ∉ (colsDims h).sKept := by
    show (1 : Fin 2) ∉ (List.finRange 2).filter (· ∉ ([1] : List (Fin 2))); decide
  unfold ScatterDims.window
  rw [dif_neg hm]

/-- Update `j` lands on `(c, n)` exactly when its row is `c` and its column's index word, read signed, is `n`. -/
theorem cols_resultIdx_iff (j : (⟨2, ![C, E]⟩ : Shape).Idx) (idx : IVec (⟨2, ![E, 1]⟩ : Shape) w)
    (c : Fin C) (n : Fin N) :
    (colsDims h).resultIdx? j idx = some (ix2 c n) ↔
      j 0 = c ∧ (idx (ix2 (j 1) (0 : Fin 1))).toInt = (n.val : ℤ) := by
  unfold ScatterDims.resultIdx?
  split
  · rename_i hb
    rw [Option.some.injEq]
    constructor
    · intro he
      have e0 := congrArg Fin.val (congrFun he ⟨0, Nat.zero_lt_two⟩)
      have e1 := congrArg Fin.val (congrFun he ⟨1, Nat.one_lt_two⟩)
      have b1 := (hb ⟨1, Nat.one_lt_two⟩).1
      simp only [cols_start0, cols_start1, cols_window0, cols_window1] at e0 e1 b1
      refine ⟨Fin.ext ?_, ?_⟩
      · change _ = c.val at e0; omega
      · change _ = n.val at e1; omega
    · rintro ⟨hc, hn⟩
      funext a; refine Fin.ext ?_
      match a with
      | ⟨0, h0⟩ =>
        show ((colsDims h).start j idx ⟨0, h0⟩ + ((colsDims h).window j ⟨0, h0⟩ : ℕ)).toNat = c.val
        rw [cols_start0, cols_window0, hc]; omega
      | ⟨1, h1⟩ =>
        show ((colsDims h).start j idx ⟨1, h1⟩ + ((colsDims h).window j ⟨1, h1⟩ : ℕ)).toNat = n.val
        rw [cols_start1, cols_window1, hn]; omega
  · rename_i hb
    constructor
    · intro he; cases he
    · rintro ⟨hc, hn⟩
      exfalso; apply hb
      intro a
      match a with
      | ⟨0, _⟩ =>
        show 0 ≤ _ ∧ _ < ((C : ℕ) : ℤ)
        rw [cols_start0, cols_window0, hc]; have := c.isLt; omega
      | ⟨1, _⟩ =>
        show 0 ≤ _ ∧ _ < ((N : ℕ) : ℤ)
        rw [cols_start1, cols_window1, hn]; have := n.isLt; omega

/-- The scatter at `(c, n)`, over the named dimension numbers. -/
theorem cols_sum (x : (⟨2, ![C, N]⟩ : Shape).Idx → EReal) (idx : IVec (⟨2, ![E, 1]⟩ : Shape) w)
    (upd : (⟨2, ![C, E]⟩ : Shape).Idx → EReal) (c : Fin C) (n : Fin N) :
    Ideal.hostScatterAdd (colsDims h) x idx upd (ix2 c n)
      = x (ix2 c n) + ∑ e ∈ Finset.univ.filter (fun e : Fin E => (idx (ix2 e (0 : Fin 1))).toInt = (n.val : ℤ)), upd (ix2 c e) := by
  unfold Ideal.hostScatterAdd
  congr 1
  rw [Finset.sum_filter, Finset.sum_filter, sum_idx2, Finset.sum_comm]
  refine Finset.sum_congr rfl fun e _ => ?_
  have hiff : ∀ a : Fin C, ((colsDims h).resultIdx? (ix2 a e) idx = some (ix2 c n)) ↔
      (a = c ∧ (idx (ix2 e (0 : Fin 1))).toInt = (n.val : ℤ)) := fun a => cols_resultIdx_iff h (ix2 a e) idx c n
  simp only [hiff]
  by_cases hp : (idx (ix2 e (0 : Fin 1))).toInt = (n.val : ℤ)
  · simp only [hp, and_true, if_true, Finset.sum_ite_eq', Finset.mem_univ]
  · simp only [hp, and_false, if_false, Finset.sum_const_zero]
end Cols

section Rows
variable {N K E w : Nat}
  (h : ScatterDims.WF (⟨2, ![N, K]⟩ : Shape) (⟨2, ![E, 1]⟩ : Shape) (⟨2, ![E, K]⟩ : Shape) [1] [0] [0] 1)

/-- The dimension numbers: update window axis 1, inserted operand axis 0, start indices for operand axis 0, the index
    vector on the scatter indices' axis 1. -/
abbrev rowsDims : ScatterDims (⟨2, ![N, K]⟩ : Shape) (⟨2, ![E, 1]⟩ : Shape) (⟨2, ![E, K]⟩ : Shape) := ⟨[1], [0], [0], 1, h⟩

/-- Update `j` reads its one start-index component at `(j 0, 0)` of the scatter indices. -/
theorem rows_siIdx (j : (⟨2, ![E, K]⟩ : Shape).Idx) (c : Fin (rowsDims h).scatterDimsToOperandDims.length) :
    (rowsDims h).siIdx j c = ix2 (j 0) (0 : Fin 1) := by
  funext b; refine Fin.ext ?_
  match b with
  | ⟨0, _⟩ => rfl
  | ⟨1, _⟩ =>
    show c.val = 0
    have : c.val < 1 := c.isLt
    omega

/-- On operand axis 0 the window starts at the index word of update row `j 0`, read signed. -/
theorem rows_start0 (j : (⟨2, ![E, K]⟩ : Shape).Idx) (idx : IVec (⟨2, ![E, 1]⟩ : Shape) w) (h0) :
    (rowsDims h).start j idx ⟨0, h0⟩ = (idx (ix2 (j 0) (0 : Fin 1))).toInt := by
  have hm : (⟨0, h0⟩ : Fin (⟨2, ![N, K]⟩ : Shape).rank) ∈ (rowsDims h).scatterDimsToOperandDims := by
    show (0 : Fin 2) ∈ ([0] : List (Fin 2)); decide
  unfold ScatterDims.start
  rw [dif_pos hm, rows_siIdx h j]
  rfl

/-- No start index names operand axis 1: the window starts at 0 there. -/
theorem rows_start1 (j : (⟨2, ![E, K]⟩ : Shape).Idx) (idx : IVec (⟨2, ![E, 1]⟩ : Shape) w) (h1) :
    (rowsDims h).start j idx ⟨1, h1⟩ = 0 := by
  have hm : (⟨1, h1⟩ : Fin (⟨2, ![N, K]⟩ : Shape).rank) ∉ (rowsDims h).scatterDimsToOperandDims := by
    show (1 : Fin 2) ∉ ([0] : List (Fin 2)); decide
  unfold ScatterDims.start
  rw [dif_neg hm]

/-- Operand axis 0 is inserted: window coordinate 0. -/
theorem rows_window0 (j : (⟨2, ![E, K]⟩ : Shape).Idx) (h0) : (rowsDims h).window j ⟨0, h0⟩ = 0 := by
  have hm : (⟨0, h0⟩ : Fin (⟨2, ![N, K]⟩ : Shape).rank) ∉ (rowsDims h).sKept := by
    show (0 : Fin 2) ∉ (List.finRange 2).filter (· ∉ ([0] : List (Fin 2))); decide
  unfold ScatterDims.window
  rw [dif_neg hm]

/-- On operand axis 1 the window coordinate is the update's column. -/
theorem rows_window1 (j : (⟨2, ![E, K]⟩ : Shape).Idx) (h1) : (rowsDims h).window j ⟨1, h1⟩ = (j 1).val := by
  have hm : (⟨1, h1⟩ : Fin (⟨2, ![N, K]⟩ : Shape).rank) ∈ (rowsDims h).sKept := by
    show (1 : Fin 2) ∈ (List.finRange 2).filter (· ∉ ([0] : List (Fin 2))); decide
  unfold ScatterDims.window
  rw [dif_pos hm]
  rfl

/-- Update `j` lands on `(n, k)` exactly when its row's index word, read signed, is `n` and its column is `k`. -/
theorem rows_resultIdx_iff (j : (⟨2, ![E, K]⟩ : Shape).Idx) (idx : IVec (⟨2, ![E, 1]⟩ : Shape) w)
    (n : Fin N) (k : Fin K) :
    (rowsDims h).resultIdx? j idx = some (ix2 n k) ↔
      (idx (ix2 (j 0) (0 : Fin 1))).toInt = (n.val : ℤ) ∧ j 1 = k := by
  unfold ScatterDims.resultIdx?
  split
  · rename_i hb
    rw [Option.some.injEq]
    constructor
    · intro he
      have e0 := congrArg Fin.val (congrFun he ⟨0, Nat.zero_lt_two⟩)
      have e1 := congrArg Fin.val (congrFun he ⟨1, Nat.one_lt_two⟩)
      have b0 := (hb ⟨0, Nat.zero_lt_two⟩).1
      simp only [rows_start0, rows_start1, rows_window0, rows_window1] at e0 e1 b0
      refine ⟨?_, Fin.ext ?_⟩
      · change _ = n.val at e0; omega
      · change _ = k.val at e1; omega
    · rintro ⟨hn, hk⟩
      funext a; refine Fin.ext ?_
      match a with
      | ⟨0, h0⟩ =>
        show ((rowsDims h).start j idx ⟨0, h0⟩ + ((rowsDims h).window j ⟨0, h0⟩ : ℕ)).toNat = n.val
        rw [rows_start0, rows_window0, hn]; omega
      | ⟨1, h1⟩ =>
        show ((rowsDims h).start j idx ⟨1, h1⟩ + ((rowsDims h).window j ⟨1, h1⟩ : ℕ)).toNat = k.val
        rw [rows_start1, rows_window1, hk]; omega
  · rename_i hb
    constructor
    · intro he; cases he
    · rintro ⟨hn, hk⟩
      exfalso; apply hb
      intro a
      match a with
      | ⟨0, _⟩ =>
        show 0 ≤ _ ∧ _ < ((N : ℕ) : ℤ)
        rw [rows_start0, rows_window0, hn]; have := n.isLt; omega
      | ⟨1, _⟩ =>
        show 0 ≤ _ ∧ _ < ((K : ℕ) : ℤ)
        rw [rows_start1, rows_window1, hk]; have := k.isLt; omega

/-- The scatter at `(n, k)`, over the named dimension numbers. -/
theorem rows_sum (x : (⟨2, ![N, K]⟩ : Shape).Idx → EReal) (idx : IVec (⟨2, ![E, 1]⟩ : Shape) w)
    (upd : (⟨2, ![E, K]⟩ : Shape).Idx → EReal) (n : Fin N) (k : Fin K) :
    Ideal.hostScatterAdd (rowsDims h) x idx upd (ix2 n k)
      = x (ix2 n k) + ∑ e ∈ Finset.univ.filter (fun e : Fin E => (idx (ix2 e (0 : Fin 1))).toInt = (n.val : ℤ)), upd (ix2 e k) := by
  unfold Ideal.hostScatterAdd
  congr 1
  rw [Finset.sum_filter, Finset.sum_filter, sum_idx2]
  refine Finset.sum_congr rfl fun e _ => ?_
  have hiff : ∀ b : Fin K, ((rowsDims h).resultIdx? (ix2 e b) idx = some (ix2 n k)) ↔
      ((idx (ix2 e (0 : Fin 1))).toInt = (n.val : ℤ) ∧ b = k) := fun b => rows_resultIdx_iff h (ix2 e b) idx n k
  simp only [hiff]
  by_cases hp : (idx (ix2 e (0 : Fin 1))).toInt = (n.val : ℤ)
  · simp only [hp, true_and, if_true, Finset.sum_ite_eq', Finset.mem_univ]
  · simp only [hp, false_and, if_false, Finset.sum_const_zero]
end Rows

section Vec
variable {N E w : Nat}
  (h : ScatterDims.WF (⟨1, ![N]⟩ : Shape) (⟨2, ![E, 1]⟩ : Shape) (⟨1, ![E]⟩ : Shape) [] [0] [0] 1)

/-- The dimension numbers: no update window axis, inserted operand axis 0, start indices for operand axis 0, the index
    vector on the scatter indices' axis 1. -/
abbrev vecDims : ScatterDims (⟨1, ![N]⟩ : Shape) (⟨2, ![E, 1]⟩ : Shape) (⟨1, ![E]⟩ : Shape) := ⟨[], [0], [0], 1, h⟩

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Update `j` reads its one start-index component at `(j 0, 0)` of the scatter indices. -/
theorem vec_siIdx (j : (⟨1, ![E]⟩ : Shape).Idx) (c : Fin (vecDims h).scatterDimsToOperandDims.length) :
    (vecDims h).siIdx j c = ix2 (j 0) (0 : Fin 1) := by
  funext b; refine Fin.ext ?_
  match b with
  | ⟨0, _⟩ => rfl
  | ⟨1, _⟩ =>
    show c.val = 0
    have : c.val < 1 := c.isLt
    omega

/-- On the operand's one axis the window starts at the index word of update `j 0`, read signed. -/
theorem vec_start0 (j : (⟨1, ![E]⟩ : Shape).Idx) (idx : IVec (⟨2, ![E, 1]⟩ : Shape) w) (h0) :
    (vecDims h).start j idx ⟨0, h0⟩ = (idx (ix2 (j 0) (0 : Fin 1))).toInt := by
  have hm : (⟨0, h0⟩ : Fin (⟨1, ![N]⟩ : Shape).rank) ∈ (vecDims h).scatterDimsToOperandDims := by
    show (0 : Fin 1) ∈ ([0] : List (Fin 1)); decide
  unfold ScatterDims.start
  rw [dif_pos hm, vec_siIdx h j]
  rfl

/-- The operand's one axis is inserted: window coordinate 0. -/
theorem vec_window0 (j : (⟨1, ![E]⟩ : Shape).Idx) (h0) : (vecDims h).window j ⟨0, h0⟩ = 0 := by
  have hm : (⟨0, h0⟩ : Fin (⟨1, ![N]⟩ : Shape).rank) ∉ (vecDims h).sKept := by
    show (0 : Fin 1) ∉ (List.finRange 1).filter (· ∉ ([0] : List (Fin 1))); decide
  unfold ScatterDims.window
  rw [dif_neg hm]

/-- Update `j` lands on `n` exactly when its index word, read signed, is `n`. -/
theorem vec_resultIdx_iff (j : (⟨1, ![E]⟩ : Shape).Idx) (idx : IVec (⟨2, ![E, 1]⟩ : Shape) w) (n : Fin N) :
    (vecDims h).resultIdx? j idx = some (ix1 n) ↔ (idx (ix2 (j 0) (0 : Fin 1))).toInt = (n.val : ℤ) := by
  unfold ScatterDims.resultIdx?
  split
  · rename_i hb
    rw [Option.some.injEq]
    constructor
    · intro he
      have e0 := congrArg Fin.val (congrFun he ⟨0, Nat.zero_lt_one⟩)
      have b0 := (hb ⟨0, Nat.zero_lt_one⟩).1
      simp only [vec_start0, vec_window0] at e0 b0
      change _ = n.val at e0; omega
    · intro hn
      funext a; refine Fin.ext ?_
      match a with
      | ⟨0, h0⟩ =>
        show ((vecDims h).start j idx ⟨0, h0⟩ + ((vecDims h).window j ⟨0, h0⟩ : ℕ)).toNat = n.val
        rw [vec_start0, vec_window0, hn]; omega
  · rename_i hb
    constructor
    · intro he; cases he
    · intro hn
      exfalso; apply hb
      intro a
      match a with
      | ⟨0, _⟩ =>
        show 0 ≤ _ ∧ _ < ((N : ℕ) : ℤ)
        rw [vec_start0, vec_window0, hn]; have := n.isLt; omega

/-- The scatter at `n`, over the named dimension numbers. -/
theorem vec_sum (x : (⟨1, ![N]⟩ : Shape).Idx → EReal) (idx : IVec (⟨2, ![E, 1]⟩ : Shape) w)
    (upd : (⟨1, ![E]⟩ : Shape).Idx → EReal) (n : Fin N) :
    Ideal.hostScatterAdd (vecDims h) x idx upd (ix1 n)
      = x (ix1 n) + ∑ e ∈ Finset.univ.filter (fun e : Fin E => (idx (ix2 e (0 : Fin 1))).toInt = (n.val : ℤ)), upd (ix1 e) := by
  unfold Ideal.hostScatterAdd
  congr 1
  rw [Finset.sum_filter, Finset.sum_filter, sum_idx1]
  refine Finset.sum_congr rfl fun e _ => ?_
  have hiff : ((vecDims h).resultIdx? (ix1 e) idx = some (ix1 n)) ↔
      ((idx (ix2 e (0 : Fin 1))).toInt = (n.val : ℤ)) := vec_resultIdx_iff h (ix1 e) idx n
  simp only [hiff]
end Vec

/-! ## The three layouts, over their literal dimension numbers -/

/-- An accumulating scatter whose window axis is axis 0 and whose scattered axis is axis 1 (operand `[C, N]`,
    one index word per update column in `[E, 1]`, updates `[C, E]`), read at `(c, n)`: the operand's element plus
    the sum of the updates `(c, e)` over the columns `e` whose index word, read signed, is `n`. -/
theorem scatterAdd_cols {C N E w : Nat}
    (h : ScatterDims.WF (⟨2, ![C, N]⟩ : Shape) (⟨2, ![E, 1]⟩ : Shape) (⟨2, ![C, E]⟩ : Shape) [0] [1] [1] 1)
    (x : (⟨2, ![C, N]⟩ : Shape).Idx → EReal) (idx : IVec (⟨2, ![E, 1]⟩ : Shape) w) (upd : (⟨2, ![C, E]⟩ : Shape).Idx → EReal)
    (c : Fin C) (n : Fin N) :
    Ideal.hostScatterAdd (⟨[0], [1], [1], 1, h⟩ : ScatterDims (⟨2, ![C, N]⟩ : Shape) (⟨2, ![E, 1]⟩ : Shape) (⟨2, ![C, E]⟩ : Shape)) x idx upd (ix2 c n)
      = x (ix2 c n) + ∑ e ∈ Finset.univ.filter (fun e : Fin E => (idx (ix2 e (0 : Fin 1))).toInt = (n.val : ℤ)), upd (ix2 c e) := by
  exact cols_sum h x idx upd c n

/-- An accumulating scatter whose scattered axis is axis 0 and whose window axis is axis 1 (operand `[N, K]`,
    one index word per update row in `[E, 1]`, updates `[E, K]`), read at `(n, k)`: the operand's element plus
    the sum of the updates `(e, k)` over the rows `e` whose index word, read signed, is `n`. -/
theorem scatterAdd_rows {N K E w : Nat}
    (h : ScatterDims.WF (⟨2, ![N, K]⟩ : Shape) (⟨2, ![E, 1]⟩ : Shape) (⟨2, ![E, K]⟩ : Shape) [1] [0] [0] 1)
    (x : (⟨2, ![N, K]⟩ : Shape).Idx → EReal) (idx : IVec (⟨2, ![E, 1]⟩ : Shape) w) (upd : (⟨2, ![E, K]⟩ : Shape).Idx → EReal)
    (n : Fin N) (k : Fin K) :
    Ideal.hostScatterAdd (⟨[1], [0], [0], 1, h⟩ : ScatterDims (⟨2, ![N, K]⟩ : Shape) (⟨2, ![E, 1]⟩ : Shape) (⟨2, ![E, K]⟩ : Shape)) x idx upd (ix2 n k)
      = x (ix2 n k) + ∑ e ∈ Finset.univ.filter (fun e : Fin E => (idx (ix2 e (0 : Fin 1))).toInt = (n.val : ℤ)), upd (ix2 e k) := by
  exact rows_sum h x idx upd n k

/-- An accumulating scatter into a vector (operand `[N]`, one index word per update in `[E, 1]`, updates `[E]`,
    no window axis), read at `n`: the operand's element plus the sum of the updates `e` whose index word, read
    signed, is `n`. -/
theorem scatterAdd_vec {N E w : Nat}
    (h : ScatterDims.WF (⟨1, ![N]⟩ : Shape) (⟨2, ![E, 1]⟩ : Shape) (⟨1, ![E]⟩ : Shape) [] [0] [0] 1)
    (x : (⟨1, ![N]⟩ : Shape).Idx → EReal) (idx : IVec (⟨2, ![E, 1]⟩ : Shape) w) (upd : (⟨1, ![E]⟩ : Shape).Idx → EReal)
    (n : Fin N) :
    Ideal.hostScatterAdd (⟨[], [0], [0], 1, h⟩ : ScatterDims (⟨1, ![N]⟩ : Shape) (⟨2, ![E, 1]⟩ : Shape) (⟨1, ![E]⟩ : Shape)) x idx upd (ix1 n)
      = x (ix1 n) + ∑ e ∈ Finset.univ.filter (fun e : Fin E => (idx (ix2 e (0 : Fin 1))).toInt = (n.val : ℤ)), upd (ix1 e) := by
  exact vec_sum h x idx upd n

end Cert.LibScatterSum

end
-- ==== Proof.LibGatherRows.lean ====
/-
  A GATHER OF WHOLE ROWS, READ AT AN INDEX.

  A gather of an operand `[N, K]` at start indices `[E, 1]` with offset axis 1, collapsed operand axis 0, start index map
  `[0]`, the index vector on axis 1 of the start indices and slices `[1, K]` produces a result `[E, K]`. Its operand index
  for the result index `(e, k)` is, axis by axis, "clamped start + batching coordinate + offset coordinate":

    * on axis 0, which is in the start index map, the start is the word `idx (e, 0)` read signed, as a natural number,
      clamped to `N − 1` (the size `N` minus the slice size `1`); there is no batching axis, and axis 0 is collapsed, so
      the other two summands are `0`;
    * on axis 1, which is not in the start index map, the start is `0`; there is no batching axis; axis 1 is the only kept
      operand axis, it is read by the only offset axis of the result, axis 1, so the offset coordinate is `k`.

  Hence the result at `(e, k)` is the operand at `(min (idx (e, 0)).toInt.toNat (N − 1), k)`.
-/
import Idealize.ShloMosaic.PureOps.Ideal
import Idealize.ShloMosaic.Lib.ValueIdx

noncomputable section

open Idealize.ShloMosaic Idealize.ShloMosaic.ValueIdx

namespace Cert.LibGatherRows

/-- The dimension numbers of a row gather: operand `[N, K]`, one start-index word per result row in `[E, 1]`, result
    `[E, K]`; offset axis 1, collapsed operand axis 0, start indices for operand axis 0, the index vector on the start
    indices' axis 1, slices of one whole row. -/
abbrev rowsDims {N K E : Nat}
    (wf : GatherDims.WF (⟨2, ![N, K]⟩ : Shape) (⟨2, ![E, 1]⟩ : Shape) (⟨2, ![E, K]⟩ : Shape) [1] [0] [] [0] [] 1 ![1, K]) :
    GatherDims (⟨2, ![N, K]⟩ : Shape) (⟨2, ![E, 1]⟩ : Shape) (⟨2, ![E, K]⟩ : Shape) where
  offsetDims := [1]
  collapsedSliceDims := [0]
  operandBatchingDims := []
  startIndicesBatchingDims := []
  startIndexMap := [0]
  indexVectorDim := 1
  sliceSizes := ![1, K]
  wf := wf

/-- The start-indices index at which the result index `(e, k)` reads the only component of its start index is `(e, 0)`:
    the batch coordinate `e` on axis 0 and the component number `0` on the index vector's axis 1. -/
theorem rows_siIdx {N K E : Nat}
    (wf : GatherDims.WF (⟨2, ![N, K]⟩ : Shape) (⟨2, ![E, 1]⟩ : Shape) (⟨2, ![E, K]⟩ : Shape) [1] [0] [] [0] [] 1 ![1, K])
    (e : Fin E) (k : Fin K) (h : List.idxOf (0 : Fin 2) (rowsDims wf).startIndexMap < (rowsDims wf).startIndexMap.length) :
    (rowsDims wf).siIdx (ix2 e k) ⟨List.idxOf (0 : Fin 2) (rowsDims wf).startIndexMap, h⟩ = ix2 e (0 : Fin 1) := by
  funext b
  refine Fin.ext ?_
  match b with
  | ⟨0, _⟩ => rfl
  | ⟨1, _⟩ => rfl

/-- On operand axis 0 the row gather's operand index for `(e, k)` is the start-index word of `e` read signed and clamped
    to `N − 1`: axis 0 is in the start index map with slice size 1, it is no batching axis, and it is collapsed. -/
theorem rows_coord0 {N K E w : Nat}
    (wf : GatherDims.WF (⟨2, ![N, K]⟩ : Shape) (⟨2, ![E, 1]⟩ : Shape) (⟨2, ![E, K]⟩ : Shape) [1] [0] [] [0] [] 1 ![1, K])
    (idx : IVec (⟨2, ![E, 1]⟩ : Shape) w) (e : Fin E) (k : Fin K) :
    (rowsDims wf).start (ix2 e k) idx 0 + (rowsDims wf).batchCoord (ix2 e k) 0 + (rowsDims wf).offCoord (ix2 e k) 0
      = min (idx (ix2 e (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowsDims wf).startIndexMap from List.mem_singleton.mpr rfl)]
  rw [rows_siIdx wf e k]
  rfl

/-- On operand axis 1 the row gather's operand index for `(e, k)` is `k`: axis 1 is not in the start index map (start 0),
    it is no batching axis, and it is the kept operand axis the result's offset axis 1 reads. -/
theorem rows_coord1 {N K E w : Nat}
    (wf : GatherDims.WF (⟨2, ![N, K]⟩ : Shape) (⟨2, ![E, 1]⟩ : Shape) (⟨2, ![E, K]⟩ : Shape) [1] [0] [] [0] [] 1 ![1, K])
    (idx : IVec (⟨2, ![E, 1]⟩ : Shape) w) (e : Fin E) (k : Fin K) :
    (rowsDims wf).start (ix2 e k) idx 1 + (rowsDims wf).batchCoord (ix2 e k) 1 + (rowsDims wf).offCoord (ix2 e k) 1
      = k.val := by
  rw [GatherDims.batchCoord_eq_zero _ _ _ List.not_mem_nil]
  have hs : (rowsDims wf).start (ix2 e k) idx 1 = 0 := by
    unfold GatherDims.start
    rw [dif_neg (show ¬ (1 : Fin 2) ∈ (rowsDims wf).startIndexMap from (by decide : (1 : Fin 2) ∉ ([0] : List (Fin 2))))]
  rw [hs]
  simp only [Nat.add_zero, Nat.zero_add]
  unfold GatherDims.offCoord
  rw [dif_pos (show (1 : Fin 2) ∈ (rowsDims wf).sKept from
    (GatherDims.mem_sKept _ _).mpr ⟨(by decide : (1 : Fin 2) ∉ ([0] : List (Fin 2))), List.not_mem_nil⟩)]
  rfl

/-- THE ROW GATHER READ AT `(e, k)`: the operand's row at the start-index word of `e`, read signed and clamped into
    `[0, N − 1]`, at column `k`. -/
theorem gather_rows_apply {α : Type} {N K E w : Nat} (hN : 0 < N)
    (wf : GatherDims.WF (⟨2, ![N, K]⟩ : Shape) (⟨2, ![E, 1]⟩ : Shape) (⟨2, ![E, K]⟩ : Shape) [1] [0] [] [0] [] 1 ![1, K])
    (x : (⟨2, ![N, K]⟩ : Shape).Idx → α) (idx : IVec (⟨2, ![E, 1]⟩ : Shape) w) (e : Fin E) (k : Fin K) :
    Host.gather (rowsDims wf) x idx (ix2 e k)
      = x (ix2 (⟨min (idx (ix2 e (0 : Fin 1))).toInt.toNat (N - 1), by omega⟩ : Fin N) k) := by
  unfold Host.gather
  congr 1
  funext a
  refine Fin.ext ?_
  match a with
  | ⟨0, _⟩ => exact rows_coord0 wf idx e k
  | ⟨1, _⟩ => exact rows_coord1 wf idx e k

end Cert.LibGatherRows

end
-- ==== Proof.HostAgg.lean ====
/-
  GATHER THE SOURCE ROWS, ADD THEM INTO THE DESTINATION ROWS: THE AGGREGATE OF A LAYER.

  An accumulating scatter of update rows `upd : [nE, K]` into an array `z : [nN, K]` along one destination word per update
  row, read at `(n, k)`, is `z (n, k)` plus the sum of `upd (x, k)` over the rows `x` whose destination word, read signed,
  equals `n`. When the update rows are the rows of `H : [nN, K]` gathered at one source word per row, `upd (x, k)` is
  `H (r x, k)` with `r x` the source word read signed and clamped into `[0, nN − 1]`, which is `rowOf` of that word. With
  `z` zero everywhere the scatter at `(n, k)` is therefore
      0 + ∑ over the edges x whose destination word read signed is n of H (rowOf (source word of x), k),
  the layer's aggregate `agg` of `H` read as a matrix. A select between the gathered rows and a fill value under a mask
  whose every bit is set is the gathered rows themselves, so the same holds with such a select in between.
-/
import proofs.«416603_j41016937677072_3_alg».proof.Proof.Spec
import proofs.«416603_j41016937677072_3_alg».proof.Proof.LibScatterSum
import proofs.«416603_j41016937677072_3_alg».proof.Proof.LibGatherRows

noncomputable section

open Idealize.ShloMosaic Idealize.ShloMosaic.ValueIdx
open scoped BigOperators

namespace Cert.GraphConv

/-- An accumulating scatter, into an array of zeros and along the destination words `di`, of the rows of `H` gathered at
    the source words `si`, read at `(n, k)`: the layer's aggregate of `H` at `(n, k)`, with edge `x`'s source row the
    word `si (x, 0)` read signed and clamped, and its destination the word `di (x, 0)`. -/
theorem scatterAdd_gather_rows {K : Nat}
    (wfg : GatherDims.WF (⟨2, ![nN, K]⟩ : Shape) (⟨2, ![nE, 1]⟩ : Shape) (⟨2, ![nE, K]⟩ : Shape) [1] [0] [] [0] [] 1 ![1, K])
    (wfs : ScatterDims.WF (⟨2, ![nN, K]⟩ : Shape) (⟨2, ![nE, 1]⟩ : Shape) (⟨2, ![nE, K]⟩ : Shape) [1] [0] [0] 1)
    (z H : (⟨2, ![nN, K]⟩ : Shape).Idx → EReal) (hz : ∀ i, z i = 0)
    (si di : IVec (⟨2, ![nE, 1]⟩ : Shape) 32) (n : Fin nN) (k : Fin K) :
    Ideal.hostScatterAdd (⟨[1], [0], [0], 1, wfs⟩ : ScatterDims (⟨2, ![nN, K]⟩ : Shape) (⟨2, ![nE, 1]⟩ : Shape) (⟨2, ![nE, K]⟩ : Shape))
        z di (Host.gather (Cert.LibGatherRows.rowsDims wfg) H si) (ix2 n k)
      = agg (fun x => rowOf (si (ix2 x (0 : Fin 1)))) (fun x => di (ix2 x (0 : Fin 1))) (ofArr H) n k := by
  rw [Cert.LibScatterSum.scatterAdd_rows wfs z di _ n k, hz]
  show (0 : EReal) + _ = 0 + ∑ x ∈ Finset.univ.filter (fun x : Fin nE => (di (ix2 x (0 : Fin 1))).toInt = (n.val : ℤ)),
      H (ix2 (rowOf (si (ix2 x (0 : Fin 1)))) k)
  refine congrArg (fun t => (0 : EReal) + t) (Finset.sum_congr rfl (fun x _ => ?_))
  rw [Cert.LibGatherRows.gather_rows_apply (by decide : 0 < nN) wfg H si x k]
  rfl

/-- A select under a mask whose every bit is set is its first operand. -/
theorem select_all_set {α : Type} {s : Shape} (mask : IVec s 1) (a b : s.Idx → α) (hmask : ∀ i, mask i = 1#1) :
    select mask a b = a := by
  funext i
  rw [select_apply, hmask i, select_one]

/-- The same with the gathered rows kept only where a mask bit is set and replaced by a fill value elsewhere, when every
    mask bit is set: the select is then the gathered rows. -/
theorem scatterAdd_take_rows {K : Nat}
    (wfg : GatherDims.WF (⟨2, ![nN, K]⟩ : Shape) (⟨2, ![nE, 1]⟩ : Shape) (⟨2, ![nE, K]⟩ : Shape) [1] [0] [] [0] [] 1 ![1, K])
    (wfs : ScatterDims.WF (⟨2, ![nN, K]⟩ : Shape) (⟨2, ![nE, 1]⟩ : Shape) (⟨2, ![nE, K]⟩ : Shape) [1] [0] [0] 1)
    (z H : (⟨2, ![nN, K]⟩ : Shape).Idx → EReal) (hz : ∀ i, z i = 0)
    (si di : IVec (⟨2, ![nE, 1]⟩ : Shape) 32) (mask : IVec (⟨2, ![nE, K]⟩ : Shape) 1) (fill : (⟨2, ![nE, K]⟩ : Shape).Idx → EReal)
    (hmask : ∀ i, mask i = 1#1) (n : Fin nN) (k : Fin K) :
    Ideal.hostScatterAdd (⟨[1], [0], [0], 1, wfs⟩ : ScatterDims (⟨2, ![nN, K]⟩ : Shape) (⟨2, ![nE, 1]⟩ : Shape) (⟨2, ![nE, K]⟩ : Shape))
        z di (select mask (Host.gather (Cert.LibGatherRows.rowsDims wfg) H si) fill) (ix2 n k)
      = agg (fun x => rowOf (si (ix2 x (0 : Fin 1)))) (fun x => di (ix2 x (0 : Fin 1))) (ofArr H) n k := by
  rw [select_all_set mask _ fill hmask]
  exact scatterAdd_gather_rows wfg wfs z H hz si di n k

end Cert.GraphConv

end
-- ==== Proof.KHostA.lean ====
/-
  THE HOST STRETCHES OF THE KERNEL PROGRAM BEFORE ITS FIRST AND SECOND REGIONS: what each stretch leaves in the buffers the next region
  reads. Each of the three gather-then-scatter stretches leaves the layer's aggregate of the array it gathers from, when
  every source word is a node; the bias vectors arrive reshaped to one row; the other buffers a region reads are carried
  unchanged.
-/
import proofs.«416603_j41016937677072_3_alg».proof.Proof.Gen.KernelIdeal.Frame
import proofs.«416603_j41016937677072_3_alg».proof.Proof.Spec
import proofs.«416603_j41016937677072_3_alg».proof.Proof.HostAgg
import Idealize.ShloMosaic.Lib.Pipeline.Value
import Idealize.ShloMosaic.Lib.ValueIdx
import Idealize.ShloMosaic.Lib.ValueLayout
import Idealize.ShloMosaic.Lib.StableHlo.Run
import Idealize.ShloMosaic.Lib.ReduceAll
import Idealize.ShloMosaic.PureOps.Ideal.Laws

set_option maxRecDepth 16384

noncomputable section

namespace Cert.KernelIdeal.KVal

open Cert.KernelIdeal Cert.KernelIdeal.Gen Cert.GraphConv
open Idealize.ShloMosaic Idealize.ShloMosaic.TcCoe Idealize.ShloMosaic.ValueIdx Idealize.SL.Sem
open Idealize.ShloMosaic.Pipeline (Dat Cfg Window)
open scoped BigOperators

variable (m : (ℓ : Loc nD τ sig) → Buf (Elt Ideal) ℓ) (ρ : Dev nD → PrngReg)

/-! ## Buffers a host stretch does not write -/

/-- A buffer that no operation of the stretch `ops` writes holds after the stretch what it held before it: the
    stretch's operations are listed, each one's written buffer is named, and the buffer differs from every one of them. -/
local macro "carried_through " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

namespace HostA

/-! ## The take-and-scatter of a layer as a pure term -/

/-- The source words as the program prepares them for its gather: a negative word has the number of nodes added, and the
    words are laid as a column. -/
def srcCol (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 100000#32))) s)

/-- The program's range test of a column of index words, one bit per word: `0 ≤ w` and `w ≤ 99999`, and-reduced over the
    unit axis from the bit 1. -/
def inRange (v : IVec S800000x1 32) : IVec S800000 1 :=
  Host.reduce IntOp.andi
    (andi (cmpi .sge v (broadcastInDim S800000x1 ![] bcast_S_S800000x1 (constantI S_ 32 0#32)))
      (cmpi .sle v (broadcastInDim S800000x1 ![0, 1] bcast_S1x1_S800000x1_0_1
        (broadcastInDim S1x1 ![1] bcast_S1_S1x1_1 (constantI S1 32 99999#32)))))
    (constantI S_ 1 1#1) reducesTo_S800000x1_S800000_d1 h_S_

/-- The rows of `H` the edges read, as the program takes them: the gathered rows where the range test holds, a fill value
    elsewhere. -/
def takeRows (H : S100000x128.Idx → EReal) (s : IVec S800000 32) : S800000x128.Idx → EReal :=
  select (broadcastInDim S800000x128 ![0] bcast_S800000_S800000x128_0 (inRange (srcCol s)))
    (Host.gather gather_S100000x128_S800000x1_S800000x128_1_0_n_n_0_1_1128 H (srcCol s))
    (broadcastInDim S800000x128 ![] bcast_S_S800000x128 (constant (F := Ideal) S_ .f32 0x7FC00000#32))

/-- The taken rows added into an array of zeros along the destination words laid as a column. -/
def scatterRows (d : IVec S800000 32) (U : S800000x128.Idx → EReal) : S100000x128.Idx → EReal :=
  Host.scatterAdd (F := Ideal) (φ := .f32) scatter_S100000x128_S800000x1_S800000x128_1_0_0_1
    (broadcastInDim S100000x128 ![] bcast_S_S100000x128 (constant (F := Ideal) S_ .f32 0x00000000#32))
    (broadcastInDim S800000x1 ![0] bcast_S800000_S800000x1_0 d) U

/-! ## Reading the columns and the range test at an index -/

/-- A vector laid as a column reads, at `(a, b)`, the vector at `a`. -/
theorem col_apply {α : Type} (v : S800000.Idx → α) (a : Fin 800000) (b : Fin 1) :
    broadcastInDim S800000x1 ![0] bcast_S800000_S800000x1_0 v (ix2 a b) = v (ix1 a) :=
  broadcastInDim_apply _ _ _ (ix2 a b) (ix1 a) (fun ax => by
    match ax with
    | ⟨0, _⟩ => rfl)

/-- A vector repeated along the rows of an `[800000, 128]` array reads, at `(a, k)`, the vector at `a`. -/
theorem rows_apply {α : Type} (v : S800000.Idx → α) (a : Fin 800000) (k : Fin 128) :
    broadcastInDim S800000x128 ![0] bcast_S800000_S800000x128_0 v (ix2 a k) = v (ix1 a) :=
  broadcastInDim_apply _ _ _ (ix2 a k) (ix1 a) (fun ax => by
    match ax with
    | ⟨0, _⟩ => rfl)

/-- The prepared source column at `(a, b)` is the wrapped source word of edge `a`. -/
theorem srcCol_apply (s : IVec S800000 32) (a : Fin 800000) (b : Fin 1) : srcCol s (ix2 a b) = wrapW (s (ix1 a)) := by
  unfold srcCol
  rw [col_apply]
  rfl

/-- A word that is a node is not negative: the wrap leaves it as it is. -/
theorem wrapW_of_node (w : BitVec 32) (h0 : 0 ≤ w.toInt) : wrapW w = w := by
  unfold wrapW
  have hc : IntOp.cmpi .slt w 0#32 = 0#1 :=
    eq_zero_of_ne_one fun h => by
      have := IntOp.cmpi_slt.mp h
      rw [show (0#32 : BitVec 32).toInt = 0 from by decide] at this
      omega
  rw [hc, select_zero]

/-- A left fold by `and` from the bit 1 over bits that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have e : IntOp.andi 1#1 1#1 = 1#1 := by decide
    rw [List.foldl_cons, h a List.mem_cons_self, e]
    exact foldl_andi_one f l fun n hn => h n (List.mem_cons_of_mem _ hn)

/-- A reduction by `and` from the bit 1 of bits that are all 1 is 1 at every index. -/
theorem reduce_andi_one {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  rw [Host.reduce_eq_foldl, hi]
  exact foldl_andi_one x _ fun n _ => hx n

/-- When every source word is a node, the range test of the prepared source column holds at every edge. -/
theorem inRange_srcCol (s : IVec S800000 32)
    (hs : ∀ x : Fin 800000, 0 ≤ (s (ix1 x)).toInt ∧ (s (ix1 x)).toInt < 100000) (j : S800000.Idx) :
    inRange (srcCol s) j = 1#1 := by
  unfold inRange
  refine reduce_andi_one _ _ _ _ (fun i => ?_) (fun _ => rfl) j
  obtain ⟨a, b, rfl⟩ : ∃ (a : Fin 800000) (b : Fin 1), i = ix2 a b := ⟨i 0, i 1, eq_ix2 i⟩
  show IntOp.andi (IntOp.cmpi .sge (srcCol s (ix2 a b)) 0#32) (IntOp.cmpi .sle (srcCol s (ix2 a b)) 99999#32) = 1#1
  rw [srcCol_apply, wrapW_of_node _ (hs a).1]
  have h1 : IntOp.cmpi .sge (s (ix1 a)) 0#32 = 1#1 :=
    IntOp.cmpi_sge.mpr (by rw [show (0#32 : BitVec 32).toInt = 0 from by decide]; exact (hs a).1)
  have h2 : IntOp.cmpi .sle (s (ix1 a)) 99999#32 = 1#1 :=
    IntOp.cmpi_sle.mpr (by rw [show (99999#32 : BitVec 32).toInt = 99999 from by decide]; have := (hs a).2; omega)
  rw [h1, h2]
  decide

/-- The aggregate lemma at this program's shapes: an accumulating scatter into zeros along destination words of gathered
    rows, kept under a mask whose every bit is set, is the layer's aggregate. -/
theorem take_rows_128 (z H : S100000x128.Idx → EReal) (hz : ∀ i, z i = 0) (si di : IVec S800000x1 32)
    (mask : IVec S800000x128 1) (fill : S800000x128.Idx → EReal) (hmask : ∀ i, mask i = 1#1) (n : Fin 100000) (k : Fin 128) :
    Ideal.hostScatterAdd (⟨[1], [0], [0], 1, scatter_S100000x128_S800000x1_S800000x128_1_0_0_1_wf⟩ :
            ScatterDims S100000x128 S800000x1 S800000x128) z di
        (select mask (Host.gather (Cert.LibGatherRows.rowsDims gather_S100000x128_S800000x1_S800000x128_1_0_n_n_0_1_1128_wf) H si) fill)
        (ix2 n k)
      = agg (fun x => rowOf (si (ix2 x (0 : Fin 1)))) (fun x => di (ix2 x (0 : Fin 1))) (ofArr H) n k :=
  scatterAdd_take_rows (K := 128) gather_S100000x128_S800000x1_S800000x128_1_0_n_n_0_1_1128_wf
    scatter_S100000x128_S800000x1_S800000x128_1_0_0_1_wf z H hz si di mask fill hmask n k

/-- The scatter of a layer is the accumulating scatter of update rows along one index word per row … -/
theorem scatterRows_eq (d : IVec S800000 32) (U : S800000x128.Idx → EReal) :
    scatterRows d U
      = Ideal.hostScatterAdd (⟨[1], [0], [0], 1, scatter_S100000x128_S800000x1_S800000x128_1_0_0_1_wf⟩ :
            ScatterDims S100000x128 S800000x1 S800000x128)
          (broadcastInDim S100000x128 ![] bcast_S_S100000x128 (constant (F := Ideal) S_ .f32 0x00000000#32))
          (broadcastInDim S800000x1 ![0] bcast_S800000_S800000x1_0 d) U := rfl
/-- … and its gather is the gather of whole rows. -/
theorem takeRows_eq (H : S100000x128.Idx → EReal) (s : IVec S800000 32) :
    takeRows H s
      = select (broadcastInDim S800000x128 ![0] bcast_S800000_S800000x128_0 (inRange (srcCol s)))
          (Host.gather (Cert.LibGatherRows.rowsDims gather_S100000x128_S800000x1_S800000x128_1_0_n_n_0_1_1128_wf) H (srcCol s))
          (broadcastInDim S800000x128 ![] bcast_S_S800000x128 (constant (F := Ideal) S_ .f32 0x7FC00000#32)) := rfl

/-- THE TAKE-AND-SCATTER OF A LAYER: when every source word is a node, the rows of `H` taken at the source words and added
    into zeros along the destination words are the layer's aggregate of `H`. -/
theorem scatterRows_takeRows (H : S100000x128.Idx → EReal) (s d : IVec S800000 32)
    (hs : ∀ x : Fin 800000, 0 ≤ (s (ix1 x)).toInt ∧ (s (ix1 x)).toInt < 100000) (n : Fin 100000) (k : Fin 128) :
    scatterRows d (takeRows H s) (ix2 n k)
      = agg (fun x => rowOf (wrapW (s (ix1 x)))) (fun x => d (ix1 x)) (ofArr H) n k := by
  have hsi : (fun x : Fin nE => rowOf (srcCol s (ix2 x (0 : Fin 1)))) = fun x => rowOf (wrapW (s (ix1 x))) :=
    funext fun x => by rw [srcCol_apply]
  have hdi : (fun x : Fin nE => (broadcastInDim S800000x1 ![0] bcast_S800000_S800000x1_0 d) (ix2 x (0 : Fin 1)))
      = fun x => d (ix1 x) := funext fun x => col_apply d x 0
  have hmask : ∀ i, broadcastInDim S800000x128 ![0] bcast_S800000_S800000x128_0 (inRange (srcCol s)) i = 1#1 := fun i => by
    obtain ⟨a, q, rfl⟩ : ∃ (a : Fin 800000) (q : Fin 128), i = ix2 a q := ⟨i 0, i 1, eq_ix2 i⟩
    rw [rows_apply]
    exact inRange_srcCol s hs _
  have hz : ∀ i, broadcastInDim S100000x128 ![] bcast_S_S100000x128 (constant (F := Ideal) S_ .f32 0x00000000#32) i = 0 :=
    fun _ => Ideal.ofBits_zero_f32
  rw [← hsi, ← hdi, scatterRows_eq, takeRows_eq]
  exact take_rows_128 _ H hz (srcCol s) _ _ _ hmask n k

/-! ## A long stretch run in pieces -/

/-- Two stretches run one after the other are their concatenation run as one. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

/-! ### The first take, in three stretches: the source column; its range test; the gather and the fill -/

/-- The operations that prepare the source column. -/
abbrev take0A : List (HloOp τ sig (Elt Ideal)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S800000, .i32⟩) (broadcastInDim S800000 ![] bcast_S_S800000),
    StableHlo.TRef.binary (.of main_v1 : StableHlo.TRef sig ⟨S800000, .i32⟩) (.of main_call0_v0 : StableHlo.TRef sig ⟨S800000, .i32⟩) (.of main_call0_v1 : StableHlo.TRef sig ⟨S800000, .i1⟩) (cmpi .slt),
    StableHlo.TRef.nullary (.of main_call0_c_0 : StableHlo.TRef sig ⟨S_, .i32⟩) (constantI S_ 32 100000#32),
    StableHlo.TRef.unary (.of main_call0_c_0 : StableHlo.TRef sig ⟨S_, .i32⟩) (.of main_call0_v2 : StableHlo.TRef sig ⟨S800000, .i32⟩) (broadcastInDim S800000 ![] bcast_S_S800000),
    StableHlo.TRef.binary (.of main_v1 : StableHlo.TRef sig ⟨S800000, .i32⟩) (.of main_call0_v2 : StableHlo.TRef sig ⟨S800000, .i32⟩) (.of main_call0_v3 : StableHlo.TRef sig ⟨S800000, .i32⟩) addi,
    StableHlo.TRef.ternary (.of main_call0_v1 : StableHlo.TRef sig ⟨S800000, .i1⟩) (.of main_call0_v3 : StableHlo.TRef sig ⟨S800000, .i32⟩) (.of main_v1 : StableHlo.TRef sig ⟨S800000, .i32⟩) (.of main_call0_v4 : StableHlo.TRef sig ⟨S800000, .i32⟩) select,
    StableHlo.TRef.unary main_call0_call0.v0 (.of main_call0_v5 : StableHlo.TRef sig ⟨S800000x1, .i32⟩) (broadcastInDim S800000x1 ![0] bcast_S800000_S800000x1_0) ]
/-- The operations of the range test. -/
abbrev take0B : List (HloOp τ sig (Elt Ideal)) :=
  [ StableHlo.TRef.nullary (.of main_call0_c_1 : StableHlo.TRef sig ⟨S1, .i32⟩) (constantI S1 32 99999#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S800000x1, .i32⟩) (broadcastInDim S800000x1 ![] bcast_S_S800000x1),
    StableHlo.TRef.binary (.of main_call0_v5 : StableHlo.TRef sig ⟨S800000x1, .i32⟩) (.of main_call0_v6 : StableHlo.TRef sig ⟨S800000x1, .i32⟩) (.of main_call0_v7 : StableHlo.TRef sig ⟨S800000x1, .i1⟩) (cmpi .sge),
    StableHlo.TRef.unary (.of main_call0_c_1 : StableHlo.TRef sig ⟨S1, .i32⟩) (.of main_call0_v8 : StableHlo.TRef sig ⟨S1x1, .i32⟩) (broadcastInDim S1x1 ![1] bcast_S1_S1x1_1),
    StableHlo.TRef.unary (.of main_call0_v8 : StableHlo.TRef sig ⟨S1x1, .i32⟩) (.of main_call0_v9 : StableHlo.TRef sig ⟨S800000x1, .i32⟩) (broadcastInDim S800000x1 ![0, 1] bcast_S1x1_S800000x1_0_1),
    StableHlo.TRef.binary (.of main_call0_v5 : StableHlo.TRef sig ⟨S800000x1, .i32⟩) (.of main_call0_v9 : StableHlo.TRef sig ⟨S800000x1, .i32⟩) (.of main_call0_v10 : StableHlo.TRef sig ⟨S800000x1, .i1⟩) (cmpi .sle),
    StableHlo.TRef.binary (.of main_call0_v7 : StableHlo.TRef sig ⟨S800000x1, .i1⟩) (.of main_call0_v10 : StableHlo.TRef sig ⟨S800000x1, .i1⟩) (.of main_call0_v11 : StableHlo.TRef sig ⟨S800000x1, .i1⟩) andi,
    StableHlo.TRef.nullary (.of main_call0_c_3 : StableHlo.TRef sig ⟨S_, .i1⟩) (constantI S_ 1 1#1),
    StableHlo.TRef.binary (.of main_call0_v11 : StableHlo.TRef sig ⟨S800000x1, .i1⟩) (.of main_call0_c_3 : StableHlo.TRef sig ⟨S_, .i1⟩) (.of main_call0_v12 : StableHlo.TRef sig ⟨S800000, .i1⟩) (fun x v => Host.reduce IntOp.andi x v reducesTo_S800000x1_S800000_d1 h_S_) ]
/-- The gather, the fill value and the select between them. -/
abbrev take0C : List (HloOp τ sig (Elt Ideal)) :=
  [ StableHlo.TRef.binary (.of main_arg0 : StableHlo.TRef sig ⟨S100000x128, .f32⟩) (.of main_call0_v5 : StableHlo.TRef sig ⟨S800000x1, .i32⟩) (.of main_call0_v13 : StableHlo.TRef sig ⟨S800000x128, .f32⟩) (fun x i => Host.gather gather_S100000x128_S800000x1_S800000x128_1_0_n_n_0_1_1128 x i),
    StableHlo.TRef.unary (.of main_call0_v12 : StableHlo.TRef sig ⟨S800000, .i1⟩) (.of main_call0_v14 : StableHlo.TRef sig ⟨S800000x128, .i1⟩) (broadcastInDim S800000x128 ![0] bcast_S800000_S800000x128_0),
    StableHlo.TRef.nullary (.of main_call0_cst : StableHlo.TRef sig ⟨S_, .f32⟩) (constant (F := Ideal) S_ .f32 0x7FC00000#32),
    StableHlo.TRef.unary (.of main_call0_cst : StableHlo.TRef sig ⟨S_, .f32⟩) (.of main_call0_v15 : StableHlo.TRef sig ⟨S800000x128, .f32⟩) (broadcastInDim S800000x128 ![] bcast_S_S800000x128),
    StableHlo.TRef.ternary (.of main_call0_v14 : StableHlo.TRef sig ⟨S800000x128, .i1⟩) (.of main_call0_v13 : StableHlo.TRef sig ⟨S800000x128, .f32⟩) (.of main_call0_v15 : StableHlo.TRef sig ⟨S800000x128, .f32⟩) (.of main_v4 : StableHlo.TRef sig ⟨S800000x128, .f32⟩) select ]
/-- The take is the three stretches in order. -/
theorem take0_split : (hostOps0_1 : List (HloOp τ sig (Elt Ideal))) = take0A ++ (take0B ++ take0C) := rfl

/-- After the first stretch the column buffer holds the prepared source column of the source words. -/
theorem take0A_col (V : Valuation τ sig (Elt Ideal)) :
    StableHlo.after take0A V (Proc.devRef .tc main_call0_v5) = srcCol (V (Proc.devRef .tc main_v1)) := by
  after_results_simp
  simp only [StableHlo.TRef.ofBuf, StableHlo.TRef.toBuf, cast_eq]
  rfl
/-- The first stretch does not write the gathered array. -/
theorem take0A_keep (V : Valuation τ sig (Elt Ideal)) :
    StableHlo.after take0A V (Proc.devRef .tc main_arg0) = V (Proc.devRef .tc main_arg0) := by
  carried_through take0A
/-- After the second stretch the test buffer holds the range test of the column. -/
theorem take0B_test (V : Valuation τ sig (Elt Ideal)) :
    StableHlo.after take0B V (Proc.devRef .tc main_call0_v12) = inRange (V (Proc.devRef .tc main_call0_v5)) := by
  after_results_simp
  simp only [StableHlo.TRef.ofBuf, StableHlo.TRef.toBuf, cast_eq]
  rfl
/-- The second stretch writes neither the gathered array nor the column. -/
theorem take0B_keep (V : Valuation τ sig (Elt Ideal)) :
    StableHlo.after take0B V (Proc.devRef .tc main_arg0) = V (Proc.devRef .tc main_arg0) := by
  carried_through take0B
theorem take0B_keep_col (V : Valuation τ sig (Elt Ideal)) :
    StableHlo.after take0B V (Proc.devRef .tc main_call0_v5) = V (Proc.devRef .tc main_call0_v5) := by
  carried_through take0B
/-- After the third stretch the result buffer holds the gathered rows where the test holds and the fill value elsewhere. -/
theorem take0C_rows (V : Valuation τ sig (Elt Ideal)) :
    StableHlo.after take0C V (Proc.devRef .tc main_v4)
      = select (broadcastInDim S800000x128 ![0] bcast_S800000_S800000x128_0 (V (Proc.devRef .tc main_call0_v12)))
          (Host.gather gather_S100000x128_S800000x1_S800000x128_1_0_n_n_0_1_1128 (V (Proc.devRef .tc main_arg0))
            (V (Proc.devRef .tc main_call0_v5)))
          (broadcastInDim S800000x128 ![] bcast_S_S800000x128 (constant (F := Ideal) S_ .f32 0x7FC00000#32)) := by
  after_results_simp
  simp only [StableHlo.TRef.ofBuf, StableHlo.TRef.toBuf, cast_eq]

/-- THE FIRST TAKE: after it the result buffer holds the taken rows of the gathered array at the source words. -/
theorem take0_eq (V : Valuation τ sig (Elt Ideal)) :
    StableHlo.after hostOps0_1 V (Proc.devRef .tc main_v4)
      = takeRows (V (Proc.devRef .tc main_arg0)) (V (Proc.devRef .tc main_v1)) := by
  rw [take0_split, after_append, after_append, take0C_rows, take0B_test, take0B_keep, take0B_keep_col,
    take0A_col, take0A_keep]
  rfl

/-! ### The second take, in three stretches: the source column; its range test; the gather and the fill -/

/-- The operations that prepare the source column. -/
abbrev take1A : List (HloOp τ sig (Elt Ideal)) :=
  [ StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S800000, .i32⟩) (broadcastInDim S800000 ![] bcast_S_S800000),
    StableHlo.TRef.binary (.of main_v1 : StableHlo.TRef sig ⟨S800000, .i32⟩) (.of main_call1_v0 : StableHlo.TRef sig ⟨S800000, .i32⟩) (.of main_call1_v1 : StableHlo.TRef sig ⟨S800000, .i1⟩) (cmpi .slt),
    StableHlo.TRef.nullary (.of main_call1_c_0 : StableHlo.TRef sig ⟨S_, .i32⟩) (constantI S_ 32 100000#32),
    StableHlo.TRef.unary (.of main_call1_c_0 : StableHlo.TRef sig ⟨S_, .i32⟩) (.of main_call1_v2 : StableHlo.TRef sig ⟨S800000, .i32⟩) (broadcastInDim S800000 ![] bcast_S_S800000),
    StableHlo.TRef.binary (.of main_v1 : StableHlo.TRef sig ⟨S800000, .i32⟩) (.of main_call1_v2 : StableHlo.TRef sig ⟨S800000, .i32⟩) (.of main_call1_v3 : StableHlo.TRef sig ⟨S800000, .i32⟩) addi,
    StableHlo.TRef.ternary (.of main_call1_v1 : StableHlo.TRef sig ⟨S800000, .i1⟩) (.of main_call1_v3 : StableHlo.TRef sig ⟨S800000, .i32⟩) (.of main_v1 : StableHlo.TRef sig ⟨S800000, .i32⟩) (.of main_call1_v4 : StableHlo.TRef sig ⟨S800000, .i32⟩) select,
    StableHlo.TRef.unary main_call1_call0.v0 (.of main_call1_v5 : StableHlo.TRef sig ⟨S800000x1, .i32⟩) (broadcastInDim S800000x1 ![0] bcast_S800000_S800000x1_0) ]
/-- The operations of the range test. -/
abbrev take1B : List (HloOp τ sig (Elt Ideal)) :=
  [ StableHlo.TRef.nullary (.of main_call1_c_1 : StableHlo.TRef sig ⟨S1, .i32⟩) (constantI S1 32 99999#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S800000x1, .i32⟩) (broadcastInDim S800000x1 ![] bcast_S_S800000x1),
    StableHlo.TRef.binary (.of main_call1_v5 : StableHlo.TRef sig ⟨S800000x1, .i32⟩) (.of main_call1_v6 : StableHlo.TRef sig ⟨S800000x1, .i32⟩) (.of main_call1_v7 : StableHlo.TRef sig ⟨S800000x1, .i1⟩) (cmpi .sge),
    StableHlo.TRef.unary (.of main_call1_c_1 : StableHlo.TRef sig ⟨S1, .i32⟩) (.of main_call1_v8 : StableHlo.TRef sig ⟨S1x1, .i32⟩) (broadcastInDim S1x1 ![1] bcast_S1_S1x1_1),
    StableHlo.TRef.unary (.of main_call1_v8 : StableHlo.TRef sig ⟨S1x1, .i32⟩) (.of main_call1_v9 : StableHlo.TRef sig ⟨S800000x1, .i32⟩) (broadcastInDim S800000x1 ![0, 1] bcast_S1x1_S800000x1_0_1),
    StableHlo.TRef.binary (.of main_call1_v5 : StableHlo.TRef sig ⟨S800000x1, .i32⟩) (.of main_call1_v9 : StableHlo.TRef sig ⟨S800000x1, .i32⟩) (.of main_call1_v10 : StableHlo.TRef sig ⟨S800000x1, .i1⟩) (cmpi .sle),
    StableHlo.TRef.binary (.of main_call1_v7 : StableHlo.TRef sig ⟨S800000x1, .i1⟩) (.of main_call1_v10 : StableHlo.TRef sig ⟨S800000x1, .i1⟩) (.of main_call1_v11 : StableHlo.TRef sig ⟨S800000x1, .i1⟩) andi,
    StableHlo.TRef.nullary (.of main_call1_c_3 : StableHlo.TRef sig ⟨S_, .i1⟩) (constantI S_ 1 1#1),
    StableHlo.TRef.binary (.of main_call1_v11 : StableHlo.TRef sig ⟨S800000x1, .i1⟩) (.of main_call1_c_3 : StableHlo.TRef sig ⟨S_, .i1⟩) (.of main_call1_v12 : StableHlo.TRef sig ⟨S800000, .i1⟩) (fun x v => Host.reduce IntOp.andi x v reducesTo_S800000x1_S800000_d1 h_S_) ]
/-- The gather, the fill value and the select between them. -/
abbrev take1C : List (HloOp τ sig (Elt Ideal)) :=
  [ StableHlo.TRef.binary (.of main_v9 : StableHlo.TRef sig ⟨S100000x128, .f32⟩) (.of main_call1_v5 : StableHlo.TRef sig ⟨S800000x1, .i32⟩) (.of main_call1_v13 : StableHlo.TRef sig ⟨S800000x128, .f32⟩) (fun x i => Host.gather gather_S100000x128_S800000x1_S800000x128_1_0_n_n_0_1_1128 x i),
    StableHlo.TRef.unary (.of main_call1_v12 : StableHlo.TRef sig ⟨S800000, .i1⟩) (.of main_call1_v14 : StableHlo.TRef sig ⟨S800000x128, .i1⟩) (broadcastInDim S800000x128 ![0] bcast_S800000_S800000x128_0),
    StableHlo.TRef.nullary (.of main_call1_cst : StableHlo.TRef sig ⟨S_, .f32⟩) (constant (F := Ideal) S_ .f32 0x7FC00000#32),
    StableHlo.TRef.unary (.of main_call1_cst : StableHlo.TRef sig ⟨S_, .f32⟩) (.of main_call1_v15 : StableHlo.TRef sig ⟨S800000x128, .f32⟩) (broadcastInDim S800000x128 ![] bcast_S_S800000x128),
    StableHlo.TRef.ternary (.of main_call1_v14 : StableHlo.TRef sig ⟨S800000x128, .i1⟩) (.of main_call1_v13 : StableHlo.TRef sig ⟨S800000x128, .f32⟩) (.of main_call1_v15 : StableHlo.TRef sig ⟨S800000x128, .f32⟩) (.of main_v10 : StableHlo.TRef sig ⟨S800000x128, .f32⟩) select ]
/-- The take is the three stretches in order. -/
theorem take1_split : (hostOps1 : List (HloOp τ sig (Elt Ideal))) = take1A ++ (take1B ++ take1C) := rfl

/-- After the first stretch the column buffer holds the prepared source column of the source words. -/
theorem take1A_col (V : Valuation τ sig (Elt Ideal)) :
    StableHlo.after take1A V (Proc.devRef .tc main_call1_v5) = srcCol (V (Proc.devRef .tc main_v1)) := by
  after_results_simp
  simp only [StableHlo.TRef.ofBuf, StableHlo.TRef.toBuf, cast_eq]
  rfl
/-- The first stretch does not write the gathered array. -/
theorem take1A_keep (V : Valuation τ sig (Elt Ideal)) :
    StableHlo.after take1A V (Proc.devRef .tc main_v9) = V (Proc.devRef .tc main_v9) := by
  carried_through take1A
/-- After the second stretch the test buffer holds the range test of the column. -/
theorem take1B_test (V : Valuation τ sig (Elt Ideal)) :
    StableHlo.after take1B V (Proc.devRef .tc main_call1_v12) = inRange (V (Proc.devRef .tc main_call1_v5)) := by
  after_results_simp
  simp only [StableHlo.TRef.ofBuf, StableHlo.TRef.toBuf, cast_eq]
  rfl
/-- The second stretch writes neither the gathered array nor the column. -/
theorem take1B_keep (V : Valuation τ sig (Elt Ideal)) :
    StableHlo.after take1B V (Proc.devRef .tc main_v9) = V (Proc.devRef .tc main_v9) := by
  carried_through take1B
theorem take1B_keep_col (V : Valuation τ sig (Elt Ideal)) :
    StableHlo.after take1B V (Proc.devRef .tc main_call1_v5) = V (Proc.devRef .tc main_call1_v5) := by
  carried_through take1B
/-- After the third stretch the result buffer holds the gathered rows where the test holds and the fill value elsewhere. -/
theorem take1C_rows (V : Valuation τ sig (Elt Ideal)) :
    StableHlo.after take1C V (Proc.devRef .tc main_v10)
      = select (broadcastInDim S800000x128 ![0] bcast_S800000_S800000x128_0 (V (Proc.devRef .tc main_call1_v12)))
          (Host.gather gather_S100000x128_S800000x1_S800000x128_1_0_n_n_0_1_1128 (V (Proc.devRef .tc main_v9))
            (V (Proc.devRef .tc main_call1_v5)))
          (broadcastInDim S800000x128 ![] bcast_S_S800000x128 (constant (F := Ideal) S_ .f32 0x7FC00000#32)) := by
  after_results_simp
  simp only [StableHlo.TRef.ofBuf, StableHlo.TRef.toBuf, cast_eq]

/-- THE SECOND TAKE: after it the result buffer holds the taken rows of the gathered array at the source words. -/
theorem take1_eq (V : Valuation τ sig (Elt Ideal)) :
    StableHlo.after hostOps1 V (Proc.devRef .tc main_v10)
      = takeRows (V (Proc.devRef .tc main_v9)) (V (Proc.devRef .tc main_v1)) := by
  rw [take1_split, after_append, after_append, take1C_rows, take1B_test, take1B_keep, take1B_keep_col,
    take1A_col, take1A_keep]
  rfl

/-! ## The edge array's two rows, the stretches around the takes -/

/-- After the first stretch the source-word buffer holds row 0 of the edge array … -/
theorem W1_v1 (c : Dev nD) (x : Fin 800000) :
    W1 m ρ c (Proc.devRef .tc main_v1) (ix1 x) = m ((c.tc : Thread nD τ).loc main_arg1) (ix2 (0 : Fin 2) x) := by
  have h : W1 m ρ c (Proc.devRef .tc main_v1)
      = shapeCast S800000 (extractStridedSlice S1x800000 ![0, 0] (W0 m ρ c (Proc.devRef .tc main_arg1))
          slices_S2x800000_S1x800000_0_0) shapeCasts_S1x800000_S800000 := by
    show StableHlo.after hostOps0 (W0 m ρ c) (Proc.devRef .tc main_v1) = _
    generalize W0 m ρ c = V
    after_results
    rfl
  rw [h, shapeCast_1a_a_apply]
  exact slice2_axis0_apply 0 _ _ (0 : Fin 1) x (0 : Fin 2) rfl
/-- … and the destination-word buffer row 1. -/
theorem W1_v3 (c : Dev nD) (x : Fin 800000) :
    W1 m ρ c (Proc.devRef .tc main_v3) (ix1 x) = m ((c.tc : Thread nD τ).loc main_arg1) (ix2 (1 : Fin 2) x) := by
  have h : W1 m ρ c (Proc.devRef .tc main_v3)
      = shapeCast S800000 (extractStridedSlice S1x800000 ![1, 0] (W0 m ρ c (Proc.devRef .tc main_arg1))
          slices_S2x800000_S1x800000_1_0) shapeCasts_S1x800000_S800000 := by
    show StableHlo.after hostOps0 (W0 m ρ c) (Proc.devRef .tc main_v3) = _
    generalize W0 m ρ c = V
    after_results
    rfl
  rw [h, shapeCast_1a_a_apply]
  exact slice2_axis0_apply 1 _ _ (0 : Fin 1) x (1 : Fin 2) rfl

/-- The two word buffers are written by the first stretch only: they hold the same at region 0's exit. -/
theorem W4_v1 (c : Dev nD) : W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := by carried_through hostOps0_2
    _ = W1 m ρ c (Proc.devRef .tc main_v1) := by carried_through hostOps0_1
theorem W4_v3 (c : Dev nD) : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := by carried_through hostOps0_2
    _ = W1 m ρ c (Proc.devRef .tc main_v3) := by carried_through hostOps0_1

/-- The stretch before region 0 leaves in the aggregate buffer the taken rows added along the destination words. -/
theorem W3_v7_eq (c : Dev nD) :
    W3 m ρ c (Proc.devRef .tc main_v7)
      = scatterRows (W2 m ρ c (Proc.devRef .tc main_v3)) (W2 m ρ c (Proc.devRef .tc main_v4)) := by
  show StableHlo.after hostOps0_2 (W2 m ρ c) (Proc.devRef .tc main_v7) = _
  generalize W2 m ρ c = V
  after_results
  rfl
/-- The same for the stretch before region 1. -/
theorem W6_v13_eq (c : Dev nD) :
    W6 m ρ c (Proc.devRef .tc main_v13)
      = scatterRows (W5 m ρ c (Proc.devRef .tc main_v3)) (W5 m ρ c (Proc.devRef .tc main_v10)) := by
  show StableHlo.after hostOps1_1 (W5 m ρ c) (Proc.devRef .tc main_v13) = _
  generalize W5 m ρ c = V
  after_results
  rfl

/-- The aggregate of an array `H` over the graph, from a valuation whose word buffers hold the edge array's two rows. -/
theorem agg_of_words (c : Dev nD) (hsrc : SrcInRange (m ((c.tc : Thread nD τ).loc main_arg1))) (H : S100000x128.Idx → EReal) (s d : IVec S800000 32)
    (hs : ∀ x : Fin 800000, s (ix1 x) = m ((c.tc : Thread nD τ).loc main_arg1) (ix2 (0 : Fin 2) x))
    (hd : ∀ x : Fin 800000, d (ix1 x) = m ((c.tc : Thread nD τ).loc main_arg1) (ix2 (1 : Fin 2) x)) (n : Fin 100000) (k : Fin 128) :
    scatterRows d (takeRows H s) (ix2 n k) = agg (srcRow (m ((c.tc : Thread nD τ).loc main_arg1))) (dstW (m ((c.tc : Thread nD τ).loc main_arg1))) (ofArr H) n k := by
  rw [scatterRows_takeRows H s d (fun x => by rw [hs x]; exact hsrc x) n k]
  have e1 : (fun x : Fin nE => rowOf (wrapW (s (ix1 x)))) = srcRow (m ((c.tc : Thread nD τ).loc main_arg1)) := funext fun x => by rw [hs x]; rfl
  have e2 : (fun x : Fin nE => d (ix1 x)) = dstW (m ((c.tc : Thread nD τ).loc main_arg1)) := funext fun x => by rw [hd x]; rfl
  rw [e1, e2]

end HostA

open HostA

/-! ## Before region 0 -/

/-- The first aggregate: of the node features. -/
theorem W3_v7 (c : Dev nD) (hsrc : SrcInRange (m ((c.tc : Thread nD τ).loc main_arg1))) (n : Fin 100000) (k : Fin 128) :
    W3 m ρ c (Proc.devRef .tc main_v7) (ix2 n k)
      = agg (srcRow (m ((c.tc : Thread nD τ).loc main_arg1))) (dstW (m ((c.tc : Thread nD τ).loc main_arg1))) (ofArr (m ((c.tc : Thread nD τ).loc main_arg0))) n k := by
  rw [W3_v7_eq, show W2 m ρ c (Proc.devRef .tc main_v4)
      = takeRows (W1 m ρ c (Proc.devRef .tc main_arg0)) (W1 m ρ c (Proc.devRef .tc main_v1)) from take0_eq (W1 m ρ c)]
  have h3 : W2 m ρ c (Proc.devRef .tc main_v3) = W1 m ρ c (Proc.devRef .tc main_v3) := by carried_through hostOps0_1
  have h0 : W1 m ρ c (Proc.devRef .tc main_arg0) = m ((c.tc : Thread nD τ).loc main_arg0) :=
    (by carried_through hostOps0 : W1 m ρ c (Proc.devRef .tc main_arg0) = W0 m ρ c (Proc.devRef .tc main_arg0)).trans rfl
  rw [h3, h0]
  exact agg_of_words m c hsrc (m ((c.tc : Thread nD τ).loc main_arg0)) (W1 m ρ c (Proc.devRef .tc main_v1))
    (W1 m ρ c (Proc.devRef .tc main_v3)) (W1_v1 m ρ c) (W1_v3 m ρ c) n k
/-- The first bias as one row. -/
theorem W3_v8 (c : Dev nD) (j : Fin 128) : W3 m ρ c (Proc.devRef .tc main_v8) (ix2 (0 : Fin 1) j) = (m ((c.tc : Thread nD τ).loc main_arg4)) (ix1 j) := by
  have h : W3 m ρ c (Proc.devRef .tc main_v8)
      = shapeCast S1x128 (W2 m ρ c (Proc.devRef .tc main_arg4)) shapeCasts_S128_S1x128 := by
    show StableHlo.after hostOps0_2 (W2 m ρ c) (Proc.devRef .tc main_v8) = _
    generalize W2 m ρ c = V
    after_results
    rfl
  have h4 : W2 m ρ c (Proc.devRef .tc main_arg4) = m ((c.tc : Thread nD τ).loc main_arg4) :=
    calc W2 m ρ c (Proc.devRef .tc main_arg4)
      _ = W1 m ρ c (Proc.devRef .tc main_arg4) := by carried_through hostOps0_1
      _ = W0 m ρ c (Proc.devRef .tc main_arg4) := by carried_through hostOps0
      _ = m ((c.tc : Thread nD τ).loc main_arg4) := rfl
  rw [h, h4]
  exact shapeCast_a_1a_apply _ _ (0 : Fin 1) j
theorem W3_arg0 (c : Dev nD) : W3 m ρ c (Proc.devRef .tc main_arg0) = (m ((c.tc : Thread nD τ).loc main_arg0)) :=
  calc W3 m ρ c (Proc.devRef .tc main_arg0)
    _ = W2 m ρ c (Proc.devRef .tc main_arg0) := by carried_through hostOps0_2
    _ = W1 m ρ c (Proc.devRef .tc main_arg0) := by carried_through hostOps0_1
    _ = W0 m ρ c (Proc.devRef .tc main_arg0) := by carried_through hostOps0
    _ = m ((c.tc : Thread nD τ).loc main_arg0) := rfl
theorem W3_arg2 (c : Dev nD) : W3 m ρ c (Proc.devRef .tc main_arg2) = (m ((c.tc : Thread nD τ).loc main_arg2)) :=
  calc W3 m ρ c (Proc.devRef .tc main_arg2)
    _ = W2 m ρ c (Proc.devRef .tc main_arg2) := by carried_through hostOps0_2
    _ = W1 m ρ c (Proc.devRef .tc main_arg2) := by carried_through hostOps0_1
    _ = W0 m ρ c (Proc.devRef .tc main_arg2) := by carried_through hostOps0
    _ = m ((c.tc : Thread nD τ).loc main_arg2) := rfl
theorem W3_arg3 (c : Dev nD) : W3 m ρ c (Proc.devRef .tc main_arg3) = (m ((c.tc : Thread nD τ).loc main_arg3)) :=
  calc W3 m ρ c (Proc.devRef .tc main_arg3)
    _ = W2 m ρ c (Proc.devRef .tc main_arg3) := by carried_through hostOps0_2
    _ = W1 m ρ c (Proc.devRef .tc main_arg3) := by carried_through hostOps0_1
    _ = W0 m ρ c (Proc.devRef .tc main_arg3) := by carried_through hostOps0
    _ = m ((c.tc : Thread nD τ).loc main_arg3) := rfl

/-! ## Between region 0 and region 1 -/

/-- The second aggregate: of what region 0 left in its output array. -/
theorem W6_v13 (c : Dev nD) (hsrc : SrcInRange (m ((c.tc : Thread nD τ).loc main_arg1))) (n : Fin 100000) (k : Fin 128) :
    W6 m ρ c (Proc.devRef .tc main_v13) (ix2 n k)
      = agg (srcRow (m ((c.tc : Thread nD τ).loc main_arg1))) (dstW (m ((c.tc : Thread nD τ).loc main_arg1))) (ofArr (W4 m ρ c (Proc.devRef .tc main_v9))) n k := by
  rw [W6_v13_eq, show W5 m ρ c (Proc.devRef .tc main_v10)
      = takeRows (W4 m ρ c (Proc.devRef .tc main_v9)) (W4 m ρ c (Proc.devRef .tc main_v1)) from take1_eq (W4 m ρ c)]
  have h3 : W5 m ρ c (Proc.devRef .tc main_v3) = W4 m ρ c (Proc.devRef .tc main_v3) := by carried_through hostOps1
  rw [h3]
  exact agg_of_words m c hsrc (W4 m ρ c (Proc.devRef .tc main_v9)) (W4 m ρ c (Proc.devRef .tc main_v1))
    (W4 m ρ c (Proc.devRef .tc main_v3)) (fun x => by rw [W4_v1]; exact W1_v1 m ρ c x)
    (fun x => by rw [W4_v3]; exact W1_v3 m ρ c x) n k
/-- The second bias as one row. -/
theorem W6_v14 (c : Dev nD) (j : Fin 256) : W6 m ρ c (Proc.devRef .tc main_v14) (ix2 (0 : Fin 1) j) = (m ((c.tc : Thread nD τ).loc main_arg7)) (ix1 j) := by
  have h : W6 m ρ c (Proc.devRef .tc main_v14)
      = shapeCast S1x256 (W5 m ρ c (Proc.devRef .tc main_arg7)) shapeCasts_S256_S1x256 := by
    show StableHlo.after hostOps1_1 (W5 m ρ c) (Proc.devRef .tc main_v14) = _
    generalize W5 m ρ c = V
    after_results
    rfl
  have h7 : W5 m ρ c (Proc.devRef .tc main_arg7) = m ((c.tc : Thread nD τ).loc main_arg7) :=
    calc W5 m ρ c (Proc.devRef .tc main_arg7)
      _ = W4 m ρ c (Proc.devRef .tc main_arg7) := by carried_through hostOps1
      _ = W3 m ρ c (Proc.devRef .tc main_arg7) := W4_of_ne m ρ c main_arg7 (by decide)
      _ = W2 m ρ c (Proc.devRef .tc main_arg7) := by carried_through hostOps0_2
      _ = W1 m ρ c (Proc.devRef .tc main_arg7) := by carried_through hostOps0_1
      _ = W0 m ρ c (Proc.devRef .tc main_arg7) := by carried_through hostOps0
      _ = m ((c.tc : Thread nD τ).loc main_arg7) := rfl
  rw [h, h7]
  exact shapeCast_a_1a_apply _ _ (0 : Fin 1) j
theorem W6_v9 (c : Dev nD) : W6 m ρ c (Proc.devRef .tc main_v9) = W4 m ρ c (Proc.devRef .tc main_v9) :=
  calc W6 m ρ c (Proc.devRef .tc main_v9)
    _ = W5 m ρ c (Proc.devRef .tc main_v9) := by carried_through hostOps1_1
    _ = W4 m ρ c (Proc.devRef .tc main_v9) := by carried_through hostOps1
theorem W6_arg5 (c : Dev nD) : W6 m ρ c (Proc.devRef .tc main_arg5) = (m ((c.tc : Thread nD τ).loc main_arg5)) :=
  calc W6 m ρ c (Proc.devRef .tc main_arg5)
    _ = W5 m ρ c (Proc.devRef .tc main_arg5) := by carried_through hostOps1_1
    _ = W4 m ρ c (Proc.devRef .tc main_arg5) := by carried_through hostOps1
    _ = W3 m ρ c (Proc.devRef .tc main_arg5) := W4_of_ne m ρ c main_arg5 (by decide)
    _ = W2 m ρ c (Proc.devRef .tc main_arg5) := by carried_through hostOps0_2
    _ = W1 m ρ c (Proc.devRef .tc main_arg5) := by carried_through hostOps0_1
    _ = W0 m ρ c (Proc.devRef .tc main_arg5) := by carried_through hostOps0
    _ = m ((c.tc : Thread nD τ).loc main_arg5) := rfl
theorem W6_arg6 (c : Dev nD) : W6 m ρ c (Proc.devRef .tc main_arg6) = (m ((c.tc : Thread nD τ).loc main_arg6)) :=
  calc W6 m ρ c (Proc.devRef .tc main_arg6)
    _ = W5 m ρ c (Proc.devRef .tc main_arg6) := by carried_through hostOps1_1
    _ = W4 m ρ c (Proc.devRef .tc main_arg6) := by carried_through hostOps1
    _ = W3 m ρ c (Proc.devRef .tc main_arg6) := W4_of_ne m ρ c main_arg6 (by decide)
    _ = W2 m ρ c (Proc.devRef .tc main_arg6) := by carried_through hostOps0_2
    _ = W1 m ρ c (Proc.devRef .tc main_arg6) := by carried_through hostOps0_1
    _ = W0 m ρ c (Proc.devRef .tc main_arg6) := by carried_through hostOps0
    _ = m ((c.tc : Thread nD τ).loc main_arg6) := rfl

end Cert.KernelIdeal.KVal

end
-- ==== Proof.KHostB.lean ====
/-
  THE HOST STRETCHES OF THE KERNEL PROGRAM BEFORE ITS THIRD AND FOURTH REGIONS: what each stretch leaves in the buffers the next region
  reads. Each of the three gather-then-scatter stretches leaves the layer's aggregate of the array it gathers from, when
  every source word is a node; the bias vectors arrive reshaped to one row; the other buffers a region reads are carried
  unchanged.

  The third gather-then-scatter, in full: the source words (row 0 of the edge array, flattened) have a negative word wrapped
  once and are laid as a column of start indices; a row of region 2's output is gathered at each, kept where the start index
  passes the range test `0 ≤ w ≤ 99999` and replaced by a fill value elsewhere; the kept rows are added into an array of
  zeros along the destination words (row 1 of the edge array). When every source word is a node no word is wrapped and
  every test holds, so the result at `(n, j)` is `0` plus the sum over the edges with destination `n` of the output's row at
  the edge's source, column `j`: the layer's aggregate.
-/
import proofs.«416603_j41016937677072_3_alg».proof.Proof.Gen.KernelIdeal.Frame
import proofs.«416603_j41016937677072_3_alg».proof.Proof.Spec
import proofs.«416603_j41016937677072_3_alg».proof.Proof.HostAgg
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.KVal

open Cert.KernelIdeal Cert.KernelIdeal.Gen Cert.GraphConv
open Idealize.ShloMosaic Idealize.ShloMosaic.TcCoe Idealize.ShloMosaic.ValueIdx Idealize.SL.Sem
open Idealize.ShloMosaic.Pipeline (Dat Cfg Window)
open scoped BigOperators

variable (m : (ℓ : Loc nD τ sig) → Buf (Elt Ideal) ℓ) (ρ : Dev nD → PrngReg)

/-- A buffer that no operation of a host stretch writes holds after the stretch what it held before. -/
local macro "khostb_carry" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

namespace HostB

/-! ## Words and one-bit conjunctions -/

/-- A left fold by `and` from 1 over one-bit words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_one f hf l

/-- A reduction by `and` from 1 of an array of one-bit words that are all 1 is 1 everywhere. -/
theorem reduce_andi_of_all {s t u : Shape} {axes : List (Fin s.rank)} (x : s.Idx → BitVec 1) (init : u.Idx → BitVec 1)
    (h : s.ReducesTo axes t) (hu : 0 < u.numel) (hi : init (Shape.Idx.first hu) = 1#1) (hx : ∀ i, x i = 1#1) (j : t.Idx) :
    Host.reduce IntOp.andi x init h hu j = 1#1 := by
  unfold Host.reduce
  rw [hi]
  exact foldl_andi_one (fun n => x (s.rowMajor.symm n)) (fun n => hx _) _

/-- A word that read signed lies in the node range is not wrapped, and passes both range tests. -/
theorem word_facts (w : BitVec 32) (h0 : 0 ≤ w.toInt) (h1 : w.toInt < 100000) :
    wrapW w = w ∧ IntOp.cmpi .sge w 0#32 = 1#1 ∧ IntOp.cmpi .sle w 99999#32 = 1#1 := by
  have z0 : (0#32 : BitVec 32).toInt = 0 := by decide
  have z9 : (99999#32 : BitVec 32).toInt = 99999 := by decide
  refine ⟨?_, ?_, ?_⟩
  · have hn : IntOp.cmpi .slt w 0#32 ≠ 1#1 := by
      rw [Ne, IntOp.cmpi_slt, z0]; omega
    unfold wrapW Scalar.select
    exact if_neg hn
  · rw [IntOp.cmpi_sge, z0]; exact h0
  · rw [IntOp.cmpi_sle, z9]; omega

/-! ## The index arrays of the gather and the scatter -/

/-- The source words with a negative word wrapped once. -/
def wrapV (v1 : IVec S800000 32) : IVec S800000 32 :=
  select (cmpi .slt v1 (broadcastInDim S800000 ![] bcast_S_S800000 (constantI S_ 32 0#32)))
    (addi v1 (broadcastInDim S800000 ![] bcast_S_S800000 (constantI S_ 32 100000#32))) v1

/-- The gather's start indices: one wrapped source word per edge. -/
def srcIdx (v1 : IVec S800000 32) : IVec S800000x1 32 :=
  broadcastInDim S800000x1 ![0] bcast_S800000_S800000x1_0 (wrapV v1)

/-- Per edge, whether its start index lies in the rows: the conjunction over the unit axis of the two range tests. -/
def inRange (si : IVec S800000x1 32) : IVec S800000 1 :=
  Host.reduce IntOp.andi
    (andi (cmpi .sge si (broadcastInDim S800000x1 ![] bcast_S_S800000x1 (constantI S_ 32 0#32)))
      (cmpi .sle si (broadcastInDim S800000x1 ![0, 1] bcast_S1x1_S800000x1_0_1
        (broadcastInDim S1x1 ![1] bcast_S1_S1x1_1 (constantI S1 32 99999#32)))))
    (constantI S_ 1 1#1) reducesTo_S800000x1_S800000_d1 h_S_

/-- A start index is its edge's wrapped source word. -/
theorem srcIdx_apply (v1 : IVec S800000 32) (x : Fin 800000) (y : Fin 1) :
    srcIdx v1 (ix2 x y) = wrapW (v1 (ix1 x)) := by
  unfold srcIdx
  refine (broadcastInDim_apply _ _ _ (ix2 x y) (ix1 x) ?_).trans rfl
  intro a
  fin_cases a
  rfl

/-- A vector broadcast to one column reads the vector. -/
theorem col_apply (v : IVec S800000 32) (x : Fin 800000) (y : Fin 1) :
    broadcastInDim S800000x1 ![0] bcast_S800000_S800000x1_0 v (ix2 x y) = v (ix1 x) := by
  refine broadcastInDim_apply _ _ _ (ix2 x y) (ix1 x) ?_
  intro a
  fin_cases a
  rfl

/-- When every source word is a node, every start index is in range. -/
theorem inRange_of_src (v1 : IVec S800000 32) (h : ∀ x : Fin 800000, 0 ≤ (v1 (ix1 x)).toInt ∧ (v1 (ix1 x)).toInt < 100000)
    (e : S800000.Idx) : inRange (srcIdx v1) e = 1#1 := by
  unfold inRange
  refine reduce_andi_of_all _ _ _ _ rfl (fun i => ?_) e
  obtain ⟨x, y, rfl⟩ : ∃ (x : Fin 800000) (y : Fin 1), i = ix2 x y := ⟨⟨(i 0).val, idx2_lt0 i⟩, ⟨(i 1).val, idx2_lt1 i⟩, eq_ix2 i⟩
  obtain ⟨hw, hge, hle⟩ := word_facts (v1 (ix1 x)) (h x).1 (h x).2
  show IntOp.andi (IntOp.cmpi .sge (srcIdx v1 (ix2 x y)) 0#32) (IntOp.cmpi .sle (srcIdx v1 (ix2 x y)) 99999#32) = 1#1
  rw [srcIdx_apply, hw, hge, hle]
  rfl

/-! ## The edge array's two rows -/

/-- Row `r` of the edge array, cut out as one row and flattened, read at `x`: the array at `(r, x)`. -/
theorem edgeRow_read (a1 : S2x800000.Idx → BitVec 32) (r : Fin 2) (off : Fin 2 → Nat) (h0 : off 0 = r.val) (h1 : off 1 = 0)
    (hsl : S2x800000.Slices off S1x800000) (hsc : S1x800000.ShapeCasts S800000) (x : Fin 800000) :
    shapeCast S800000 (extractStridedSlice S1x800000 off a1 hsl) hsc (ix1 x) = a1 (ix2 r x) := by
  refine (shapeCast_apply _ hsc (ix1 x) (ix2 (0 : Fin 1) x) ?_).trans ?_
  · rw [Shape.rowMajor_val_two, Shape.rowMajor_val_one]
    simp
  · refine extractStridedSlice_apply _ a1 hsl _ (ix2 r x) ?_
    intro a
    fin_cases a
    · simp [h0]
    · simp [h1]

/-- The source words after the first stretch: row 0 of the edge array. -/
theorem W1_v1 (c : Dev nD) (x : Fin 800000) :
    W1 m ρ c (Proc.devRef .tc main_v1) (ix1 x) = m ((c.tc : Thread nD τ).loc main_arg1) (ix2 (0 : Fin 2) x) := by
  have e : W1 m ρ c (Proc.devRef .tc main_v1)
      = shapeCast S800000 (extractStridedSlice S1x800000 ![0, 0] (m ((c.tc : Thread nD τ).loc main_arg1)) slices_S2x800000_S1x800000_0_0)
          shapeCasts_S1x800000_S800000 := by
    show StableHlo.after hostOps0 (W0 m ρ c) (Proc.devRef .tc main_v1) = _
    after_results
    rfl
  rw [e]
  exact edgeRow_read _ 0 ![0, 0] rfl rfl _ _ x

/-- The destination words after the first stretch: row 1 of the edge array. -/
theorem W1_v3 (c : Dev nD) (x : Fin 800000) :
    W1 m ρ c (Proc.devRef .tc main_v3) (ix1 x) = m ((c.tc : Thread nD τ).loc main_arg1) (ix2 (1 : Fin 2) x) := by
  have e : W1 m ρ c (Proc.devRef .tc main_v3)
      = shapeCast S800000 (extractStridedSlice S1x800000 ![1, 0] (m ((c.tc : Thread nD τ).loc main_arg1)) slices_S2x800000_S1x800000_1_0)
          shapeCasts_S1x800000_S800000 := by
    show StableHlo.after hostOps0 (W0 m ρ c) (Proc.devRef .tc main_v3) = _
    after_results
    rfl
  rw [e]
  exact edgeRow_read _ 1 ![1, 0] rfl rfl _ _ x

/-- The source words are carried from the first stretch to region 2's exit. -/
theorem W8_v1 (c : Dev nD) : W8 m ρ c (Proc.devRef .tc main_v1) = W1 m ρ c (Proc.devRef .tc main_v1) :=
  calc W8 m ρ c (Proc.devRef .tc main_v1)
    _ = W7 m ρ c (Proc.devRef .tc main_v1) := W8_of_ne m ρ c main_v1 (by decide)
    _ = W6 m ρ c (Proc.devRef .tc main_v1) := W7_of_ne m ρ c main_v1 (by decide)
    _ = W5 m ρ c (Proc.devRef .tc main_v1) := by khostb_carry hostOps1_1
    _ = W4 m ρ c (Proc.devRef .tc main_v1) := by khostb_carry hostOps1
    _ = W3 m ρ c (Proc.devRef .tc main_v1) := W4_of_ne m ρ c main_v1 (by decide)
    _ = W2 m ρ c (Proc.devRef .tc main_v1) := by khostb_carry hostOps0_2
    _ = W1 m ρ c (Proc.devRef .tc main_v1) := by khostb_carry hostOps0_1

/-- The destination words likewise. -/
theorem W8_v3 (c : Dev nD) : W8 m ρ c (Proc.devRef .tc main_v3) = W1 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := W7_of_ne m ρ c main_v3 (by decide)
    _ = W5 m ρ c (Proc.devRef .tc main_v3) := by khostb_carry hostOps1_1
    _ = W4 m ρ c (Proc.devRef .tc main_v3) := by khostb_carry hostOps1
    _ = W3 m ρ c (Proc.devRef .tc main_v3) := W4_of_ne m ρ c main_v3 (by decide)
    _ = W2 m ρ c (Proc.devRef .tc main_v3) := by khostb_carry hostOps0_2
    _ = W1 m ρ c (Proc.devRef .tc main_v3) := by khostb_carry hostOps0_1

/-- The aggregate lemma at this layer's shapes: an accumulating scatter into zeros along destination words of gathered
    rows, kept under a mask whose every bit is set, is the layer's aggregate. -/
theorem take_rows_16 (z H : S100000x16.Idx → EReal) (hz : ∀ i, z i = 0) (si di : IVec S800000x1 32)
    (mask : IVec S800000x16 1) (fill : S800000x16.Idx → EReal) (hmask : ∀ i, mask i = 1#1) (n : Fin 100000) (k : Fin 16) :
    Host.scatterAdd (F := Ideal) (φ := .f32) scatter_S100000x16_S800000x1_S800000x16_1_0_0_1 z di
        (select mask (Host.gather gather_S100000x16_S800000x1_S800000x16_1_0_n_n_0_1_116 H si) fill) (ix2 n k)
      = agg (fun x => rowOf (si (ix2 x (0 : Fin 1)))) (fun x => di (ix2 x (0 : Fin 1))) (ofArr H) n k :=
  scatterAdd_take_rows (K := 16) gather_S100000x16_S800000x1_S800000x16_1_0_n_n_0_1_116_wf
    scatter_S100000x16_S800000x1_S800000x16_1_0_0_1_wf z H hz si di mask fill hmask n k

/-- THE AGGREGATE FROM THE SCATTER OF THE TAKEN ROWS, over any arrays: with source words `v1` and destination words `v3` the
    two rows of an edge array `ei` whose source words are all nodes, the accumulating scatter into zeros along the
    destination words of the rows of `H` taken at the source words is the layer's aggregate of `H`. -/
theorem agg_of_scatter (v1 v3 : IVec S800000 32) (H : S100000x16.Idx → EReal) (ei : S2x800000.Idx → BitVec 32)
    (hv1 : ∀ x : Fin 800000, v1 (ix1 x) = ei (ix2 (0 : Fin 2) x)) (hv3 : ∀ x : Fin 800000, v3 (ix1 x) = ei (ix2 (1 : Fin 2) x))
    (hsrc : SrcInRange ei) (n : Fin 100000) (j : Fin 16) :
    Host.scatterAdd (F := Ideal) (φ := .f32) scatter_S100000x16_S800000x1_S800000x16_1_0_0_1
        (broadcastInDim S100000x16 ![] bcast_S_S100000x16 (constant (F := Ideal) S_ .f32 0x00000000#32))
        (broadcastInDim S800000x1 ![0] bcast_S800000_S800000x1_0 v3)
        (select (broadcastInDim S800000x16 ![0] bcast_S800000_S800000x16_0 (inRange (srcIdx v1)))
          (Host.gather gather_S100000x16_S800000x1_S800000x16_1_0_n_n_0_1_116 H (srcIdx v1))
          (broadcastInDim S800000x16 ![] bcast_S_S800000x16 (constant (F := Ideal) S_ .f32 0x7FC00000#32))) (ix2 n j)
      = agg (srcRow ei) (dstW ei) (ofArr H) n j := by
  refine (take_rows_16 _ H ?hz (srcIdx v1) _ _ _ ?hmask n j).trans ?_
  case hz =>
    intro i
    show Ideal.ofBits .f32 0x00000000#32 = _
    simp [Ideal.ofBits, Ideal.ieee]
  case hmask =>
    intro i
    exact inRange_of_src _ (fun x => by rw [hv1]; exact hsrc x) _
  have hs : (fun x : Fin nE => rowOf (srcIdx v1 (ix2 x (0 : Fin 1)))) = srcRow ei :=
    funext fun x => by rw [srcIdx_apply, hv1]; rfl
  have hd : (fun x : Fin nE => broadcastInDim S800000x1 ![0] bcast_S800000_S800000x1_0 v3 (ix2 x (0 : Fin 1))) = dstW ei :=
    funext fun x => by rw [col_apply, hv3]; rfl
  rw [hs, hd]

/-- Transport along an equation of a type with itself changes nothing. -/
theorem cast_self {α : Sort _} (h : α = α) (a : α) : cast h a = a := eq_of_heq (cast_heq h a)

/-- What the two stretches between region 2 and region 3 leave in the scatter's result, over region 2's exit contents:
    the accumulating scatter, into zeros and along the destination words, of the rows of region 2's output gathered at
    the wrapped source words, a row kept where its start index passes the range test and filled otherwise. -/
theorem W10_v20_eq (c : Dev nD) :
    W10 m ρ c (Proc.devRef .tc main_v20)
      = Host.scatterAdd (F := Ideal) scatter_S100000x16_S800000x1_S800000x16_1_0_0_1
          (broadcastInDim S100000x16 ![] bcast_S_S100000x16 (constant (F := Ideal) S_ .f32 0x00000000#32))
          (broadcastInDim S800000x1 ![0] bcast_S800000_S800000x1_0 (W8 m ρ c (Proc.devRef .tc main_v3)))
          (select (broadcastInDim S800000x16 ![0] bcast_S800000_S800000x16_0 (inRange (srcIdx (W8 m ρ c (Proc.devRef .tc main_v1)))))
            (Host.gather gather_S100000x16_S800000x1_S800000x16_1_0_n_n_0_1_116 (W8 m ρ c (Proc.devRef .tc main_v16))
              (srcIdx (W8 m ρ c (Proc.devRef .tc main_v1))))
            (broadcastInDim S800000x16 ![] bcast_S_S800000x16 (constant (F := Ideal) S_ .f32 0x7FC00000#32))) := by
  show StableHlo.after hostOps3_1 (W9 m ρ c) (Proc.devRef .tc main_v20) = _
  after_results_simp
  simp only [cast_self]
  rfl

end HostB

open HostB

/-! ## Region 2's entry (region 1's exit) -/

/-- The third layer's relation weights are an input window of region 2 and written by nothing: as launched. -/
theorem W7_arg8 (c : Dev nD) : W7 m ρ c (Proc.devRef .tc main_arg8) = (m ((c.tc : Thread nD τ).loc main_arg8)) :=
  calc W7 m ρ c (Proc.devRef .tc main_arg8)
    _ = W8 m ρ c (Proc.devRef .tc main_arg8) := ((W8_arr m ρ c 1).trans (((dat2 (V7 m ρ) c).arrAt_in 1 rfl _).trans (A_eq2 (V7 m ρ) c 1))).symm
    _ = W9 m ρ c (Proc.devRef .tc main_arg8) := Eq.symm (by khostb_carry hostOps3)
    _ = W10 m ρ c (Proc.devRef .tc main_arg8) := Eq.symm (by khostb_carry hostOps3_1)
    _ = W11 m ρ c (Proc.devRef .tc main_arg8) := (W11_of_ne m ρ c main_arg8 (by decide)).symm
    _ = m ((c.tc : Thread nD τ).loc main_arg8) := W11_main_arg8 m ρ c

/-! ## Between region 2 and region 3 -/

/-- The third aggregate: of what region 2 left in its output array. -/
theorem W10_v20 (c : Dev nD) (hsrc : SrcInRange (m ((c.tc : Thread nD τ).loc main_arg1))) (n : Fin 100000) (j : Fin 16) :
    W10 m ρ c (Proc.devRef .tc main_v20) (ix2 n j)
      = agg (srcRow (m ((c.tc : Thread nD τ).loc main_arg1))) (dstW (m ((c.tc : Thread nD τ).loc main_arg1))) (ofArr (W8 m ρ c (Proc.devRef .tc main_v16))) n j := by
  have hv1 : ∀ x : Fin 800000, W8 m ρ c (Proc.devRef .tc main_v1) (ix1 x) = m ((c.tc : Thread nD τ).loc main_arg1) (ix2 (0 : Fin 2) x) :=
    fun x => by rw [W8_v1]; exact W1_v1 m ρ c x
  have hv3 : ∀ x : Fin 800000, W8 m ρ c (Proc.devRef .tc main_v3) (ix1 x) = m ((c.tc : Thread nD τ).loc main_arg1) (ix2 (1 : Fin 2) x) :=
    fun x => by rw [W8_v3]; exact W1_v3 m ρ c x
  exact (congrFun (W10_v20_eq m ρ c) (ix2 n j)).trans
    (agg_of_scatter (W8 m ρ c (Proc.devRef .tc main_v1)) (W8 m ρ c (Proc.devRef .tc main_v3)) (W8 m ρ c (Proc.devRef .tc main_v16))
      (m ((c.tc : Thread nD τ).loc main_arg1)) hv1 hv3 hsrc n j)

/-- The third bias as one row. -/
theorem W10_v21 (c : Dev nD) (j : Fin 16) : W10 m ρ c (Proc.devRef .tc main_v21) (ix2 (0 : Fin 1) j) = (m ((c.tc : Thread nD τ).loc main_arg10)) (ix1 j) := by
  have h9 : W9 m ρ c (Proc.devRef .tc main_arg10) = m ((c.tc : Thread nD τ).loc main_arg10) :=
    calc W9 m ρ c (Proc.devRef .tc main_arg10)
      _ = W10 m ρ c (Proc.devRef .tc main_arg10) := Eq.symm (by khostb_carry hostOps3_1)
      _ = W11 m ρ c (Proc.devRef .tc main_arg10) := (W11_of_ne m ρ c main_arg10 (by decide)).symm
      _ = m ((c.tc : Thread nD τ).loc main_arg10) := W11_main_arg10 m ρ c
  have e : W10 m ρ c (Proc.devRef .tc main_v21)
      = shapeCast S1x16 (W9 m ρ c (Proc.devRef .tc main_arg10)) shapeCasts_S16_S1x16 := by
    show StableHlo.after hostOps3_1 (W9 m ρ c) (Proc.devRef .tc main_v21) = _
    after_results
    rfl
  rw [e, h9]
  refine shapeCast_apply _ _ (ix2 (0 : Fin 1) j) (ix1 j) ?_
  rw [Shape.rowMajor_val_two, Shape.rowMajor_val_one]
  simp

/-- Region 2's first input is written by neither stretch and is an input window of region 2: as at region 2's entry. -/
theorem W10_v15 (c : Dev nD) : W10 m ρ c (Proc.devRef .tc main_v15) = W7 m ρ c (Proc.devRef .tc main_v15) :=
  calc W10 m ρ c (Proc.devRef .tc main_v15)
    _ = W9 m ρ c (Proc.devRef .tc main_v15) := by khostb_carry hostOps3_1
    _ = W8 m ρ c (Proc.devRef .tc main_v15) := by khostb_carry hostOps3
    _ = W7 m ρ c (Proc.devRef .tc main_v15) := (W8_arr m ρ c 0).trans (((dat2 (V7 m ρ) c).arrAt_in 0 rfl _).trans (A_eq2 (V7 m ρ) c 0))

/-- The third layer's root weights are an input window of region 3 and written by nothing: as launched. -/
theorem W10_arg9 (c : Dev nD) : W10 m ρ c (Proc.devRef .tc main_arg9) = (m ((c.tc : Thread nD τ).loc main_arg9)) :=
  ((W11_arr m ρ c 2).trans (((dat3 (V10 m ρ) c).arrAt_in 2 rfl _).trans (A_eq3 (V10 m ρ) c 2))).symm.trans (W11_main_arg9 m ρ c)

end Cert.KernelIdeal.KVal

end
-- ==== Proof.KValue.lean ====
/-
  THE KERNEL PROGRAM'S RESULT IS THE NETWORK WITH THE THIRD LAYER'S RELATION WEIGHTS APPLIED FIRST. Region by region: each
  region's output array, read at an index, is a matrix of what the region found in its input arrays (the four region
  modules); the host stretches between the regions put the layer's aggregate, the bias row and the carried buffers there
  (the two host modules); chaining them from the launch memory, region 0 leaves the first hidden layer, region 1 the second,
  region 2 the second hidden layer times the third layer's relation weights, and region 3 the log-softmax of that product's
  aggregate plus the hidden layer times the root weights plus the bias.
-/
import proofs.«416603_j41016937677072_3_alg».proof.Proof.Gen.KernelIdeal.Frame
import proofs.«416603_j41016937677072_3_alg».proof.Proof.Spec
import proofs.«416603_j41016937677072_3_alg».proof.Proof.KRun
import proofs.«416603_j41016937677072_3_alg».proof.Proof.KRegion0
import proofs.«416603_j41016937677072_3_alg».proof.Proof.KRegion1
import proofs.«416603_j41016937677072_3_alg».proof.Proof.KRegion2
import proofs.«416603_j41016937677072_3_alg».proof.Proof.KRegion3
import proofs.«416603_j41016937677072_3_alg».proof.Proof.KHostA
import proofs.«416603_j41016937677072_3_alg».proof.Proof.KHostB
import Idealize.ShloMosaic.Lib.Pipeline.Value
import Idealize.ShloMosaic.Lib.ValueIdx

set_option maxRecDepth 16384

noncomputable section

namespace Cert.KernelIdeal.KVal

open Cert.KernelIdeal Cert.KernelIdeal.Gen Cert.GraphConv
open Idealize.ShloMosaic Idealize.ShloMosaic.TcCoe Idealize.ShloMosaic.ValueIdx Idealize.SL.Sem
open Idealize.ShloMosaic.Pipeline (Dat Cfg Window)
open scoped BigOperators

/-! ## The chain: each region's output array as a matrix of the arguments -/

section Chain
variable (m : (ℓ : Loc nD τ sig) → Buf (Elt Ideal) ℓ) (ρ : Dev nD → PrngReg)

/-- Region 0 leaves the first hidden layer in its output array. -/
theorem W4_v9 (c : Dev nD) (hsrc : SrcInRange (m ((c.tc : Thread nD τ).loc main_arg1))) (n : Fin 100000) (j : Fin 128) :
    W4 m ρ c (Proc.devRef .tc main_v9) (ix2 n j) = (hidden1 (srcRow (m ((c.tc : Thread nD τ).loc main_arg1))) (dstW (m ((c.tc : Thread nD τ).loc main_arg1))) (ofArr (m ((c.tc : Thread nD τ).loc main_arg0))) (ofArr (m ((c.tc : Thread nD τ).loc main_arg2))) (ofArr (m ((c.tc : Thread nD τ).loc main_arg3))) (ofVec (m ((c.tc : Thread nD τ).loc main_arg4)))) n j := by
  have hA : ofArr (W3 m ρ c (Proc.devRef .tc main_v7)) = agg (srcRow (m ((c.tc : Thread nD τ).loc main_arg1))) (dstW (m ((c.tc : Thread nD τ).loc main_arg1))) (ofArr (m ((c.tc : Thread nD τ).loc main_arg0))) :=
    funext fun n => funext fun k => W3_v7 m ρ c hsrc n k
  have hb : ∀ j : Fin 128, W3 m ρ c (Proc.devRef .tc main_v8) (ix2 (0 : Fin 1) j) = ofVec (m ((c.tc : Thread nD τ).loc main_arg4)) j := fun j => W3_v8 m ρ c j
  refine (congrFun (W4_arr m ρ c 5) (ix2 n j)).trans ?_
  refine (Reg0.region0_value (V3 m ρ) c n j).trans ?_
  show relu (fun i j => (mm (ofArr (W3 m ρ c (Proc.devRef .tc main_v7))) (ofArr (W3 m ρ c (Proc.devRef .tc main_arg2))) i j
      + mm (ofArr (W3 m ρ c (Proc.devRef .tc main_arg0))) (ofArr (W3 m ρ c (Proc.devRef .tc main_arg3))) i j) + W3 m ρ c (Proc.devRef .tc main_v8) (ix2 (0 : Fin 1) j)) n j = _
  rw [hA, W3_arg0, W3_arg2, W3_arg3]
  simp only [hb]
  rfl

/-- Region 1 leaves the second hidden layer in its output array. -/
theorem W7_v15 (c : Dev nD) (hsrc : SrcInRange (m ((c.tc : Thread nD τ).loc main_arg1))) (n : Fin 100000) (j : Fin 256) :
    W7 m ρ c (Proc.devRef .tc main_v15) (ix2 n j) = (hidden2 (srcRow (m ((c.tc : Thread nD τ).loc main_arg1))) (dstW (m ((c.tc : Thread nD τ).loc main_arg1))) (hidden1 (srcRow (m ((c.tc : Thread nD τ).loc main_arg1))) (dstW (m ((c.tc : Thread nD τ).loc main_arg1))) (ofArr (m ((c.tc : Thread nD τ).loc main_arg0))) (ofArr (m ((c.tc : Thread nD τ).loc main_arg2))) (ofArr (m ((c.tc : Thread nD τ).loc main_arg3))) (ofVec (m ((c.tc : Thread nD τ).loc main_arg4)))) (ofArr (m ((c.tc : Thread nD τ).loc main_arg5))) (ofArr (m ((c.tc : Thread nD τ).loc main_arg6))) (ofVec (m ((c.tc : Thread nD τ).loc main_arg7)))) n j := by
  have hH : ofArr (W4 m ρ c (Proc.devRef .tc main_v9)) = (hidden1 (srcRow (m ((c.tc : Thread nD τ).loc main_arg1))) (dstW (m ((c.tc : Thread nD τ).loc main_arg1))) (ofArr (m ((c.tc : Thread nD τ).loc main_arg0))) (ofArr (m ((c.tc : Thread nD τ).loc main_arg2))) (ofArr (m ((c.tc : Thread nD τ).loc main_arg3))) (ofVec (m ((c.tc : Thread nD τ).loc main_arg4)))) := funext fun n => funext fun k => W4_v9 m ρ c hsrc n k
  have hA : ofArr (W6 m ρ c (Proc.devRef .tc main_v13)) = agg (srcRow (m ((c.tc : Thread nD τ).loc main_arg1))) (dstW (m ((c.tc : Thread nD τ).loc main_arg1))) (hidden1 (srcRow (m ((c.tc : Thread nD τ).loc main_arg1))) (dstW (m ((c.tc : Thread nD τ).loc main_arg1))) (ofArr (m ((c.tc : Thread nD τ).loc main_arg0))) (ofArr (m ((c.tc : Thread nD τ).loc main_arg2))) (ofArr (m ((c.tc : Thread nD τ).loc main_arg3))) (ofVec (m ((c.tc : Thread nD τ).loc main_arg4)))) := by
    rw [← hH]; exact funext fun n => funext fun k => W6_v13 m ρ c hsrc n k
  have hb : ∀ j : Fin 256, W6 m ρ c (Proc.devRef .tc main_v14) (ix2 (0 : Fin 1) j) = ofVec (m ((c.tc : Thread nD τ).loc main_arg7)) j := fun j => W6_v14 m ρ c j
  refine (congrFun (W7_arr m ρ c 5) (ix2 n j)).trans ?_
  refine (Reg1.region1_value (V6 m ρ) c n j).trans ?_
  show relu (fun i j => (mm (ofArr (W6 m ρ c (Proc.devRef .tc main_v13))) (ofArr (W6 m ρ c (Proc.devRef .tc main_arg5))) i j
      + mm (ofArr (W6 m ρ c (Proc.devRef .tc main_v9))) (ofArr (W6 m ρ c (Proc.devRef .tc main_arg6))) i j) + W6 m ρ c (Proc.devRef .tc main_v14) (ix2 (0 : Fin 1) j)) n j = _
  rw [hA, W6_v9, hH, W6_arg5, W6_arg6]
  simp only [hb]
  rfl

/-- Region 2 leaves the second hidden layer times the third layer's relation weights in its output array. -/
theorem W8_v16 (c : Dev nD) (hsrc : SrcInRange (m ((c.tc : Thread nD τ).loc main_arg1))) (n : Fin 100000) (j : Fin 16) :
    W8 m ρ c (Proc.devRef .tc main_v16) (ix2 n j) = mm (hidden2 (srcRow (m ((c.tc : Thread nD τ).loc main_arg1))) (dstW (m ((c.tc : Thread nD τ).loc main_arg1))) (hidden1 (srcRow (m ((c.tc : Thread nD τ).loc main_arg1))) (dstW (m ((c.tc : Thread nD τ).loc main_arg1))) (ofArr (m ((c.tc : Thread nD τ).loc main_arg0))) (ofArr (m ((c.tc : Thread nD τ).loc main_arg2))) (ofArr (m ((c.tc : Thread nD τ).loc main_arg3))) (ofVec (m ((c.tc : Thread nD τ).loc main_arg4)))) (ofArr (m ((c.tc : Thread nD τ).loc main_arg5))) (ofArr (m ((c.tc : Thread nD τ).loc main_arg6))) (ofVec (m ((c.tc : Thread nD τ).loc main_arg7)))) (ofArr (m ((c.tc : Thread nD τ).loc main_arg8))) n j := by
  have hH : ofArr (W7 m ρ c (Proc.devRef .tc main_v15)) = (hidden2 (srcRow (m ((c.tc : Thread nD τ).loc main_arg1))) (dstW (m ((c.tc : Thread nD τ).loc main_arg1))) (hidden1 (srcRow (m ((c.tc : Thread nD τ).loc main_arg1))) (dstW (m ((c.tc : Thread nD τ).loc main_arg1))) (ofArr (m ((c.tc : Thread nD τ).loc main_arg0))) (ofArr (m ((c.tc : Thread nD τ).loc main_arg2))) (ofArr (m ((c.tc : Thread nD τ).loc main_arg3))) (ofVec (m ((c.tc : Thread nD τ).loc main_arg4)))) (ofArr (m ((c.tc : Thread nD τ).loc main_arg5))) (ofArr (m ((c.tc : Thread nD τ).loc main_arg6))) (ofVec (m ((c.tc : Thread nD τ).loc main_arg7)))) := funext fun n => funext fun k => W7_v15 m ρ c hsrc n k
  refine (congrFun (W8_arr m ρ c 2) (ix2 n j)).trans ?_
  refine (Reg2.region2_value (V7 m ρ) c n j).trans ?_
  show mm (ofArr (W7 m ρ c (Proc.devRef .tc main_v15))) (ofArr (W7 m ρ c (Proc.devRef .tc main_arg8))) n j = _
  rw [hH, W7_arg8]

/-- Region 3 leaves the network, its third layer's relation weights applied before the aggregation, in the result. -/
theorem W11_v22 (c : Dev nD) (hsrc : SrcInRange (m ((c.tc : Thread nD τ).loc main_arg1))) (n : Fin 100000) (j : Fin 16) :
    W11 m ρ c (Proc.devRef .tc main_v22) (ix2 n j) = (netPre (srcRow (m ((c.tc : Thread nD τ).loc main_arg1))) (dstW (m ((c.tc : Thread nD τ).loc main_arg1))) (ofArr (m ((c.tc : Thread nD τ).loc main_arg0))) (ofArr (m ((c.tc : Thread nD τ).loc main_arg2))) (ofArr (m ((c.tc : Thread nD τ).loc main_arg3))) (ofVec (m ((c.tc : Thread nD τ).loc main_arg4))) (ofArr (m ((c.tc : Thread nD τ).loc main_arg5))) (ofArr (m ((c.tc : Thread nD τ).loc main_arg6))) (ofVec (m ((c.tc : Thread nD τ).loc main_arg7))) (ofArr (m ((c.tc : Thread nD τ).loc main_arg8))) (ofArr (m ((c.tc : Thread nD τ).loc main_arg9))) (ofVec (m ((c.tc : Thread nD τ).loc main_arg10)))) n j := by
  have hH : ofArr (W7 m ρ c (Proc.devRef .tc main_v15)) = (hidden2 (srcRow (m ((c.tc : Thread nD τ).loc main_arg1))) (dstW (m ((c.tc : Thread nD τ).loc main_arg1))) (hidden1 (srcRow (m ((c.tc : Thread nD τ).loc main_arg1))) (dstW (m ((c.tc : Thread nD τ).loc main_arg1))) (ofArr (m ((c.tc : Thread nD τ).loc main_arg0))) (ofArr (m ((c.tc : Thread nD τ).loc main_arg2))) (ofArr (m ((c.tc : Thread nD τ).loc main_arg3))) (ofVec (m ((c.tc : Thread nD τ).loc main_arg4)))) (ofArr (m ((c.tc : Thread nD τ).loc main_arg5))) (ofArr (m ((c.tc : Thread nD τ).loc main_arg6))) (ofVec (m ((c.tc : Thread nD τ).loc main_arg7)))) := funext fun n => funext fun k => W7_v15 m ρ c hsrc n k
  have hZ : ofArr (W8 m ρ c (Proc.devRef .tc main_v16)) = mm (hidden2 (srcRow (m ((c.tc : Thread nD τ).loc main_arg1))) (dstW (m ((c.tc : Thread nD τ).loc main_arg1))) (hidden1 (srcRow (m ((c.tc : Thread nD τ).loc main_arg1))) (dstW (m ((c.tc : Thread nD τ).loc main_arg1))) (ofArr (m ((c.tc : Thread nD τ).loc main_arg0))) (ofArr (m ((c.tc : Thread nD τ).loc main_arg2))) (ofArr (m ((c.tc : Thread nD τ).loc main_arg3))) (ofVec (m ((c.tc : Thread nD τ).loc main_arg4)))) (ofArr (m ((c.tc : Thread nD τ).loc main_arg5))) (ofArr (m ((c.tc : Thread nD τ).loc main_arg6))) (ofVec (m ((c.tc : Thread nD τ).loc main_arg7)))) (ofArr (m ((c.tc : Thread nD τ).loc main_arg8))) :=
    funext fun n => funext fun k => W8_v16 m ρ c hsrc n k
  have hA : ofArr (W10 m ρ c (Proc.devRef .tc main_v20)) = agg (srcRow (m ((c.tc : Thread nD τ).loc main_arg1))) (dstW (m ((c.tc : Thread nD τ).loc main_arg1))) (mm (hidden2 (srcRow (m ((c.tc : Thread nD τ).loc main_arg1))) (dstW (m ((c.tc : Thread nD τ).loc main_arg1))) (hidden1 (srcRow (m ((c.tc : Thread nD τ).loc main_arg1))) (dstW (m ((c.tc : Thread nD τ).loc main_arg1))) (ofArr (m ((c.tc : Thread nD τ).loc main_arg0))) (ofArr (m ((c.tc : Thread nD τ).loc main_arg2))) (ofArr (m ((c.tc : Thread nD τ).loc main_arg3))) (ofVec (m ((c.tc : Thread nD τ).loc main_arg4)))) (ofArr (m ((c.tc : Thread nD τ).loc main_arg5))) (ofArr (m ((c.tc : Thread nD τ).loc main_arg6))) (ofVec (m ((c.tc : Thread nD τ).loc main_arg7)))) (ofArr (m ((c.tc : Thread nD τ).loc main_arg8)))) := by
    rw [← hZ]; exact funext fun n => funext fun k => W10_v20 m ρ c hsrc n k
  have hb : ∀ j : Fin 16, W10 m ρ c (Proc.devRef .tc main_v21) (ix2 (0 : Fin 1) j) = ofVec (m ((c.tc : Thread nD τ).loc main_arg10)) j := fun j => W10_v21 m ρ c j
  refine (congrFun (W11_arr m ρ c 4) (ix2 n j)).trans ?_
  refine (Reg3.region3_value (V10 m ρ) c n j).trans ?_
  show lsm (fun i j => (ofArr (W10 m ρ c (Proc.devRef .tc main_v20)) i j
      + mm (ofArr (W10 m ρ c (Proc.devRef .tc main_v15))) (ofArr (W10 m ρ c (Proc.devRef .tc main_arg9))) i j) + W10 m ρ c (Proc.devRef .tc main_v21) (ix2 (0 : Fin 1) j)) n j = _
  rw [hA, W10_v15, hH, W10_arg9]
  simp only [hb]
  rfl

/-- THE KERNEL PROGRAM'S RUN, VALUED: when every source word is a node, every weakly fair execution terminates with the
    result array the network (third layer's relation weights first) of the arguments, and the arguments unchanged. -/
theorem run (hsrc : ∀ c : Dev nD, SrcInRange (m ((c.tc : Thread nD τ).loc main_arg1))) :
    θ_run defs (onTc (τ := τ) (main (F := Ideal))) ⟨m, fun _ => 0, ρ⟩ (fun r => ∀ c : Dev nD,
      r.2.mem ((c.tc : Thread nD τ).loc main_v22) = toArr (netPre (srcRow (m ((c.tc : Thread nD τ).loc main_arg1))) (dstW (m ((c.tc : Thread nD τ).loc main_arg1))) (ofArr (m ((c.tc : Thread nD τ).loc main_arg0))) (ofArr (m ((c.tc : Thread nD τ).loc main_arg2))) (ofArr (m ((c.tc : Thread nD τ).loc main_arg3))) (ofVec (m ((c.tc : Thread nD τ).loc main_arg4))) (ofArr (m ((c.tc : Thread nD τ).loc main_arg5))) (ofArr (m ((c.tc : Thread nD τ).loc main_arg6))) (ofVec (m ((c.tc : Thread nD τ).loc main_arg7))) (ofArr (m ((c.tc : Thread nD τ).loc main_arg8))) (ofArr (m ((c.tc : Thread nD τ).loc main_arg9))) (ofVec (m ((c.tc : Thread nD τ).loc main_arg10))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (funext fun i => by
      obtain ⟨n, j, rfl⟩ : ∃ (n : Fin 100000) (j : Fin 16), i = ix2 n j := ⟨i 0, i 1, eq_ix2 i⟩
      exact W11_v22 m ρ c (hsrc c) n j), (h c).2⟩)
    (Cert.KernelIdeal.GenRun.run_result (F := Ideal) m ρ)
end Chain

end Cert.KernelIdeal.KVal

end
-- ==== Proof.RefRun.lean ====
/-
  THE REFERENCE PROGRAM'S RUN, READ BACK IN FOUR STRETCHES (one per layer, and the closing log-softmax): every weakly fair execution terminates with the
  result buffer at the last operation's stage of the argument arrays and the arguments unchanged.

  The 82 operations are cut after the two hidden layers' results (the buffers main_v20 and main_v37) and after the logits
  (main_v53). What a later stretch still reads of an earlier one is that stretch's last buffer, the two index words main_v1 /
  main_v3 (source and destination of every edge) and the arguments; each stretch's result is stated over those, with the
  earlier value kept as ONE folded value, so no layer's term is ever written twice.
-/
import proofs.«416603_j41016937677072_3_alg».proof.Proof.RefOps
import proofs.«416603_j41016937677072_3_alg».proof.Proof.RefReadP
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The four stretches -/

/-- The first layer: the index words, the wrap of the source word, gather, scatter-add, the two products, the bias, the
    rectifier: 26 operations, the last writing main_v20. -/
abbrev ops1 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 100000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    binary main_v13 main_arg2 main_v14 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_arg0 main_arg3 main_v15 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v14 main_v15 main_v16 (addf : (⟨S100000x128, .f32⟩ : BufTy).Contents (Elt F) → (⟨S100000x128, .f32⟩ : BufTy).Contents (Elt F) → (⟨S100000x128, .f32⟩ : BufTy).Contents (Elt F)),
    unary main_arg4 main_v17 (broadcastInDim S1x128 ![1] bcast_S128_S1x128_1 : (⟨S128, .f32⟩ : BufTy).Contents (Elt F) → (⟨S1x128, .f32⟩ : BufTy).Contents (Elt F)),
    unary main_v17 main_v18 (broadcastInDim S100000x128 ![0, 1] bcast_S1x128_S100000x128_0_1 : (⟨S1x128, .f32⟩ : BufTy).Contents (Elt F) → (⟨S100000x128, .f32⟩ : BufTy).Contents (Elt F)),
    binary main_v16 main_v18 main_v19 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v19) (TRef.of (T := ⟨S100000x128, .f32⟩) main_call0_v0) (TRef.of (T := ⟨S100000x128, .f32⟩) main_v20) maximumf ]

/-- The second layer: the same over main_v20, 22 operations, the last writing main_v37. -/
abbrev ops2 : List (HloOp τ sig (Elt F)) :=
  [ nullary main_c_1 (constantI S_ 32 0#32),
    unary main_c_1 main_v21 (broadcastInDim S800000 ![] bcast_S_S800000 : (⟨S_, .i32⟩ : BufTy).Contents (Elt F) → (⟨S800000, .i32⟩ : BufTy).Contents (Elt F)),
    binary main_v1 main_v21 main_v22 (cmpi .slt : (⟨S800000, .i32⟩ : BufTy).Contents (Elt F) → (⟨S800000, .i32⟩ : BufTy).Contents (Elt F) → (⟨S800000, .i1⟩ : BufTy).Contents (Elt F)),
    nullary main_c_2 (constantI S_ 32 100000#32),
    unary main_c_2 main_v23 (broadcastInDim S800000 ![] bcast_S_S800000 : (⟨S_, .i32⟩ : BufTy).Contents (Elt F) → (⟨S800000, .i32⟩ : BufTy).Contents (Elt F)),
    binary main_v1 main_v23 main_v24 (addi : (⟨S800000, .i32⟩ : BufTy).Contents (Elt F) → (⟨S800000, .i32⟩ : BufTy).Contents (Elt F) → (⟨S800000, .i32⟩ : BufTy).Contents (Elt F)),
    ternary main_v22 main_v24 main_v1 main_v25 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v25 main_v26 (broadcastInDim S800000x1 ![0] bcast_S800000_S800000x1_0 : (⟨S800000, .i32⟩ : BufTy).Contents (Elt F) → (⟨S800000x1, .i32⟩ : BufTy).Contents (Elt F)),
    binary main_v20 main_v26 main_v27 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    nullary main_cst_3 (constant S_ .f32 0x00000000#32),
    unary main_cst_3 main_v28 (broadcastInDim S100000x128 ![] bcast_S_S100000x128 : (⟨S_, .f32⟩ : BufTy).Contents (Elt F) → (⟨S100000x128, .f32⟩ : BufTy).Contents (Elt F)),
    unary main_v3 main_v29 (broadcastInDim S800000x1 ![0] bcast_S800000_S800000x1_0 : (⟨S800000, .i32⟩ : BufTy).Contents (Elt F) → (⟨S800000x1, .i32⟩ : BufTy).Contents (Elt F)),
    ternary main_v28 main_v29 main_v27 main_v30 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    binary main_v30 main_arg5 main_v31 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    binary main_v20 main_arg6 main_v32 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    binary main_v31 main_v32 main_v33 (addf : (⟨S100000x256, .f32⟩ : BufTy).Contents (Elt F) → (⟨S100000x256, .f32⟩ : BufTy).Contents (Elt F) → (⟨S100000x256, .f32⟩ : BufTy).Contents (Elt F)),
    unary main_arg7 main_v34 (broadcastInDim S1x256 ![1] bcast_S256_S1x256_1 : (⟨S256, .f32⟩ : BufTy).Contents (Elt F) → (⟨S1x256, .f32⟩ : BufTy).Contents (Elt F)),
    unary main_v34 main_v35 (broadcastInDim S100000x256 ![0, 1] bcast_S1x256_S100000x256_0_1 : (⟨S1x256, .f32⟩ : BufTy).Contents (Elt F) → (⟨S100000x256, .f32⟩ : BufTy).Contents (Elt F)),
    binary main_v33 main_v35 main_v36 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x256, .f32⟩) main_call1_v0) (broadcastInDim S100000x256 ![] bcast_S_S100000x256),
    TRef.binary (TRef.of (T := ⟨S100000x256, .f32⟩) main_v36) (TRef.of (T := ⟨S100000x256, .f32⟩) main_call1_v0) (TRef.of (T := ⟨S100000x256, .f32⟩) main_v37) maximumf ]

/-- The output layer over main_v37: 19 operations, the last writing the logits main_v53. -/
abbrev ops3 : List (HloOp τ sig (Elt F)) :=
  [ nullary main_c_4 (constantI S_ 32 0#32),
    unary main_c_4 main_v38 (broadcastInDim S800000 ![] bcast_S_S800000 : (⟨S_, .i32⟩ : BufTy).Contents (Elt F) → (⟨S800000, .i32⟩ : BufTy).Contents (Elt F)),
    binary main_v1 main_v38 main_v39 (cmpi .slt : (⟨S800000, .i32⟩ : BufTy).Contents (Elt F) → (⟨S800000, .i32⟩ : BufTy).Contents (Elt F) → (⟨S800000, .i1⟩ : BufTy).Contents (Elt F)),
    nullary main_c_5 (constantI S_ 32 100000#32),
    unary main_c_5 main_v40 (broadcastInDim S800000 ![] bcast_S_S800000 : (⟨S_, .i32⟩ : BufTy).Contents (Elt F) → (⟨S800000, .i32⟩ : BufTy).Contents (Elt F)),
    binary main_v1 main_v40 main_v41 (addi : (⟨S800000, .i32⟩ : BufTy).Contents (Elt F) → (⟨S800000, .i32⟩ : BufTy).Contents (Elt F) → (⟨S800000, .i32⟩ : BufTy).Contents (Elt F)),
    ternary main_v39 main_v41 main_v1 main_v42 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v42 main_v43 (broadcastInDim S800000x1 ![0] bcast_S800000_S800000x1_0 : (⟨S800000, .i32⟩ : BufTy).Contents (Elt F) → (⟨S800000x1, .i32⟩ : BufTy).Contents (Elt F)),
    binary main_v37 main_v43 main_v44 ((fun x i => Host.gather gather_S100000x256_S800000x1_S800000x256_1_0_n_n_0_1_1256 x i) : (⟨S100000x256, .f32⟩ : BufTy).Contents (Elt F) → (⟨S800000x1, .i32⟩ : BufTy).Contents (Elt F) → (⟨S800000x256, .f32⟩ : BufTy).Contents (Elt F)),
    nullary main_cst_6 (constant S_ .f32 0x00000000#32),
    unary main_cst_6 main_v45 (broadcastInDim S100000x256 ![] bcast_S_S100000x256 : (⟨S_, .f32⟩ : BufTy).Contents (Elt F) → (⟨S100000x256, .f32⟩ : BufTy).Contents (Elt F)),
    unary main_v3 main_v46 (broadcastInDim S800000x1 ![0] bcast_S800000_S800000x1_0 : (⟨S800000, .i32⟩ : BufTy).Contents (Elt F) → (⟨S800000x1, .i32⟩ : BufTy).Contents (Elt F)),
    ternary main_v45 main_v46 main_v44 main_v47 ((fun x i u => Host.scatterAdd scatter_S100000x256_S800000x1_S800000x256_1_0_0_1 x i u) : (⟨S100000x256, .f32⟩ : BufTy).Contents (Elt F) → (⟨S800000x1, .i32⟩ : BufTy).Contents (Elt F) → (⟨S800000x256, .f32⟩ : BufTy).Contents (Elt F) → (⟨S100000x256, .f32⟩ : BufTy).Contents (Elt F)),
    binary main_v47 main_arg8 main_v48 ((fun l r => Host.dotGeneral dot_S100000x256_S256x16_S100000x16_1_0_0_1_n_n none l r) : (⟨S100000x256, .f32⟩ : BufTy).Contents (Elt F) → (⟨S256x16, .f32⟩ : BufTy).Contents (Elt F) → (⟨S100000x16, .f32⟩ : BufTy).Contents (Elt F)),
    binary main_v37 main_arg9 main_v49 ((fun l r => Host.dotGeneral dot_S100000x256_S256x16_S100000x16_1_0_0_1_n_n none l r) : (⟨S100000x256, .f32⟩ : BufTy).Contents (Elt F) → (⟨S256x16, .f32⟩ : BufTy).Contents (Elt F) → (⟨S100000x16, .f32⟩ : BufTy).Contents (Elt F)),
    binary main_v48 main_v49 main_v50 (addf : (⟨S100000x16, .f32⟩ : BufTy).Contents (Elt F) → (⟨S100000x16, .f32⟩ : BufTy).Contents (Elt F) → (⟨S100000x16, .f32⟩ : BufTy).Contents (Elt F)),
    unary main_arg10 main_v51 (broadcastInDim S1x16 ![1] bcast_S16_S1x16_1 : (⟨S16, .f32⟩ : BufTy).Contents (Elt F) → (⟨S1x16, .f32⟩ : BufTy).Contents (Elt F)),
    unary main_v51 main_v52 (broadcastInDim S100000x16 ![0, 1] bcast_S1x16_S100000x16_0_1 : (⟨S1x16, .f32⟩ : BufTy).Contents (Elt F) → (⟨S100000x16, .f32⟩ : BufTy).Contents (Elt F)),
    binary main_v50 main_v52 main_v53 (addf : (⟨S100000x16, .f32⟩ : BufTy).Contents (Elt F) → (⟨S100000x16, .f32⟩ : BufTy).Contents (Elt F) → (⟨S100000x16, .f32⟩ : BufTy).Contents (Elt F)) ]

/-- The row-wise log-softmax of the logits: 15 operations, the last writing main_v54. Each operation is written at its
    buffers with its function at the buffers' own types (the transport of a value along an identity of types is the
    identity), which is the same operation. -/
abbrev ops4 : List (HloOp τ sig (Elt F)) :=
  [ nullary main_call2_cst ((constant S_ .f32 0xFF800000#32) : (⟨S_, .f32⟩ : BufTy).Contents (Elt F)),
    binary main_v53 main_call2_cst main_call2_v0 ((fun x v => Host.reduce FloatOps.maximumf x v reducesTo_S100000x16_S100000_d1 h_S_) : (⟨S100000x16, .f32⟩ : BufTy).Contents (Elt F) → (⟨S_, .f32⟩ : BufTy).Contents (Elt F) → (⟨S100000, .f32⟩ : BufTy).Contents (Elt F)),
    nullary main_call2_cst_0 ((constant S_ .f32 0xFF800000#32) : (⟨S_, .f32⟩ : BufTy).Contents (Elt F)),
    unary main_call2_cst_0 main_call2_v1 ((broadcastInDim S100000 ![] bcast_S_S100000) : (⟨S_, .f32⟩ : BufTy).Contents (Elt F) → (⟨S100000, .f32⟩ : BufTy).Contents (Elt F)),
    binary main_call2_v1 main_call2_v0 main_call2_v2 (maximumf : (⟨S100000, .f32⟩ : BufTy).Contents (Elt F) → (⟨S100000, .f32⟩ : BufTy).Contents (Elt F) → (⟨S100000, .f32⟩ : BufTy).Contents (Elt F)),
    unary main_call2_v2 main_call2_v3 ((broadcastInDim S100000x1 ![0] bcast_S100000_S100000x1_0) : (⟨S100000, .f32⟩ : BufTy).Contents (Elt F) → (⟨S100000x1, .f32⟩ : BufTy).Contents (Elt F)),
    unary main_call2_v3 main_call2_v4 ((broadcastInDim S100000x16 ![0, 1] bcast_S100000x1_S100000x16_0_1) : (⟨S100000x1, .f32⟩ : BufTy).Contents (Elt F) → (⟨S100000x16, .f32⟩ : BufTy).Contents (Elt F)),
    binary main_v53 main_call2_v4 main_call2_v5 (subf : (⟨S100000x16, .f32⟩ : BufTy).Contents (Elt F) → (⟨S100000x16, .f32⟩ : BufTy).Contents (Elt F) → (⟨S100000x16, .f32⟩ : BufTy).Contents (Elt F)),
    unary main_call2_v5 main_call2_v6 (Host.exp : (⟨S100000x16, .f32⟩ : BufTy).Contents (Elt F) → (⟨S100000x16, .f32⟩ : BufTy).Contents (Elt F)),
    nullary main_call2_cst_1 ((constant S_ .f32 0x00000000#32) : (⟨S_, .f32⟩ : BufTy).Contents (Elt F)),
    binary main_call2_v6 main_call2_cst_1 main_call2_v7 ((fun x v => Host.reduceAdd x v reducesTo_S100000x16_S100000_d1 h_S_) : (⟨S100000x16, .f32⟩ : BufTy).Contents (Elt F) → (⟨S_, .f32⟩ : BufTy).Contents (Elt F) → (⟨S100000, .f32⟩ : BufTy).Contents (Elt F)),
    unary main_call2_v7 main_call2_v8 ((broadcastInDim S100000x1 ![0] bcast_S100000_S100000x1_0) : (⟨S100000, .f32⟩ : BufTy).Contents (Elt F) → (⟨S100000x1, .f32⟩ : BufTy).Contents (Elt F)),
    unary main_call2_v8 main_call2_v9 (Host.log : (⟨S100000x1, .f32⟩ : BufTy).Contents (Elt F) → (⟨S100000x1, .f32⟩ : BufTy).Contents (Elt F)),
    unary main_call2_v9 main_call2_v10 ((broadcastInDim S100000x16 ![0, 1] bcast_S100000x1_S100000x16_0_1) : (⟨S100000x1, .f32⟩ : BufTy).Contents (Elt F) → (⟨S100000x16, .f32⟩ : BufTy).Contents (Elt F)),
    binary main_call2_v5 main_call2_v10 main_v54 (subf : (⟨S100000x16, .f32⟩ : BufTy).Contents (Elt F) → (⟨S100000x16, .f32⟩ : BufTy).Contents (Elt F) → (⟨S100000x16, .f32⟩ : BufTy).Contents (Elt F)) ]

attribute [local irreducible] Host.reduce in
set_option maxRecDepth 8192 in
set_option maxHeartbeats 4000000 in
/-- The program's list is the four stretches in a row. -/
theorem ops_split : (ValueP.ops : List (HloOp τ sig (Elt F))) = ops1 ++ (ops2 ++ (ops3 ++ ops4)) := rfl

/-! ## What each stretch writes, over any contents `V` before it -/

section Stretches

variable (V : Valuation τ sig (Elt F))

/-! ### First stretch: the first hidden layer and the two index words, over the arguments -/

set_option maxRecDepth 8192 in
set_option maxHeartbeats 4000000 in
theorem s1_v20 : after ops1 V (Proc.devRef .tc main_v20)
    = ReadP.val_main_v20 (F := F) (V (Proc.devRef .tc main_arg0)) (V (Proc.devRef .tc main_arg1)) (V (Proc.devRef .tc main_arg2)) (V (Proc.devRef .tc main_arg3)) (V (Proc.devRef .tc main_arg4)) := by
  after_results_simp <;> rfl

set_option maxRecDepth 8192 in
set_option maxHeartbeats 4000000 in
theorem s1_v1 : after ops1 V (Proc.devRef .tc main_v1) = ReadP.val_main_v1 (F := F) (V (Proc.devRef .tc main_arg1)) := by
  after_results_simp <;> rfl

set_option maxRecDepth 8192 in
set_option maxHeartbeats 4000000 in
theorem s1_v3 : after ops1 V (Proc.devRef .tc main_v3) = ReadP.val_main_v3 (F := F) (V (Proc.devRef .tc main_arg1)) := by
  after_results_simp <;> rfl

/- The first stretch writes no argument. -/
set_option maxRecDepth 8192 in
set_option maxHeartbeats 4000000 in
theorem s1_arg5 : after ops1 V (Proc.devRef .tc main_arg5) = V (Proc.devRef .tc main_arg5) := by after_results_simp
set_option maxRecDepth 8192 in
set_option maxHeartbeats 4000000 in
theorem s1_arg6 : after ops1 V (Proc.devRef .tc main_arg6) = V (Proc.devRef .tc main_arg6) := by after_results_simp
set_option maxRecDepth 8192 in
set_option maxHeartbeats 4000000 in
theorem s1_arg7 : after ops1 V (Proc.devRef .tc main_arg7) = V (Proc.devRef .tc main_arg7) := by after_results_simp
set_option maxRecDepth 8192 in
set_option maxHeartbeats 4000000 in
theorem s1_arg8 : after ops1 V (Proc.devRef .tc main_arg8) = V (Proc.devRef .tc main_arg8) := by after_results_simp
set_option maxRecDepth 8192 in
set_option maxHeartbeats 4000000 in
theorem s1_arg9 : after ops1 V (Proc.devRef .tc main_arg9) = V (Proc.devRef .tc main_arg9) := by after_results_simp
set_option maxRecDepth 8192 in
set_option maxHeartbeats 4000000 in
theorem s1_arg10 : after ops1 V (Proc.devRef .tc main_arg10) = V (Proc.devRef .tc main_arg10) := by after_results_simp

/-! ### Second stretch: the second hidden layer over the first, the index words and its own weights -/

set_option maxRecDepth 8192 in
set_option maxHeartbeats 4000000 in
theorem s2_v37 {x0 : (⟨S100000x128, .f32⟩ : BufTy).Contents (Elt F)} {x1 : (⟨S2x800000, .i32⟩ : BufTy).Contents (Elt F)} {x2 : (⟨S128x128, .f32⟩ : BufTy).Contents (Elt F)} {x3 : (⟨S128x128, .f32⟩ : BufTy).Contents (Elt F)} {x4 : (⟨S128, .f32⟩ : BufTy).Contents (Elt F)} {x5 : (⟨S128x256, .f32⟩ : BufTy).Contents (Elt F)} {x6 : (⟨S128x256, .f32⟩ : BufTy).Contents (Elt F)} {x7 : (⟨S256, .f32⟩ : BufTy).Contents (Elt F)}
    (h20 : V (Proc.devRef .tc main_v20) = ReadP.val_main_v20 (F := F) x0 x1 x2 x3 x4)
    (h1 : V (Proc.devRef .tc main_v1) = ReadP.val_main_v1 (F := F) x1) (h3 : V (Proc.devRef .tc main_v3) = ReadP.val_main_v3 (F := F) x1)
    (h5 : V (Proc.devRef .tc main_arg5) = x5) (h6 : V (Proc.devRef .tc main_arg6) = x6) (h7 : V (Proc.devRef .tc main_arg7) = x7) :
    after ops2 V (Proc.devRef .tc main_v37) = ReadP.val_main_v37 (F := F) x0 x1 x2 x3 x4 x5 x6 x7 := by
  after_results_simp
  rw [h20, h1, h3, h5, h6, h7]
  rfl

/- The second stretch writes neither index word and no argument. -/
set_option maxRecDepth 8192 in
set_option maxHeartbeats 4000000 in
theorem s2_v1 : after ops2 V (Proc.devRef .tc main_v1) = V (Proc.devRef .tc main_v1) := by after_results_simp
set_option maxRecDepth 8192 in
set_option maxHeartbeats 4000000 in
theorem s2_v3 : after ops2 V (Proc.devRef .tc main_v3) = V (Proc.devRef .tc main_v3) := by after_results_simp
set_option maxRecDepth 8192 in
set_option maxHeartbeats 4000000 in
theorem s2_arg8 : after ops2 V (Proc.devRef .tc main_arg8) = V (Proc.devRef .tc main_arg8) := by after_results_simp
set_option maxRecDepth 8192 in
set_option maxHeartbeats 4000000 in
theorem s2_arg9 : after ops2 V (Proc.devRef .tc main_arg9) = V (Proc.devRef .tc main_arg9) := by after_results_simp
set_option maxRecDepth 8192 in
set_option maxHeartbeats 4000000 in
theorem s2_arg10 : after ops2 V (Proc.devRef .tc main_arg10) = V (Proc.devRef .tc main_arg10) := by after_results_simp

/-! ### Third stretch: the logits over the second hidden layer, the index words and the output layer's weights -/

set_option maxRecDepth 8192 in
set_option maxHeartbeats 4000000 in
theorem s3_v53 {x0 : (⟨S100000x128, .f32⟩ : BufTy).Contents (Elt F)} {x1 : (⟨S2x800000, .i32⟩ : BufTy).Contents (Elt F)} {x2 : (⟨S128x128, .f32⟩ : BufTy).Contents (Elt F)} {x3 : (⟨S128x128, .f32⟩ : BufTy).Contents (Elt F)} {x4 : (⟨S128, .f32⟩ : BufTy).Contents (Elt F)} {x5 : (⟨S128x256, .f32⟩ : BufTy).Contents (Elt F)} {x6 : (⟨S128x256, .f32⟩ : BufTy).Contents (Elt F)} {x7 : (⟨S256, .f32⟩ : BufTy).Contents (Elt F)} {x8 : (⟨S256x16, .f32⟩ : BufTy).Contents (Elt F)} {x9 : (⟨S256x16, .f32⟩ : BufTy).Contents (Elt F)} {x10 : (⟨S16, .f32⟩ : BufTy).Contents (Elt F)}
    (h37 : V (Proc.devRef .tc main_v37) = ReadP.val_main_v37 (F := F) x0 x1 x2 x3 x4 x5 x6 x7)
    (h1 : V (Proc.devRef .tc main_v1) = ReadP.val_main_v1 (F := F) x1) (h3 : V (Proc.devRef .tc main_v3) = ReadP.val_main_v3 (F := F) x1)
    (h8 : V (Proc.devRef .tc main_arg8) = x8) (h9 : V (Proc.devRef .tc main_arg9) = x9) (h10 : V (Proc.devRef .tc main_arg10) = x10) :
    after ops3 V (Proc.devRef .tc main_v53) = ReadP.val_main_v53 (F := F) x0 x1 x2 x3 x4 x5 x6 x7 x8 x9 x10 := by
  after_results_simp
  rw [h37, h1, h3, h8, h9, h10]
  rfl

/-! ### Fourth stretch: the row-wise log-softmax of the logits -/

set_option maxRecDepth 8192 in
set_option maxHeartbeats 4000000 in
theorem s4_v54 {x0 : (⟨S100000x128, .f32⟩ : BufTy).Contents (Elt F)} {x1 : (⟨S2x800000, .i32⟩ : BufTy).Contents (Elt F)} {x2 : (⟨S128x128, .f32⟩ : BufTy).Contents (Elt F)} {x3 : (⟨S128x128, .f32⟩ : BufTy).Contents (Elt F)} {x4 : (⟨S128, .f32⟩ : BufTy).Contents (Elt F)} {x5 : (⟨S128x256, .f32⟩ : BufTy).Contents (Elt F)} {x6 : (⟨S128x256, .f32⟩ : BufTy).Contents (Elt F)} {x7 : (⟨S256, .f32⟩ : BufTy).Contents (Elt F)} {x8 : (⟨S256x16, .f32⟩ : BufTy).Contents (Elt F)} {x9 : (⟨S256x16, .f32⟩ : BufTy).Contents (Elt F)} {x10 : (⟨S16, .f32⟩ : BufTy).Contents (Elt F)}
    (h53 : V (Proc.devRef .tc main_v53) = ReadP.val_main_v53 (F := F) x0 x1 x2 x3 x4 x5 x6 x7 x8 x9 x10) :
    after ops4 V (Proc.devRef .tc main_v54) = ReadP.val_main_v54 (F := F) x0 x1 x2 x3 x4 x5 x6 x7 x8 x9 x10 := by
  after_results_simp
  rw [h53]
  rfl

end Stretches

/-! ## The run -/

set_option maxRecDepth 8192 in
set_option maxHeartbeats 4000000 in
/-- On every device, from any memory with zero counters: every weakly fair execution of @main terminates with the result
    at the last stage of the arguments (`ReadP.val_main_v54`) and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v54) = Cert.ReferenceIdeal.ReadP.val_main_v54 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine (θ_run defs _ _).mono (fun _ h c => ⟨(h c main_v54).trans ?_, (h c main_arg0).trans ?_, (h c main_arg1).trans ?_, (h c main_arg2).trans ?_, (h c main_arg3).trans ?_, (h c main_arg4).trans ?_, (h c main_arg5).trans ?_, (h c main_arg6).trans ?_, (h c main_arg7).trans ?_, (h c main_arg8).trans ?_, (h c main_arg9).trans ?_, (h c main_arg10).trans ?_⟩)
    (run_seq ValueP.scopedRefs_eq ValueP.scopedSems_eq defs main (fun _ => ValueP.ops) ValueP.main_eq (fun _ => ValueP.ops_sub) m ρ)
  · -- the result: the four stretches in a row, each over what the ones before it left
    show after ValueP.ops (launchContents m c) (Proc.devRef .tc main_v54) = _
    rw [ops_split, StableHlo.after_append, StableHlo.after_append, StableHlo.after_append]
    exact s4_v54 (after ops3 (after ops2 (after ops1 (launchContents m c))))
      (s3_v53 (after ops2 (after ops1 (launchContents m c)))
        (s2_v37 (after ops1 (launchContents m c)) (s1_v20 (launchContents m c)) (s1_v1 (launchContents m c)) (s1_v3 (launchContents m c)) (s1_arg5 (launchContents m c)) (s1_arg6 (launchContents m c)) (s1_arg7 (launchContents m c)))
        ((s2_v1 (after ops1 (launchContents m c))).trans (s1_v1 (launchContents m c))) ((s2_v3 (after ops1 (launchContents m c))).trans (s1_v3 (launchContents m c)))
        ((s2_arg8 (after ops1 (launchContents m c))).trans (s1_arg8 (launchContents m c))) ((s2_arg9 (after ops1 (launchContents m c))).trans (s1_arg9 (launchContents m c)))
        ((s2_arg10 (after ops1 (launchContents m c))).trans (s1_arg10 (launchContents m c))))
  -- the arguments: no operation writes one
  all_goals (after_results_simp <;> rfl)

end Cert.ReferenceIdeal.RefRun

end
-- ==== Proof.RefValueA.lean ====
/-
  THE REFERENCE'S FIRST TWO LAYERS, READ AT AN INDEX.

  The edge array has two rows. Row 0, sliced out and flattened, holds the source words; each is wrapped once (a negative
  word has the number of nodes added: a signed comparison with zero, an addition of 100000, a select), and the wrapped
  words, as one column, are the start indices of a gather of whole rows. Row 1, sliced out and flattened, holds the
  destination words; as one column they are the indices of an accumulating scatter into an array of zeros. A row gather
  followed by such a scatter is the layer's aggregate: at `(n, k)` it is zero plus the sum, over the edges whose
  destination word read signed is `n`, of the gathered array at (the edge's source row, `k`).

  Each layer then contracts the aggregate with the relation weights and the layer's input with the root weights (two
  products, each a sum over the contracted axis), adds the two, adds the bias broadcast along the rows, and takes the
  maximum with a zero array. Read at `(n, j)` this is
      max (((∑ q, agg n q * W_rel q j) + (∑ q, X n q * W_root q j)) + bias j) 0,
  which is the rectified layer of the specification, with the additions associated and the maximum's arguments ordered
  as there. The first layer reads the node features; the second reads the first stage, which is kept as one array.
-/
import proofs.«416603_j41016937677072_3_alg».proof.Proof.RefReadP
import proofs.«416603_j41016937677072_3_alg».proof.Proof.Spec
import proofs.«416603_j41016937677072_3_alg».proof.Proof.HostAgg
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Gen Cert.ReferenceIdeal.ReadP Cert.GraphConv
open Idealize.ShloMosaic Idealize.ShloMosaic.TcCoe Idealize.ShloMosaic.ValueIdx Idealize.SL.Sem Idealize.ShloMosaic.StableHlo
open scoped BigOperators

/-! ### The index words -/

/-- The flattened row 0 of the edge array at `x`: edge `x`'s source word. -/
theorem row0_at (x1 : (⟨S2x800000, .i32⟩ : BufTy).Contents (Elt Ideal)) (x : Fin 800000) :
    val_main_v1 (F := Ideal) x1 (ix1 x) = x1 (ix2 (0 : Fin 2) x) := by
  rw [val_main_v1_apply, val_main_v0_apply]
  congr 1
  funext a
  refine Fin.ext ?_
  match a with
  | ⟨0, _⟩ => rfl
  | ⟨1, _⟩ => exact Nat.mod_eq_of_lt x.isLt

/-- The flattened row 1 of the edge array at `x`: edge `x`'s destination word. -/
theorem row1_at (x1 : (⟨S2x800000, .i32⟩ : BufTy).Contents (Elt Ideal)) (x : Fin 800000) :
    val_main_v3 (F := Ideal) x1 (ix1 x) = x1 (ix2 (1 : Fin 2) x) := by
  rw [val_main_v3_apply, val_main_v2_apply]
  congr 1
  funext a
  refine Fin.ext ?_
  match a with
  | ⟨0, _⟩ => rfl
  | ⟨1, _⟩ => exact Nat.mod_eq_of_lt x.isLt

/-- The first layer's column of start indices at `(x, 0)`: edge `x`'s source word, wrapped. -/
theorem src1_at (x1 : (⟨S2x800000, .i32⟩ : BufTy).Contents (Elt Ideal)) (x : Fin 800000) :
    val_main_v9 (F := Ideal) x1 (ix2 x (0 : Fin 1)) = wrapW (x1 (ix2 (0 : Fin 2) x)) := by
  have e : idx_main_v9 (ix2 x (0 : Fin 1)) = ix1 x := funext fun a => Fin.ext (by match a with | ⟨0, _⟩ => rfl)
  rw [val_main_v9_apply, e, val_main_v8_apply, val_main_v5_apply, val_main_v7_apply, val_main_v4_apply,
    val_main_v6_apply, val_main_c_apply, val_main_c_0_apply, row0_at]
  rfl

/-- The second layer's column of start indices at `(x, 0)`: the same wrapped source word. -/
theorem src2_at (x1 : (⟨S2x800000, .i32⟩ : BufTy).Contents (Elt Ideal)) (x : Fin 800000) :
    val_main_v26 (F := Ideal) x1 (ix2 x (0 : Fin 1)) = wrapW (x1 (ix2 (0 : Fin 2) x)) := by
  have e : idx_main_v26 (ix2 x (0 : Fin 1)) = ix1 x := funext fun a => Fin.ext (by match a with | ⟨0, _⟩ => rfl)
  rw [val_main_v26_apply, e, val_main_v25_apply, val_main_v22_apply, val_main_v24_apply, val_main_v21_apply,
    val_main_v23_apply, val_main_c_1_apply, val_main_c_2_apply, row0_at]
  rfl

/-- The first layer's column of scatter indices at `(x, 0)`: edge `x`'s destination word. -/
theorem dst1_at (x1 : (⟨S2x800000, .i32⟩ : BufTy).Contents (Elt Ideal)) (x : Fin 800000) :
    val_main_v12 (F := Ideal) x1 (ix2 x (0 : Fin 1)) = x1 (ix2 (1 : Fin 2) x) := by
  have e : idx_main_v12 (ix2 x (0 : Fin 1)) = ix1 x := funext fun a => Fin.ext (by match a with | ⟨0, _⟩ => rfl)
  rw [val_main_v12_apply, e, row1_at]

/-- The second layer's column of scatter indices at `(x, 0)`: the same destination word. -/
theorem dst2_at (x1 : (⟨S2x800000, .i32⟩ : BufTy).Contents (Elt Ideal)) (x : Fin 800000) :
    val_main_v29 (F := Ideal) x1 (ix2 x (0 : Fin 1)) = x1 (ix2 (1 : Fin 2) x) := by
  have e : idx_main_v29 (ix2 x (0 : Fin 1)) = ix1 x := funext fun a => Fin.ext (by match a with | ⟨0, _⟩ => rfl)
  rw [val_main_v29_apply, e, row1_at]

/-! ### The aggregate -/

/-- The row gather of `H` at the start indices `si`, scattered with accumulation along `di` into an array of zeros,
    read at `(n, k)`: the aggregate of `H` with edge `x`'s source row the word `si (x, 0)` read signed and clamped and
    its destination the word `di (x, 0)`. -/
theorem agg_rows (z H : (⟨S100000x128, .f32⟩ : BufTy).Contents (Elt Ideal)) (si di : (⟨S800000x1, .i32⟩ : BufTy).Contents (Elt Ideal)) (hz : ∀ i, z i = 0) (n : Fin 100000) (k : Fin 128) :
    Host.scatterAdd (F := Ideal) (φ := .f32) scatter_S100000x128_S800000x1_S800000x128_1_0_0_1 z di (Host.gather gather_S100000x128_S800000x1_S800000x128_1_0_n_n_0_1_1128 H si) (ix2 n k)
      = agg (fun x => rowOf (si (ix2 x (0 : Fin 1)))) (fun x => di (ix2 x (0 : Fin 1))) (ofArr H) n k :=
  scatterAdd_gather_rows (K := 128) Facts₀.gather_S100000x128_S800000x1_S800000x128_1_0_n_n_0_1_1128_wf Facts₀.scatter_S100000x128_S800000x1_S800000x128_1_0_0_1_wf z H hz si di n k

/-- The first layer's aggregate at `(n, k)`. -/
theorem agg1_at (x0 : (⟨S100000x128, .f32⟩ : BufTy).Contents (Elt Ideal)) (x1 : (⟨S2x800000, .i32⟩ : BufTy).Contents (Elt Ideal)) (n : Fin 100000) (k : Fin 128) :
    val_main_v13 (F := Ideal) x0 x1 (ix2 n k) = agg (srcRow x1) (dstW x1) (ofArr x0) n k := by
  have hz : ∀ i, val_main_v11 (F := Ideal) i = 0 := fun i => by
    rw [val_main_v11_apply, val_main_cst_apply]; exact Ideal.ofBits_zero_f32
  have hs : (fun x : Fin nE => rowOf (val_main_v9 (F := Ideal) x1 (ix2 x (0 : Fin 1)))) = srcRow x1 :=
    funext fun x => by rw [src1_at]; rfl
  have hd : (fun x : Fin nE => val_main_v12 (F := Ideal) x1 (ix2 x (0 : Fin 1))) = dstW x1 :=
    funext fun x => by rw [dst1_at]; rfl
  unfold val_main_v13 val_main_v10
  rw [agg_rows _ x0 _ _ hz n k, hs, hd]

/-- The second layer's aggregate at `(n, k)`, of the first stage as one array. -/
theorem agg2_at (x0 : (⟨S100000x128, .f32⟩ : BufTy).Contents (Elt Ideal)) (x1 : (⟨S2x800000, .i32⟩ : BufTy).Contents (Elt Ideal)) (x2 x3 : (⟨S128x128, .f32⟩ : BufTy).Contents (Elt Ideal)) (x4 : (⟨S128, .f32⟩ : BufTy).Contents (Elt Ideal)) (n : Fin 100000) (k : Fin 128) :
    val_main_v30 (F := Ideal) x0 x1 x2 x3 x4 (ix2 n k)
      = agg (srcRow x1) (dstW x1) (ofArr (val_main_v20 (F := Ideal) x0 x1 x2 x3 x4)) n k := by
  have hz : ∀ i, val_main_v28 (F := Ideal) i = 0 := fun i => by
    rw [val_main_v28_apply, val_main_cst_3_apply]; exact Ideal.ofBits_zero_f32
  have hs : (fun x : Fin nE => rowOf (val_main_v26 (F := Ideal) x1 (ix2 x (0 : Fin 1)))) = srcRow x1 :=
    funext fun x => by rw [src2_at]; rfl
  have hd : (fun x : Fin nE => val_main_v29 (F := Ideal) x1 (ix2 x (0 : Fin 1))) = dstW x1 :=
    funext fun x => by rw [dst2_at]; rfl
  unfold val_main_v30 val_main_v27
  rw [agg_rows _ (val_main_v20 (F := Ideal) x0 x1 x2 x3 x4) _ _ hz n k, hs, hd]

/-! ### The dense part -/

/-- The first layer's product with the relation weights at `(n, j)`. -/
theorem rel1_at (x0 : (⟨S100000x128, .f32⟩ : BufTy).Contents (Elt Ideal)) (x1 : (⟨S2x800000, .i32⟩ : BufTy).Contents (Elt Ideal)) (x2 : (⟨S128x128, .f32⟩ : BufTy).Contents (Elt Ideal)) (n : Fin 100000) (j : Fin 128) :
    val_main_v14 (F := Ideal) x0 x1 x2 (ix2 n j) = mm (agg (srcRow x1) (dstW x1) (ofArr x0)) (ofArr x2) n j := by
  rw [val_main_v14_apply]
  refine Finset.sum_congr rfl fun k _ => ?_
  have el : lidx_main_v14 (ix2 n j) k = ix2 n k := funext fun a => Fin.ext (by match a with | ⟨0, _⟩ => rfl | ⟨1, _⟩ => rfl)
  have er : ridx_main_v14 (ix2 n j) k = ix2 k j := funext fun a => Fin.ext (by match a with | ⟨0, _⟩ => rfl | ⟨1, _⟩ => rfl)
  rw [el, er, agg1_at]
  rfl

/-- The first layer's product with the root weights at `(n, j)`. -/
theorem root1_at (x0 : (⟨S100000x128, .f32⟩ : BufTy).Contents (Elt Ideal)) (x3 : (⟨S128x128, .f32⟩ : BufTy).Contents (Elt Ideal)) (n : Fin 100000) (j : Fin 128) :
    val_main_v15 (F := Ideal) x0 x3 (ix2 n j) = mm (ofArr x0) (ofArr x3) n j := by
  rw [val_main_v15_apply]
  refine Finset.sum_congr rfl fun k _ => ?_
  have el : lidx_main_v15 (ix2 n j) k = ix2 n k := funext fun a => Fin.ext (by match a with | ⟨0, _⟩ => rfl | ⟨1, _⟩ => rfl)
  have er : ridx_main_v15 (ix2 n j) k = ix2 k j := funext fun a => Fin.ext (by match a with | ⟨0, _⟩ => rfl | ⟨1, _⟩ => rfl)
  rw [el, er]
  rfl

/-- The first layer's bias, broadcast along the rows, at `(n, j)`. -/
theorem bias1_at (x4 : (⟨S128, .f32⟩ : BufTy).Contents (Elt Ideal)) (n : Fin 100000) (j : Fin 128) :
    val_main_v18 (F := Ideal) x4 (ix2 n j) = ofVec x4 j := by
  have e : idx_main_v17 (idx_main_v18 (ix2 n j)) = ix1 j := funext fun a => Fin.ext (by match a with | ⟨0, _⟩ => rfl)
  rw [val_main_v18_apply, val_main_v17_apply, e]
  rfl

/-- The second layer's product with the relation weights at `(n, j)`. -/
theorem rel2_at (x0 : (⟨S100000x128, .f32⟩ : BufTy).Contents (Elt Ideal)) (x1 : (⟨S2x800000, .i32⟩ : BufTy).Contents (Elt Ideal)) (x2 x3 : (⟨S128x128, .f32⟩ : BufTy).Contents (Elt Ideal)) (x4 : (⟨S128, .f32⟩ : BufTy).Contents (Elt Ideal)) (x5 : (⟨S128x256, .f32⟩ : BufTy).Contents (Elt Ideal)) (n : Fin 100000) (j : Fin 256) :
    val_main_v31 (F := Ideal) x0 x1 x2 x3 x4 x5 (ix2 n j)
      = mm (agg (srcRow x1) (dstW x1) (ofArr (val_main_v20 (F := Ideal) x0 x1 x2 x3 x4))) (ofArr x5) n j := by
  rw [val_main_v31_apply]
  refine Finset.sum_congr rfl fun k _ => ?_
  have el : lidx_main_v31 (ix2 n j) k = ix2 n k := funext fun a => Fin.ext (by match a with | ⟨0, _⟩ => rfl | ⟨1, _⟩ => rfl)
  have er : ridx_main_v31 (ix2 n j) k = ix2 k j := funext fun a => Fin.ext (by match a with | ⟨0, _⟩ => rfl | ⟨1, _⟩ => rfl)
  rw [el, er, agg2_at]
  rfl

/-- The second layer's product with the root weights at `(n, j)`. -/
theorem root2_at (x0 : (⟨S100000x128, .f32⟩ : BufTy).Contents (Elt Ideal)) (x1 : (⟨S2x800000, .i32⟩ : BufTy).Contents (Elt Ideal)) (x2 x3 : (⟨S128x128, .f32⟩ : BufTy).Contents (Elt Ideal)) (x4 : (⟨S128, .f32⟩ : BufTy).Contents (Elt Ideal)) (x6 : (⟨S128x256, .f32⟩ : BufTy).Contents (Elt Ideal)) (n : Fin 100000) (j : Fin 256) :
    val_main_v32 (F := Ideal) x0 x1 x2 x3 x4 x6 (ix2 n j)
      = mm (ofArr (val_main_v20 (F := Ideal) x0 x1 x2 x3 x4)) (ofArr x6) n j := by
  rw [val_main_v32_apply]
  refine Finset.sum_congr rfl fun k _ => ?_
  have el : lidx_main_v32 (ix2 n j) k = ix2 n k := funext fun a => Fin.ext (by match a with | ⟨0, _⟩ => rfl | ⟨1, _⟩ => rfl)
  have er : ridx_main_v32 (ix2 n j) k = ix2 k j := funext fun a => Fin.ext (by match a with | ⟨0, _⟩ => rfl | ⟨1, _⟩ => rfl)
  rw [el, er]
  rfl

/-- The second layer's bias, broadcast along the rows, at `(n, j)`. -/
theorem bias2_at (x7 : (⟨S256, .f32⟩ : BufTy).Contents (Elt Ideal)) (n : Fin 100000) (j : Fin 256) :
    val_main_v35 (F := Ideal) x7 (ix2 n j) = ofVec x7 j := by
  have e : idx_main_v34 (idx_main_v35 (ix2 n j)) = ix1 j := funext fun a => Fin.ext (by match a with | ⟨0, _⟩ => rfl)
  rw [val_main_v35_apply, val_main_v34_apply, e]
  rfl

/-! ### The rectified layers -/

/-- The stage after the first rectifier, at `(n, j)`: the first hidden layer. -/
theorem stage_hidden1 (x0 : (⟨S100000x128, .f32⟩ : BufTy).Contents (Elt Ideal)) (x1 : (⟨S2x800000, .i32⟩ : BufTy).Contents (Elt Ideal)) (x2 x3 : (⟨S128x128, .f32⟩ : BufTy).Contents (Elt Ideal)) (x4 : (⟨S128, .f32⟩ : BufTy).Contents (Elt Ideal)) (n : Fin 100000) (j : Fin 128) :
    val_main_v20 (F := Ideal) x0 x1 x2 x3 x4 (ix2 n j)
      = hidden1 (srcRow x1) (dstW x1) (ofArr x0) (ofArr x2) (ofArr x3) (ofVec x4) n j := by
  have hz : val_main_call0_v0 (F := Ideal) (ix2 n j) = 0 := by
    rw [val_main_call0_v0_apply, val_main_call0_cst_apply]; exact Ideal.ofBits_zero_f32
  rw [val_main_v20_apply, val_main_v19_apply, val_main_v16_apply, rel1_at, root1_at, bias1_at, hz,
    Ideal.maximumf_def, Ideal.addf_def, Ideal.addf_def]
  rfl

/-- The stage after the second rectifier, at `(n, j)`: the second hidden layer of the stage after the first. -/
theorem stage_hidden2 (x0 : (⟨S100000x128, .f32⟩ : BufTy).Contents (Elt Ideal)) (x1 : (⟨S2x800000, .i32⟩ : BufTy).Contents (Elt Ideal)) (x2 x3 : (⟨S128x128, .f32⟩ : BufTy).Contents (Elt Ideal)) (x4 : (⟨S128, .f32⟩ : BufTy).Contents (Elt Ideal)) (x5 x6 : (⟨S128x256, .f32⟩ : BufTy).Contents (Elt Ideal)) (x7 : (⟨S256, .f32⟩ : BufTy).Contents (Elt Ideal)) (n : Fin 100000) (j : Fin 256) :
    val_main_v37 (F := Ideal) x0 x1 x2 x3 x4 x5 x6 x7 (ix2 n j)
      = hidden2 (srcRow x1) (dstW x1) (ofArr (val_main_v20 (F := Ideal) x0 x1 x2 x3 x4)) (ofArr x5) (ofArr x6) (ofVec x7) n j := by
  have hz : val_main_call1_v0 (F := Ideal) (ix2 n j) = 0 := by
    rw [val_main_call1_v0_apply, val_main_call1_cst_apply]; exact Ideal.ofBits_zero_f32
  rw [val_main_v37_apply, val_main_v36_apply, val_main_v33_apply, rel2_at, root2_at, bias2_at, hz,
    Ideal.maximumf_def, Ideal.addf_def, Ideal.addf_def]
  rfl

end Cert.ReferenceIdeal.RefValue

end
-- ==== Proof.RefValueB.lean ====
/-
  THE REFERENCE'S THIRD LAYER AND ITS LOG-SOFTMAX, READ AT AN INDEX: the stage before the log-softmax is the third layer (aggregating first) of the second hidden stage and the arguments; the last stage is the row-wise log-softmax of the stage before it.
-/
import proofs.«416603_j41016937677072_3_alg».proof.Proof.RefReadP
import proofs.«416603_j41016937677072_3_alg».proof.Proof.Spec
import proofs.«416603_j41016937677072_3_alg».proof.Proof.HostAgg
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

set_option maxRecDepth 16384

noncomputable section

namespace Cert.ReferenceIdeal.RefValue

open Cert.ReferenceIdeal Cert.ReferenceIdeal.Gen Cert.ReferenceIdeal.ReadP Cert.GraphConv
open Idealize.ShloMosaic Idealize.ShloMosaic.TcCoe Idealize.ShloMosaic.ValueIdx Idealize.SL.Sem Idealize.ShloMosaic.StableHlo
open scoped BigOperators

/-- A gather of the rows of `H` at source words `si`, added into an array of zeros along destination words `di`, at
    `(n, k)`: the aggregate of `H` along any edge maps that read those words. -/
theorem agg256_apply (z H : S100000x256.Idx → EReal) (hz : ∀ i, z i = 0) (si di : S800000x1.Idx → BitVec 32)
    (src : Fin nE → Fin nN) (dst : Fin nE → BitVec 32) (hs : ∀ x : Fin nE, rowOf (si (ix2 x (0 : Fin 1))) = src x)
    (hd : ∀ x : Fin nE, di (ix2 x (0 : Fin 1)) = dst x) (n : Fin 100000) (k : Fin 256) :
    Host.scatterAdd (F := Ideal) (φ := .f32) scatter_S100000x256_S800000x1_S800000x256_1_0_0_1 z di
        (Host.gather (α := EReal) gather_S100000x256_S800000x1_S800000x256_1_0_n_n_0_1_1256 H si) (ix2 n k)
      = agg src dst (ofArr H) n k := by
  obtain rfl : (fun x : Fin nE => rowOf (si (ix2 x (0 : Fin 1)))) = src := funext hs
  obtain rfl : (fun x : Fin nE => di (ix2 x (0 : Fin 1))) = dst := funext hd
  exact scatterAdd_gather_rows (K := 256) gather_S100000x256_S800000x1_S800000x256_1_0_n_n_0_1_1256_wf
    scatter_S100000x256_S800000x1_S800000x256_1_0_0_1_wf z H hz si di n k

section Layer3

variable (x1 : (⟨S2x800000, .i32⟩ : BufTy).Contents (Elt Ideal))

/-- Edge `x`'s source word: the reshaped first row of the index array at `x`. -/
theorem srcWord_apply (x : Fin 800000) : val_main_v1 (F := Ideal) x1 (ix1 x) = x1 (ix2 (0 : Fin 2) x) := by
  rw [val_main_v1_apply, val_main_v0_apply]
  exact congrArg x1 (funext fun a => Fin.ext (by
    match a with
    | ⟨0, _⟩ => rfl
    | ⟨1, _⟩ => exact Nat.mod_eq_of_lt x.isLt))

/-- Edge `x`'s destination word: the reshaped second row of the index array at `x`, broadcast to a column. -/
theorem dstWord3_apply (x : Fin 800000) : val_main_v46 (F := Ideal) x1 (ix2 x (0 : Fin 1)) = x1 (ix2 (1 : Fin 2) x) := by
  rw [val_main_v46_apply, val_main_v3_apply, val_main_v2_apply]
  exact congrArg x1 (funext fun a => Fin.ext (by
    match a with
    | ⟨0, _⟩ => rfl
    | ⟨1, _⟩ => exact Nat.mod_eq_of_lt x.isLt))

/-- Edge `x`'s wrapped source word in the third layer: a negative word has the number of nodes added. -/
theorem wrapped3_apply (x : Fin 800000) :
    val_main_v43 (F := Ideal) x1 (ix2 x (0 : Fin 1)) = wrapW (x1 (ix2 (0 : Fin 2) x)) := by
  have e : idx_main_v43 (ix2 x (0 : Fin 1)) = ix1 x := funext fun a => Fin.ext (by match a with | ⟨0, _⟩ => rfl)
  rw [val_main_v43_apply, e, val_main_v42_apply, val_main_v39_apply, val_main_v41_apply, val_main_v38_apply,
    val_main_v40_apply, val_main_c_4_apply, val_main_c_5_apply, srcWord_apply]
  rfl

/-- The third layer's scatter starts from an array of zeros. -/
theorem zero3_apply (i : S100000x256.Idx) : val_main_v45 (F := Ideal) i = 0 := by
  rw [val_main_v45_apply, val_main_cst_6_apply]
  exact Ideal.ofBits_zero_f32

end Layer3

/-- The third layer's aggregate at `(n, k)`: the aggregate of the second hidden stage. -/
theorem aggStage3_apply (x0 : (⟨S100000x128, .f32⟩ : BufTy).Contents (Elt Ideal)) (x1 : (⟨S2x800000, .i32⟩ : BufTy).Contents (Elt Ideal)) (x2 x3 : (⟨S128x128, .f32⟩ : BufTy).Contents (Elt Ideal)) (x4 : (⟨S128, .f32⟩ : BufTy).Contents (Elt Ideal)) (x5 x6 : (⟨S128x256, .f32⟩ : BufTy).Contents (Elt Ideal)) (x7 : (⟨S256, .f32⟩ : BufTy).Contents (Elt Ideal)) (n : Fin 100000) (k : Fin 256) :
    val_main_v47 (F := Ideal) x0 x1 x2 x3 x4 x5 x6 x7 (ix2 n k)
      = agg (srcRow x1) (dstW x1) (ofArr (val_main_v37 (F := Ideal) x0 x1 x2 x3 x4 x5 x6 x7)) n k := by
  unfold val_main_v47 val_main_v44
  exact agg256_apply _ _ zero3_apply _ _ _ _ (fun x => by rw [wrapped3_apply]; rfl) (fun x => dstWord3_apply x1 x) n k

/-- The stage before the log-softmax, at `(n, j)`: the third layer, aggregating first, of the second hidden stage. -/
theorem stage_conv3 (x0 : (⟨S100000x128, .f32⟩ : BufTy).Contents (Elt Ideal)) (x1 : (⟨S2x800000, .i32⟩ : BufTy).Contents (Elt Ideal)) (x2 x3 : (⟨S128x128, .f32⟩ : BufTy).Contents (Elt Ideal)) (x4 : (⟨S128, .f32⟩ : BufTy).Contents (Elt Ideal)) (x5 x6 : (⟨S128x256, .f32⟩ : BufTy).Contents (Elt Ideal)) (x7 : (⟨S256, .f32⟩ : BufTy).Contents (Elt Ideal)) (x8 x9 : (⟨S256x16, .f32⟩ : BufTy).Contents (Elt Ideal)) (x10 : (⟨S16, .f32⟩ : BufTy).Contents (Elt Ideal)) (n : Fin 100000) (j : Fin 16) :
    val_main_v53 (F := Ideal) x0 x1 x2 x3 x4 x5 x6 x7 x8 x9 x10 (ix2 n j)
      = conv (srcRow x1) (dstW x1) (ofArr (val_main_v37 (F := Ideal) x0 x1 x2 x3 x4 x5 x6 x7)) (ofArr x8) (ofArr x9) (ofVec x10) n j := by
  have eb : idx_main_v51 (idx_main_v52 (ix2 n j)) = ix1 j := funext fun a => Fin.ext (by match a with | ⟨0, _⟩ => rfl)
  rw [val_main_v53_apply, val_main_v50_apply, val_main_v48_apply, val_main_v49_apply, val_main_v52_apply, val_main_v51_apply, eb,
    Ideal.addf_def, Ideal.addf_def]
  unfold conv mm
  refine congrArg₂ (· + ·) (congrArg₂ (· + ·) (Finset.sum_congr rfl fun k _ => ?_) (Finset.sum_congr rfl fun k _ => ?_)) rfl
  · have e1 : lidx_main_v48 (ix2 n j) k = ix2 n k :=
      funext fun a => Fin.ext (by match a with | ⟨0, _⟩ => rfl | ⟨1, _⟩ => rfl)
    have e2 : ridx_main_v48 (ix2 n j) k = ix2 k j :=
      funext fun a => Fin.ext (by match a with | ⟨0, _⟩ => rfl | ⟨1, _⟩ => rfl)
    rw [e1, e2, aggStage3_apply]
    rfl
  · have e1 : lidx_main_v49 (ix2 n j) k = ix2 n k :=
      funext fun a => Fin.ext (by match a with | ⟨0, _⟩ => rfl | ⟨1, _⟩ => rfl)
    have e2 : ridx_main_v49 (ix2 n j) k = ix2 k j :=
      funext fun a => Fin.ext (by match a with | ⟨0, _⟩ => rfl | ⟨1, _⟩ => rfl)
    rw [e1, e2]
    rfl

/-- The bit pattern of minus infinity is the bottom element of the extended reals. -/
theorem negInf_f32 : Ideal.ofBits .f32 0xFF800000#32 = ⊥ := by simp [Ideal.ofBits, Ideal.ieee]

/-- A maximum-reduce over axis 1 of a `[100000, 16]` array from a minus-infinity initial value, at row `n`: the fold of
    `max` from `⊥` over the row. -/
theorem rowMax_apply (Y : S100000x16.Idx → EReal) (n : Fin 100000) :
    Host.reduce (α := EReal) (FloatOps.maximumf (F := Ideal) (φ := .f32)) Y (val_main_call2_cst (F := Ideal)) reducesTo_S100000x16_S100000_d1 h_S_ (ix1 n)
      = (Finset.univ : Finset (Fin 16)).fold max ⊥ (fun q => Y (ix2 n q)) := by
  rw [Host.reduce_eq_fold_single (FloatOps.maximumf (F := Ideal) (φ := .f32)) Y _ reducesTo_S100000x16_S100000_d1 (by decide) h_S_]
  have e1 : (val_main_call2_cst (F := Ideal)) (Shape.Idx.first h_S_) = (⊥ : EReal) := negInf_f32
  rw [e1]
  show Finset.fold max (⊥ : EReal) _ (Finset.univ : Finset (Fin 16)) = _
  refine congrArg (fun g => Finset.fold max (⊥ : EReal) g (Finset.univ : Finset (Fin 16))) (funext fun q => congrArg Y (funext fun a => Fin.ext ?_))
  match a with
  | ⟨0, _⟩ => rfl
  | ⟨1, _⟩ => rfl

/-- The index chains of the log-softmax: the two broadcasts of a per-row value read it at the row, and the sum's
    `k`-th term is read at column `k` of the row. -/
theorem idx_rowMax (n : Fin 100000) (j : Fin 16) : idx_main_call2_v3 (idx_main_call2_v4 (ix2 n j)) = ix1 n :=
  funext fun a => Fin.ext (by match a with | ⟨0, _⟩ => rfl)
theorem idx_rowSum (n : Fin 100000) (j : Fin 16) : idx_main_call2_v8 (idx_main_call2_v10 (ix2 n j)) = ix1 n :=
  funext fun a => Fin.ext (by match a with | ⟨0, _⟩ => rfl)
theorem idx_rowTerm (n : Fin 100000) (k : Fin 16) : idx_main_call2_v7 (ix1 n) k = ix2 n k :=
  funext fun a => Fin.ext (by match a with | ⟨0, _⟩ => rfl | ⟨1, _⟩ => rfl)

section LogSoftmax

variable (x0 : (⟨S100000x128, .f32⟩ : BufTy).Contents (Elt Ideal)) (x1 : (⟨S2x800000, .i32⟩ : BufTy).Contents (Elt Ideal)) (x2 x3 : (⟨S128x128, .f32⟩ : BufTy).Contents (Elt Ideal)) (x4 : (⟨S128, .f32⟩ : BufTy).Contents (Elt Ideal)) (x5 x6 : (⟨S128x256, .f32⟩ : BufTy).Contents (Elt Ideal)) (x7 : (⟨S256, .f32⟩ : BufTy).Contents (Elt Ideal)) (x8 x9 : (⟨S256x16, .f32⟩ : BufTy).Contents (Elt Ideal)) (x10 : (⟨S16, .f32⟩ : BufTy).Contents (Elt Ideal))

/-- The row's shift: the larger of minus infinity and the row's maximum, broadcast along the row. -/
theorem rowShift_apply (n : Fin 100000) (q : Fin 16) :
    val_main_call2_v4 (F := Ideal) x0 x1 x2 x3 x4 x5 x6 x7 x8 x9 x10 (ix2 n q)
      = max ⊥ ((Finset.univ : Finset (Fin 16)).fold max ⊥ (fun k => val_main_v53 (F := Ideal) x0 x1 x2 x3 x4 x5 x6 x7 x8 x9 x10 (ix2 n k))) := by
  rw [val_main_call2_v4_apply, val_main_call2_v3_apply, idx_rowMax n q, val_main_call2_v2_apply, val_main_call2_v1_apply,
    val_main_call2_cst_0_apply]
  show max (Ideal.ofBits .f32 0xFF800000#32) (val_main_call2_v0 (F := Ideal) x0 x1 x2 x3 x4 x5 x6 x7 x8 x9 x10 (ix1 n)) = _
  rw [negInf_f32]
  exact congrArg (max ⊥) (rowMax_apply _ n)

/-- The shifted entry. -/
theorem shifted_apply (n : Fin 100000) (q : Fin 16) :
    val_main_call2_v5 (F := Ideal) x0 x1 x2 x3 x4 x5 x6 x7 x8 x9 x10 (ix2 n q)
      = val_main_v53 (F := Ideal) x0 x1 x2 x3 x4 x5 x6 x7 x8 x9 x10 (ix2 n q)
        - max ⊥ ((Finset.univ : Finset (Fin 16)).fold max ⊥ (fun k => val_main_v53 (F := Ideal) x0 x1 x2 x3 x4 x5 x6 x7 x8 x9 x10 (ix2 n k))) := by
  rw [val_main_call2_v5_apply, rowShift_apply]
  rfl

/-- The row's sum of the exponentials of the shifted entries, from a zero initial value. -/
theorem rowSum_apply (n : Fin 100000) :
    val_main_call2_v7 (F := Ideal) x0 x1 x2 x3 x4 x5 x6 x7 x8 x9 x10 (ix1 n)
      = ∑ q : Fin 16, Ideal.exp (val_main_v53 (F := Ideal) x0 x1 x2 x3 x4 x5 x6 x7 x8 x9 x10 (ix2 n q)
        - max ⊥ ((Finset.univ : Finset (Fin 16)).fold max ⊥ (fun k => val_main_v53 (F := Ideal) x0 x1 x2 x3 x4 x5 x6 x7 x8 x9 x10 (ix2 n k)))) := by
  rw [val_main_call2_v7_apply, val_main_call2_cst_1_apply]
  show Ideal.ofBits .f32 0x00000000#32 + _ = _
  rw [Ideal.ofBits_zero_f32, zero_add]
  refine Finset.sum_congr rfl (fun q _ => ?_)
  rw [idx_rowTerm n q, val_main_call2_v6_apply, shifted_apply, Ideal.hostUnary_exp_def]

end LogSoftmax

/-- The last stage, at `(n, j)`: the row-wise log-softmax of the stage before it. -/
theorem stage_lsm (x0 : (⟨S100000x128, .f32⟩ : BufTy).Contents (Elt Ideal)) (x1 : (⟨S2x800000, .i32⟩ : BufTy).Contents (Elt Ideal)) (x2 x3 : (⟨S128x128, .f32⟩ : BufTy).Contents (Elt Ideal)) (x4 : (⟨S128, .f32⟩ : BufTy).Contents (Elt Ideal)) (x5 x6 : (⟨S128x256, .f32⟩ : BufTy).Contents (Elt Ideal)) (x7 : (⟨S256, .f32⟩ : BufTy).Contents (Elt Ideal)) (x8 x9 : (⟨S256x16, .f32⟩ : BufTy).Contents (Elt Ideal)) (x10 : (⟨S16, .f32⟩ : BufTy).Contents (Elt Ideal)) (n : Fin 100000) (j : Fin 16) :
    val_main_v54 (F := Ideal) x0 x1 x2 x3 x4 x5 x6 x7 x8 x9 x10 (ix2 n j)
      = lsm (ofArr (val_main_v53 (F := Ideal) x0 x1 x2 x3 x4 x5 x6 x7 x8 x9 x10)) n j := by
  rw [val_main_v54_apply, shifted_apply, val_main_call2_v10_apply, val_main_call2_v9_apply, val_main_call2_v8_apply,
    idx_rowSum n j, rowSum_apply, Ideal.hostUnary_log_def, Ideal.subf_def]
  unfold lsm ofArr
  rfl

end Cert.ReferenceIdeal.RefValue

end
-- ==== Proof.RefValue.lean ====
/-
  THE REFERENCE PROGRAM'S RESULT IS THE NETWORK THAT AGGREGATES FIRST IN EVERY LAYER: its last stage, as a function of the argument arrays, is `netAgg` of them as matrices, index by index: the four stages (two hidden layers, the third layer, the log-softmax) chained.
-/
import proofs.«416603_j41016937677072_3_alg».proof.Proof.RefReadP
import proofs.«416603_j41016937677072_3_alg».proof.Proof.Spec
import proofs.«416603_j41016937677072_3_alg».proof.Proof.HostAgg
import proofs.«416603_j41016937677072_3_alg».proof.Proof.RefValueA
import proofs.«416603_j41016937677072_3_alg».proof.Proof.RefValueB
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Gen Cert.ReferenceIdeal.ReadP Cert.GraphConv
open Idealize.ShloMosaic Idealize.ShloMosaic.TcCoe Idealize.ShloMosaic.ValueIdx Idealize.SL.Sem Idealize.ShloMosaic.StableHlo
open scoped BigOperators

/-- The reference's last stage of the argument arrays is the network, aggregating first in every layer, of the arguments
    read as matrices and vectors, the source rows and destination words read off the edge array. -/
theorem value (x0 : (⟨S100000x128, .f32⟩ : BufTy).Contents (Elt Ideal)) (x1 : (⟨S2x800000, .i32⟩ : BufTy).Contents (Elt Ideal)) (x2 x3 : (⟨S128x128, .f32⟩ : BufTy).Contents (Elt Ideal)) (x4 : (⟨S128, .f32⟩ : BufTy).Contents (Elt Ideal)) (x5 x6 : (⟨S128x256, .f32⟩ : BufTy).Contents (Elt Ideal)) (x7 : (⟨S256, .f32⟩ : BufTy).Contents (Elt Ideal)) (x8 x9 : (⟨S256x16, .f32⟩ : BufTy).Contents (Elt Ideal)) (x10 : (⟨S16, .f32⟩ : BufTy).Contents (Elt Ideal)) :
    val_main_v54 (F := Ideal) x0 x1 x2 x3 x4 x5 x6 x7 x8 x9 x10
      = toArr (netAgg (srcRow x1) (dstW x1) (ofArr x0) (ofArr x2) (ofArr x3) (ofVec x4) (ofArr x5) (ofArr x6) (ofVec x7)
          (ofArr x8) (ofArr x9) (ofVec x10)) := by
  funext i
  obtain ⟨n, j, rfl⟩ : ∃ (n : Fin 100000) (j : Fin 16), i = ix2 n j := ⟨i 0, i 1, eq_ix2 i⟩
  rw [toArr_ix2, stage_lsm]
  have h1 : ofArr (val_main_v20 (F := Ideal) x0 x1 x2 x3 x4)
      = hidden1 (srcRow x1) (dstW x1) (ofArr x0) (ofArr x2) (ofArr x3) (ofVec x4) :=
    funext fun n => funext fun j => stage_hidden1 x0 x1 x2 x3 x4 n j
  have h2 : ofArr (val_main_v37 (F := Ideal) x0 x1 x2 x3 x4 x5 x6 x7)
      = hidden2 (srcRow x1) (dstW x1) (hidden1 (srcRow x1) (dstW x1) (ofArr x0) (ofArr x2) (ofArr x3) (ofVec x4)) (ofArr x5) (ofArr x6) (ofVec x7) := by
    rw [← h1]; exact funext fun n => funext fun j => stage_hidden2 x0 x1 x2 x3 x4 x5 x6 x7 n j
  have h3 : ofArr (val_main_v53 (F := Ideal) x0 x1 x2 x3 x4 x5 x6 x7 x8 x9 x10)
      = conv (srcRow x1) (dstW x1) (hidden2 (srcRow x1) (dstW x1) (hidden1 (srcRow x1) (dstW x1) (ofArr x0) (ofArr x2) (ofArr x3) (ofVec x4)) (ofArr x5) (ofArr x6) (ofVec x7)) (ofArr x8) (ofArr x9) (ofVec x10) := by
    rw [← h2]; exact funext fun n => funext fun j => stage_conv3 x0 x1 x2 x3 x4 x5 x6 x7 x8 x9 x10 n j
  rw [h3]
  rfl

end Cert.ReferenceIdeal.RefValue

end
-- ==== Proof.lean ====
/-
  THE CERTIFICATE: a three-layer graph convolution with a log-softmax, computed by four dense regions among host gathers and
  scatter-adds, against the plain reference.

  Both programs gather the source rows of the node features and add them into the destination rows, multiply by the relation
  weights, add the features times the root weights and the bias, and rectify, twice; the kernel's gather fills reads outside
  the node range with a value that is junk on the extended reals where the reference's gather clamps, which is why the
  statement carries the evident domain of the source words (each a node). In the third layer the kernel multiplies the hidden
  features by the relation weights BEFORE gathering and adding, the reference after: on real data the two are one sum
  reordered (`Cert.GraphConv.netPre_eq_netAgg`), and the precondition makes every argument real, hence both hidden layers.
  Both end with the same row-wise log-softmax. The three frames are the generated frames of the kernel programs and the
  reference's run read back; `preserves` has no conjunct.
-/
import proofs.«416603_j41016937677072_3_alg».proof.Defs
import proofs.«416603_j41016937677072_3_alg».proof.Proof.Gen.Kernel
import proofs.«416603_j41016937677072_3_alg».proof.Proof.Gen.Kernel.Skeleton
import proofs.«416603_j41016937677072_3_alg».proof.Proof.Gen.Kernel.Launch
import proofs.«416603_j41016937677072_3_alg».proof.Proof.Gen.Kernel.Points
import proofs.«416603_j41016937677072_3_alg».proof.Proof.Gen.Kernel.Frame
import proofs.«416603_j41016937677072_3_alg».proof.Proof.Gen.KernelIdeal
import proofs.«416603_j41016937677072_3_alg».proof.Proof.Gen.KernelIdeal.Skeleton
import proofs.«416603_j41016937677072_3_alg».proof.Proof.Gen.KernelIdeal.Launch
import proofs.«416603_j41016937677072_3_alg».proof.Proof.Gen.KernelIdeal.Points
import proofs.«416603_j41016937677072_3_alg».proof.Proof.Gen.KernelIdeal.Frame
import proofs.«416603_j41016937677072_3_alg».proof.Proof.Gen.ReferenceIdeal
import proofs.«416603_j41016937677072_3_alg».proof.Proof.Gen.Pre_finite_inputs
import proofs.«416603_j41016937677072_3_alg».proof.Proof.Spec
import proofs.«416603_j41016937677072_3_alg».proof.Proof.Algebra
import proofs.«416603_j41016937677072_3_alg».proof.Proof.PreFacts
import proofs.«416603_j41016937677072_3_alg».proof.Proof.KValue
import proofs.«416603_j41016937677072_3_alg».proof.Proof.RefRun
import proofs.«416603_j41016937677072_3_alg».proof.Proof.RefValue
import Idealize.ShloMosaic.Adequacy
import Idealize.ShloMosaic.Init

noncomputable section

namespace Cert.Proof

open Idealize.ShloMosaic Idealize.SL.Sem Cert.GraphConv

attribute [local instance] Cert.Kernel.Gen.facts Cert.KernelIdeal.Gen.facts Cert.ReferenceIdeal.Gen.facts Cert.Pre_finite_inputs.Gen.facts

/-- The reference's frame: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- From memories agreeing on the arguments, whose float arrays are real and whose source words are nodes, both programs end
    at the same network of the arguments: the kernel at the one that applies the third layer's relation weights first, the
    reference at the one that aggregates first, equal on real data. -/
theorem algebraic : Cert.algebraic_KernelIdeal_ReferenceIdeal := by
  intro m ρ m' ρ' hpre hagree
  have hf := fun c : Dev Cert.KernelIdeal.nD => pre_facts _ _ _ _ _ _ _ _ _ _ _ (hpre c)
  refine ⟨fun c => toArr (netPre (srcRow (m ((c.tc : Thread Cert.KernelIdeal.nD Cert.KernelIdeal.τ).loc Cert.KernelIdeal.main_arg1))) (dstW (m ((c.tc : Thread Cert.KernelIdeal.nD Cert.KernelIdeal.τ).loc Cert.KernelIdeal.main_arg1))) (ofArr (m ((c.tc : Thread Cert.KernelIdeal.nD Cert.KernelIdeal.τ).loc Cert.KernelIdeal.main_arg0))) (ofArr (m ((c.tc : Thread Cert.KernelIdeal.nD Cert.KernelIdeal.τ).loc Cert.KernelIdeal.main_arg2))) (ofArr (m ((c.tc : Thread Cert.KernelIdeal.nD Cert.KernelIdeal.τ).loc Cert.KernelIdeal.main_arg3))) (ofVec (m ((c.tc : Thread Cert.KernelIdeal.nD Cert.KernelIdeal.τ).loc Cert.KernelIdeal.main_arg4)))
      (ofArr (m ((c.tc : Thread Cert.KernelIdeal.nD Cert.KernelIdeal.τ).loc Cert.KernelIdeal.main_arg5))) (ofArr (m ((c.tc : Thread Cert.KernelIdeal.nD Cert.KernelIdeal.τ).loc Cert.KernelIdeal.main_arg6))) (ofVec (m ((c.tc : Thread Cert.KernelIdeal.nD Cert.KernelIdeal.τ).loc Cert.KernelIdeal.main_arg7))) (ofArr (m ((c.tc : Thread Cert.KernelIdeal.nD Cert.KernelIdeal.τ).loc Cert.KernelIdeal.main_arg8))) (ofArr (m ((c.tc : Thread Cert.KernelIdeal.nD Cert.KernelIdeal.τ).loc Cert.KernelIdeal.main_arg9))) (ofVec (m ((c.tc : Thread Cert.KernelIdeal.nD Cert.KernelIdeal.τ).loc Cert.KernelIdeal.main_arg10)))),
    Cert.KernelIdeal.KVal.run m ρ (fun c => (hf c).2.1), ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.value]
  obtain ⟨e0, e1, e2, e3, e4, e5, e6, e7, e8, e9, e10⟩ := hagree c
  rw [e0, e1, e2, e3, e4, e5, e6, e7, e8, e9, e10]
  obtain ⟨h0, -, h2, h3, h4, h5, h6, h7, h8, -, -⟩ := hf c
  refine congrArg toArr (netPre_eq_netAgg _ _ _ _ _ _ _ _ _ _ _ _
    (fun i k => h0 _) (fun i k => h2 _) (fun i k => h3 _) (fun j => h4 _) (fun i k => h5 _) (fun i k => h6 _) (fun j => h7 _)
    (fun i k => h8 _)).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ri, trivial, algebraic⟩

end Cert.Proof

end
